-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024x4 : Shape := ⟨4, ![16, 1024, 1024, 4]⟩
abbrev S4 : Shape := ⟨1, ![4]⟩
abbrev S_ : Shape := ⟨0, ![]⟩

class Facts : Prop where
  bcast_S_S16x1024x1024x4 : S_.BroadcastsInDim S16x1024x1024x4 (![] : Fin 0 → Fin S16x1024x1024x4.rank)
  reducesTo_S16x1024x1024x4_S_d0_1_2_3 : S16x1024x1024x4.ReducesTo [0, 1, 2, 3] S_
  h_S_ : 0 < S_.numel

variable [Facts]

def fn {F : FTy → Type} [FloatOps F] (main_arg0 : FVec F S16x1024x1024x4 .f32) (main_arg1 : FVec F S16x1024x1024x4 .f32) (main_arg2 : IVec S4 32) : IVec S_ 1 :=
  let main_v0 : FVec F S16x1024x1024x4 .f32 := Host.absf main_arg0
  let main_cst : FVec F S_ .f32 := constant S_ .f32 0x7F800000#32
  let main_v1 : FVec F S16x1024x1024x4 .f32 := broadcastInDim S16x1024x1024x4 ![] bcast_S_S16x1024x1024x4 main_cst
  let main_v2 : IVec S16x1024x1024x4 1 := cmpf .olt main_v0 main_v1
  let main_c : IVec S_ 1 := constantI S_ 1 1#1
  let main_v3 : IVec S_ 1 := (fun x v => Host.reduce IntOp.andi x v reducesTo_S16x1024x1024x4_S_d0_1_2_3 h_S_) main_v2 main_c
  let main_v4 : FVec F S16x1024x1024x4 .f32 := Host.absf main_arg1
  let main_cst_0 : FVec F S_ .f32 := constant S_ .f32 0x7F800000#32
  let main_v5 : FVec F S16x1024x1024x4 .f32 := broadcastInDim S16x1024x1024x4 ![] bcast_S_S16x1024x1024x4 main_cst_0
  let main_v6 : IVec S16x1024x1024x4 1 := cmpf .olt main_v4 main_v5
  let main_c_1 : IVec S_ 1 := constantI S_ 1 1#1
  let main_v7 : IVec S_ 1 := (fun x v => Host.reduce IntOp.andi x v reducesTo_S16x1024x1024x4_S_d0_1_2_3 h_S_) main_v6 main_c_1
  let main_v8 : IVec S_ 1 := andi main_v3 main_v7
  main_v8
-- ==== Kernel.lean ====
abbrev S16x1024x1024x4 : Shape := ⟨4, ![16, 1024, 1024, 4]⟩
abbrev S4 : Shape := ⟨1, ![4]⟩
abbrev S1 : Shape := ⟨1, ![1]⟩
abbrev S3 : Shape := ⟨1, ![3]⟩
abbrev S_ : Shape := ⟨0, ![]⟩
abbrev S1024 : Shape := ⟨1, ![1024]⟩
abbrev S4x1 : Shape := ⟨2, ![4, 1]⟩
abbrev S1024x1 : Shape := ⟨2, ![1024, 1]⟩
abbrev S1x1 : Shape := ⟨2, ![1, 1]⟩
abbrev S16x1024x4096 : Shape := ⟨3, ![16, 1024, 4096]⟩
abbrev S1024x4 : Shape := ⟨2, ![1024, 4]⟩
abbrev S4096 : Shape := ⟨1, ![4096]⟩
abbrev S1x4096 : Shape := ⟨2, ![1, 4096]⟩
abbrev S1x4 : Shape := ⟨2, ![1, 4]⟩
abbrev S16x8x128 : Shape := ⟨3, ![16, 8, 128]⟩
abbrev S1x512x4096 : Shape := ⟨3, ![1, 512, 4096]⟩
abbrev S512x1 : Shape := ⟨2, ![512, 1]⟩
abbrev S1x8x128 : Shape := ⟨3, ![1, 8, 128]⟩
abbrev S512x4096 : Shape := ⟨2, ![512, 4096]⟩
abbrev S1x1x1 : Shape := ⟨3, ![1, 1, 1]⟩
abbrev S1x124 : Shape := ⟨2, ![1, 124]⟩
abbrev S1x128 : Shape := ⟨2, ![1, 128]⟩
abbrev S7x128 : Shape := ⟨2, ![7, 128]⟩
abbrev S8x128 : Shape := ⟨2, ![8, 128]⟩
abbrev S16x1x4 : Shape := ⟨3, ![16, 1, 4]⟩
abbrev S16x4 : Shape := ⟨2, ![16, 4]⟩
abbrev S7 : Shape := ⟨1, ![7]⟩

abbrev nBuf : Space → Nat
  | .hbm => 120
  | .vmem => 11
  | .smem => 0
  | _ => 0

abbrev bufTy : (tb : Table) → Fin (tcTables nBuf tb) → BufTy
  | .hbm, ⟨0, _⟩ => ⟨S16x1024x1024x4, .f32⟩
  | .hbm, ⟨1, _⟩ => ⟨S16x1024x1024x4, .f32⟩
  | .hbm, ⟨2, _⟩ => ⟨S4, .i32⟩
  | .hbm, ⟨3, _⟩ => ⟨S4, .f32⟩
  | .hbm, ⟨4, _⟩ => ⟨S4, .i32⟩
  | .hbm, ⟨5, _⟩ => ⟨S1, .i32⟩
  | .hbm, ⟨6, _⟩ => ⟨S3, .i32⟩
  | .hbm, ⟨7, _⟩ => ⟨S4, .i32⟩
  | .hbm, ⟨8, _⟩ => ⟨S_, .i32⟩
  | .hbm, ⟨9, _⟩ => ⟨S1, .i32⟩
  | .hbm, ⟨10, _⟩ => ⟨S_, .i32⟩
  | .hbm, ⟨11, _⟩ => ⟨S4, .i32⟩
  | .hbm, ⟨12, _⟩ => ⟨S_, .i32⟩
  | .hbm, ⟨13, _⟩ => ⟨S_, .i32⟩
  | .hbm, ⟨14, _⟩ => ⟨S4, .i32⟩
  | .hbm, ⟨15, _⟩ => ⟨S_, .i32⟩
  | .hbm, ⟨16, _⟩ => ⟨S1024, .i32⟩
  | .hbm, ⟨17, _⟩ => ⟨S_, .i32⟩
  | .hbm, ⟨18, _⟩ => ⟨S4, .i32⟩
  | .hbm, ⟨19, _⟩ => ⟨S4, .i1⟩
  | .hbm, ⟨20, _⟩ => ⟨S_, .i32⟩
  | .hbm, ⟨21, _⟩ => ⟨S4, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S_, .i32⟩
  | .hbm, ⟨26, _⟩ => ⟨S4, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1, .i32⟩
  | .hbm, ⟨43, _⟩ => ⟨S_, .i32⟩
  | .hbm, ⟨44, _⟩ => ⟨S1024x1, .i32⟩
  | .hbm, ⟨45, _⟩ => ⟨S1024x1, .i1⟩
  | .hbm, ⟨46, _⟩ => ⟨S1x1, .i32⟩
  | .hbm, ⟨47, _⟩ => ⟨S1024x1, .i32⟩
  | .hbm, ⟨48, _⟩ => ⟨S1024x1, .i1⟩
  | .hbm, ⟨49, _⟩ => ⟨S1024x1, .i1⟩
  | .hbm, ⟨50, _⟩ => ⟨S_, .i1⟩
  | .hbm, ⟨51, _⟩ => ⟨S1024, .i1⟩
  | .hbm, ⟨52, _⟩ => ⟨S1024, .i32⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S16x1024x4096, .f32⟩
  | .hbm, ⟨57, _⟩ => ⟨S16x1024x4096, .f32⟩
  | .hbm, ⟨58, _⟩ => ⟨S1024x1, .i32⟩
  | .hbm, ⟨59, _⟩ => ⟨S1024x4, .i32⟩
  | .hbm, ⟨60, _⟩ => ⟨S4096, .i32⟩
  | .hbm, ⟨61, _⟩ => ⟨S1x4096, .i32⟩
  | .hbm, ⟨62, _⟩ => ⟨S1x4, .f32⟩
  | .hbm, ⟨63, _⟩ => ⟨S1024x4, .f32⟩
  | .hbm, ⟨64, _⟩ => ⟨S4096, .f32⟩
  | .hbm, ⟨65, _⟩ => ⟨S1x4096, .f32⟩
  | .hbm, ⟨66, _⟩ => ⟨S16x8x128, .f32⟩
  | .hbm, ⟨67, _⟩ => ⟨S16x1x4, .f32⟩
  | .hbm, ⟨68, _⟩ => ⟨S16x4, .f32⟩
  | .hbm, ⟨69, _⟩ => ⟨S_, .f32⟩
  | .hbm, ⟨70, _⟩ => ⟨S4, .f32⟩
  | .hbm, ⟨71, _⟩ => ⟨S1, .f32⟩
  | .hbm, ⟨72, _⟩ => ⟨S_, .f32⟩
  | .hbm, ⟨73, _⟩ => ⟨S1, .f32⟩
  | .hbm, ⟨74, _⟩ => ⟨S_, .f32⟩
  | .hbm, ⟨75, _⟩ => ⟨S1, .f32⟩
  | .hbm, ⟨76, _⟩ => ⟨S_, .f32⟩
  | .hbm, ⟨77, _⟩ => ⟨S1, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4, .i32⟩
  | .hbm, ⟨84, _⟩ => ⟨S_, .i32⟩
  | .hbm, ⟨85, _⟩ => ⟨S_, .i32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1, .f32⟩
  | .hbm, ⟨115, _⟩ => ⟨S1, .f32⟩
  | .hbm, ⟨116, _⟩ => ⟨S1, .f32⟩
  | .hbm, ⟨117, _⟩ => ⟨S1, .f32⟩
  | .hbm, ⟨118, _⟩ => ⟨S1, .f32⟩
  | .hbm, ⟨119, _⟩ => ⟨S7, .f32⟩
  | .local _ .vmem, ⟨0, _⟩ => ⟨S1x512x4096, .f32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S512x1, .i32⟩
  | .local _ .vmem, ⟨5, _⟩ => ⟨S512x1, .i32⟩
  | .local _ .vmem, ⟨6, _⟩ => ⟨S1x4096, .i32⟩
  | .local _ .vmem, ⟨7, _⟩ => ⟨S1x4096, .f32⟩
  | .local _ .vmem, ⟨8, _⟩ => ⟨S1x8x128, .f32⟩
  | .local _ .vmem, ⟨9, _⟩ => ⟨S1x8x128, .f32⟩
  | .local _ .vmem, ⟨10, _⟩ => ⟨S1x4, .f32⟩
  | _, _ => ⟨S16x1024x1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_call1_call0_c : Ref sig .tc := ⟨.hbm, 12, rfl⟩
abbrev main_call1_call0_v0 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_c_2 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_call2_call0_c : Ref sig .tc := ⟨.hbm, 28, rfl⟩
abbrev main_call2_call0_v0 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_c : Ref sig .tc := ⟨.hbm, 34, rfl⟩
abbrev main_call3_v0 : Ref sig .tc := ⟨.hbm, 35, rfl⟩
abbrev main_call3_v1 : Ref sig .tc := ⟨.hbm, 36, rfl⟩
abbrev main_call3_c_0 : Ref sig .tc := ⟨.hbm, 37, rfl⟩
abbrev main_call3_v2 : Ref sig .tc := ⟨.hbm, 38, rfl⟩
abbrev main_call3_v3 : Ref sig .tc := ⟨.hbm, 39, rfl⟩
abbrev main_call3_v4 : Ref sig .tc := ⟨.hbm, 40, rfl⟩
abbrev main_call3_v5 : Ref sig .tc := ⟨.hbm, 41, rfl⟩
abbrev main_call3_c_1 : Ref sig .tc := ⟨.hbm, 42, rfl⟩
abbrev main_call3_c_2 : Ref sig .tc := ⟨.hbm, 43, rfl⟩
abbrev main_call3_v6 : Ref sig .tc := ⟨.hbm, 44, rfl⟩
abbrev main_call3_v7 : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_v11 : Ref sig .tc := ⟨.hbm, 49, rfl⟩
abbrev main_call3_c_3 : Ref sig .tc := ⟨.hbm, 50, rfl⟩
abbrev main_call3_v12 : Ref sig .tc := ⟨.hbm, 51, rfl⟩
abbrev main_call3_v13 : Ref sig .tc := ⟨.hbm, 52, rfl⟩
abbrev main_call3_c_4 : Ref sig .tc := ⟨.hbm, 53, rfl⟩
abbrev main_call3_v14 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_cst_6 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_7 : Ref sig .tc := ⟨.hbm, 84, rfl⟩
abbrev main_v45 : Ref sig .tc := ⟨.hbm, 85, rfl⟩
abbrev main_v46 : Ref sig .tc := ⟨.hbm, 86, rfl⟩
abbrev main_cst_8 : Ref sig .tc := ⟨.hbm, 87, rfl⟩
abbrev main_v47 : Ref sig .tc := ⟨.hbm, 88, rfl⟩
abbrev main_cst_9 : Ref sig .tc := ⟨.hbm, 89, rfl⟩
abbrev main_v48 : Ref sig .tc := ⟨.hbm, 90, rfl⟩
abbrev main_cst_10 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_cst_11 : Ref sig .tc := ⟨.hbm, 97, rfl⟩
abbrev main_v54 : Ref sig .tc := ⟨.hbm, 98, rfl⟩
abbrev main_cst_12 : Ref sig .tc := ⟨.hbm, 99, rfl⟩
abbrev main_v55 : Ref sig .tc := ⟨.hbm, 100, rfl⟩
abbrev main_v56 : Ref sig .tc := ⟨.hbm, 101, rfl⟩
abbrev main_cst_13 : Ref sig .tc := ⟨.hbm, 102, rfl⟩
abbrev main_v57 : Ref sig .tc := ⟨.hbm, 103, rfl⟩
abbrev main_cst_14 : Ref sig .tc := ⟨.hbm, 104, rfl⟩
abbrev main_v58 : Ref sig .tc := ⟨.hbm, 105, rfl⟩
abbrev main_v59 : Ref sig .tc := ⟨.hbm, 106, rfl⟩
abbrev main_cst_15 : Ref sig .tc := ⟨.hbm, 107, rfl⟩
abbrev main_v60 : Ref sig .tc := ⟨.hbm, 108, rfl⟩
abbrev main_cst_16 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_19 : BitVec 32 := 0#32
  let v53 : BitVec 1 := Scalar.cmpi .ne v52 c0_i32_19
  v53

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S4_S1_3 : S4.Slices ![3] S1
  slices_S4_S3_0 : S4.Slices ![0] S3
  concatenates_S1_S3_S4_d0 : Shape.Concatenates [S1, S3] S4 0
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  h_S_ : 0 < S_.numel
  bcast_S_S1024 : S_.BroadcastsInDim S1024 (![] : Fin 0 → Fin S1024.rank)
  bcast_S_S4 : S_.BroadcastsInDim S4 (![] : Fin 0 → Fin S4.rank)
  bcast_S4_S4x1_0 : S4.BroadcastsInDim S4x1 (![0] : Fin 1 → Fin S4x1.rank)
  reduceWindows_S1024_S1024_w1024s1p1023_0 : S1024.ReduceWindows (![1024] : Fin 1 → Nat) ![1] ![1023] ![0] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  shapeCasts_S16x1024x1024x4_S16x1024x4096 : S16x1024x1024x4.ShapeCasts S16x1024x4096
  shapeCasts_S1024_S1024x1 : S1024.ShapeCasts S1024x1
  bcast_S1024_S1024x4_0 : S1024.BroadcastsInDim S1024x4 (![0] : Fin 1 → Fin S1024x4.rank)
  shapeCasts_S1024x4_S4096 : S1024x4.ShapeCasts S4096
  shapeCasts_S4096_S1x4096 : S4096.ShapeCasts S1x4096
  shapeCasts_S4_S1x4 : S4.ShapeCasts S1x4
  bcast_S1x4_S1024x4_0_1 : S1x4.BroadcastsInDim S1024x4 (![0, 1] : Fin 2 → Fin S1024x4.rank)
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  natLt_1_32 : 1 < 32
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  concatenates_S1x1_S1x1_S1x1_S1x1_S1x4_d1 : Shape.Concatenates [S1x1, S1x1, S1x1, S1x1] S1x4 1
  concatenates_S1x4_S1x124_S1x128_d1 : Shape.Concatenates [S1x4, S1x124] S1x128 1
  concatenates_S1x128_S7x128_S8x128_d0 : Shape.Concatenates [S1x128, S7x128] S8x128 0
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x4_0_0_0 : S16x8x128.Slices ![0, 0, 0] S16x1x4
  shapeCasts_S16x1x4_S16x4 : S16x1x4.ShapeCasts S16x4
  reducesTo_S16x4_S4_d0 : S16x4.ReducesTo [0] S4
  slices_S4_S1_0 : S4.Slices ![0] S1
  shapeCasts_S1_S_ : S1.ShapeCasts S_
  slices_S4_S1_1 : S4.Slices ![1] S1
  slices_S4_S1_2 : S4.Slices ![2] S1
  reducesTo_S4_S_d0 : S4.ReducesTo [0] S_
  concatenates_S1_S1_S1_S1_S1_S1_S1_S7_d0 : Shape.Concatenates [S1, S1, S1, S1, S1, S1, S1] S7 0
  scatter_S4_S1_S__n_0_0_0_wf : ScatterDims.WF S4 S1 S_ [] [0] [0] 0
  scatter_S1024_S4x1_S4_n_0_0_1_wf : ScatterDims.WF S1024 S4x1 S4 [] [0] [0] 1
  gather_S4_S1024x1_S1024_n_0_n_n_0_1_1_wf : GatherDims.WF S4 S1024x1 S1024 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S16x1024x4096.size a
  hwx0_0 : ∀ i : grid0.Coords, EltTy.bits .f32 = 32 ∨ (Rect.block (s := S16x1024x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S16x1024x4096.size a
  hwx0_1 : ∀ i : grid0.Coords, EltTy.bits .f32 = 32 ∨ (Rect.block (s := S16x1024x4096) S1x512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .i32 = 32 ∨ (Rect.block (s := S1024x1) S512x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S16x8x128.size a
  hwx0_5 : ∀ i : grid0.Coords, EltTy.bits .f32 = 32 ∨ (Rect.block (s := S16x8x128) S1x8x128.size (cc0_transform_5 i) (hinb0_5 i)).WholeWords (EltTy.packing .f32)

variable [Facts₀]

def scatter_S4_S1_S__n_0_0_0 : ScatterDims S4 S1 S_ where
  updateWindowDims := []
  insertedWindowDims := [0]
  scatterDimsToOperandDims := [0]
  indexVectorDim := 0
  wf := scatter_S4_S1_S__n_0_0_0_wf
def scatter_S1024_S4x1_S4_n_0_0_1 : ScatterDims S1024 S4x1 S4 where
  updateWindowDims := []
  insertedWindowDims := [0]
  scatterDimsToOperandDims := [0]
  indexVectorDim := 1
  wf := scatter_S1024_S4x1_S4_n_0_0_1_wf
def gather_S4_S1024x1_S1024_n_0_n_n_0_1_1 : GatherDims S4 S1024x1 S1024 where
  offsetDims := []
  collapsedSliceDims := [0]
  operandBatchingDims := []
  startIndicesBatchingDims := []
  startIndexMap := [0]
  indexVectorDim := 1
  sliceSizes := ![1]
  wf := gather_S4_S1024x1_S1024_n_0_n_n_0_1_1_wf

abbrev win0_0 : Pipeline.Window sig grid0 :=
  Pipeline.Window.ofSpec (Memref.whole main_v18) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x1024x1024x4 : Shape := ⟨4, ![16, 1024, 1024, 4]⟩
abbrev S4 : Shape := ⟨1, ![4]⟩
abbrev S1 : Shape := ⟨1, ![1]⟩
abbrev S3 : Shape := ⟨1, ![3]⟩
abbrev S_ : Shape := ⟨0, ![]⟩
abbrev S1024 : Shape := ⟨1, ![1024]⟩
abbrev S4x1 : Shape := ⟨2, ![4, 1]⟩
abbrev S1024x1 : Shape := ⟨2, ![1024, 1]⟩
abbrev S1x1 : Shape := ⟨2, ![1, 1]⟩
abbrev S1x1024 : Shape := ⟨2, ![1, 1024]⟩
abbrev S1024x1024 : Shape := ⟨2, ![1024, 1024]⟩
abbrev S16x1024x1024x1 : Shape := ⟨4, ![16, 1024, 1024, 1]⟩
abbrev S16x1024x1024 : Shape := ⟨3, ![16, 1024, 1024]⟩
abbrev S1x1024x1024 : Shape := ⟨3, ![1, 1024, 1024]⟩
abbrev S7 : Shape := ⟨1, ![7]⟩

abbrev nBuf : Space → Nat
  | .hbm => 126
  | .vmem => 0
  | .smem => 0
  | _ => 0

abbrev bufTy : (tb : Table) → Fin (tcTables nBuf tb) → BufTy
  | .hbm, ⟨0, _⟩ => ⟨S16x1024x1024x4, .f32⟩
  | .hbm, ⟨1, _⟩ => ⟨S16x1024x1024x4, .f32⟩
  | .hbm, ⟨2, _⟩ => ⟨S4, .i32⟩
  | .hbm, ⟨3, _⟩ => ⟨S4, .i32⟩
  | .hbm, ⟨4, _⟩ => ⟨S1, .i32⟩
  | .hbm, ⟨5, _⟩ => ⟨S3, .i32⟩
  | .hbm, ⟨6, _⟩ => ⟨S4, .i32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S4, .i32⟩
  | .hbm, ⟨11, _⟩ => ⟨S_, .i32⟩
  | .hbm, ⟨12, _⟩ => ⟨S_, .i32⟩
  | .hbm, ⟨13, _⟩ => ⟨S4, .i32⟩
  | .hbm, ⟨14, _⟩ => ⟨S_, .i32⟩
  | .hbm, ⟨15, _⟩ => ⟨S1024, .i32⟩
  | .hbm, ⟨16, _⟩ => ⟨S_, .i32⟩
  | .hbm, ⟨17, _⟩ => ⟨S4, .i32⟩
  | .hbm, ⟨18, _⟩ => ⟨S4, .i1⟩
  | .hbm, ⟨19, _⟩ => ⟨S_, .i32⟩
  | .hbm, ⟨20, _⟩ => ⟨S4, .i32⟩
  | .hbm, ⟨21, _⟩ => ⟨S4, .i32⟩
  | .hbm, ⟨22, _⟩ => ⟨S4, .i32⟩
  | .hbm, ⟨23, _⟩ => ⟨S4x1, .i32⟩
  | .hbm, ⟨24, _⟩ => ⟨S_, .i32⟩
  | .hbm, ⟨25, _⟩ => ⟨S4, .i32⟩
  | .hbm, ⟨26, _⟩ => ⟨S1024, .i32⟩
  | .hbm, ⟨27, _⟩ => ⟨S_, .i32⟩
  | .hbm, ⟨28, _⟩ => ⟨S_, .i32⟩
  | .hbm, ⟨29, _⟩ => ⟨S1024, .i32⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S1024, .i32⟩
  | .hbm, ⟨40, _⟩ => ⟨S1024x1, .i32⟩
  | .hbm, ⟨41, _⟩ => ⟨S1, .i32⟩
  | .hbm, ⟨42, _⟩ => ⟨S_, .i32⟩
  | .hbm, ⟨43, _⟩ => ⟨S1024x1, .i32⟩
  | .hbm, ⟨44, _⟩ => ⟨S1024x1, .i1⟩
  | .hbm, ⟨45, _⟩ => ⟨S1x1, .i32⟩
  | .hbm, ⟨46, _⟩ => ⟨S1024x1, .i32⟩
  | .hbm, ⟨47, _⟩ => ⟨S1024x1, .i1⟩
  | .hbm, ⟨48, _⟩ => ⟨S1024x1, .i1⟩
  | .hbm, ⟨49, _⟩ => ⟨S_, .i1⟩
  | .hbm, ⟨50, _⟩ => ⟨S1024, .i1⟩
  | .hbm, ⟨51, _⟩ => ⟨S1024, .i32⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1x1024, .i32⟩
  | .hbm, ⟨56, _⟩ => ⟨S1024x1, .i32⟩
  | .hbm, ⟨57, _⟩ => ⟨S1024x1024, .i32⟩
  | .hbm, ⟨58, _⟩ => ⟨S1024x1024, .i32⟩
  | .hbm, ⟨59, _⟩ => ⟨S1024x1024, .i1⟩
  | .hbm, ⟨60, _⟩ => ⟨S1024x1024, .f32⟩
  | .hbm, ⟨61, _⟩ => ⟨S16x1024x1024x4, .f32⟩
  | .hbm, ⟨62, _⟩ => ⟨S16x1024x1024x4, .f32⟩
  | .hbm, ⟨63, _⟩ => ⟨S16x1024x1024x1, .f32⟩
  | .hbm, ⟨64, _⟩ => ⟨S16x1024x1024, .f32⟩
  | .hbm, ⟨65, _⟩ => ⟨S16x1024x1024x1, .f32⟩
  | .hbm, ⟨66, _⟩ => ⟨S16x1024x1024, .f32⟩
  | .hbm, ⟨67, _⟩ => ⟨S16x1024x1024, .f32⟩
  | .hbm, ⟨68, _⟩ => ⟨S16x1024x1024x1, .f32⟩
  | .hbm, ⟨69, _⟩ => ⟨S16x1024x1024, .f32⟩
  | .hbm, ⟨70, _⟩ => ⟨S16x1024x1024x1, .f32⟩
  | .hbm, ⟨71, _⟩ => ⟨S16x1024x1024, .f32⟩
  | .hbm, ⟨72, _⟩ => ⟨S16x1024x1024, .f32⟩
  | .hbm, ⟨73, _⟩ => ⟨S1x1024x1024, .f32⟩
  | .hbm, ⟨74, _⟩ => ⟨S16x1024x1024, .f32⟩
  | .hbm, ⟨75, _⟩ => ⟨S16x1024x1024, .f32⟩
  | .hbm, ⟨76, _⟩ => ⟨S_, .f32⟩
  | .hbm, ⟨77, _⟩ => ⟨S_, .f32⟩
  | .hbm, ⟨78, _⟩ => ⟨S1x1024x1024, .f32⟩
  | .hbm, ⟨79, _⟩ => ⟨S16x1024x1024, .f32⟩
  | .hbm, ⟨80, _⟩ => ⟨S16x1024x1024, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S4, .i32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S1, .f32⟩
  | .hbm, ⟨119, _⟩ => ⟨S1, .f32⟩
  | .hbm, ⟨120, _⟩ => ⟨S1, .f32⟩
  | .hbm, ⟨121, _⟩ => ⟨S1, .f32⟩
  | .hbm, ⟨122, _⟩ => ⟨S1, .f32⟩
  | .hbm, ⟨123, _⟩ => ⟨S1, .f32⟩
  | .hbm, ⟨124, _⟩ => ⟨S1, .f32⟩
  | .hbm, ⟨125, _⟩ => ⟨S7, .f32⟩
  | _, _ => ⟨S16x1024x1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_call1_call0_c : Ref sig .tc := ⟨.hbm, 11, rfl⟩
abbrev main_call1_call0_v0 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_c_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_call2_call0_c : Ref sig .tc := ⟨.hbm, 27, rfl⟩
abbrev main_call2_call0_v0 : Ref sig .tc := ⟨.hbm, 28, rfl⟩
abbrev main_v14 : Ref sig .tc := ⟨.hbm, 29, rfl⟩
abbrev main_c_5 : Ref sig .tc := ⟨.hbm, 30, rfl⟩
abbrev main_v15 : Ref sig .tc := ⟨.hbm, 31, rfl⟩
abbrev main_v16 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_6 : Ref sig .tc := ⟨.hbm, 81, rfl⟩
abbrev main_v43 : Ref sig .tc := ⟨.hbm, 82, rfl⟩
abbrev main_cst_7 : Ref sig .tc := ⟨.hbm, 83, rfl⟩
abbrev main_v44 : Ref sig .tc := ⟨.hbm, 84, rfl⟩
abbrev main_v45 : Ref sig .tc := ⟨.hbm, 85, rfl⟩
abbrev main_cst_8 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_c_9 : Ref sig .tc := ⟨.hbm, 90, rfl⟩
abbrev main_v49 : Ref sig .tc := ⟨.hbm, 91, rfl⟩
abbrev main_v50 : Ref sig .tc := ⟨.hbm, 92, rfl⟩
abbrev main_cst_10 : Ref sig .tc := ⟨.hbm, 93, rfl⟩
abbrev main_v51 : Ref sig .tc := ⟨.hbm, 94, rfl⟩
abbrev main_cst_11 : Ref sig .tc := ⟨.hbm, 95, rfl⟩
abbrev main_v52 : Ref sig .tc := ⟨.hbm, 96, rfl⟩
abbrev main_cst_12 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_13 : Ref sig .tc := ⟨.hbm, 103, rfl⟩
abbrev main_v58 : Ref sig .tc := ⟨.hbm, 104, rfl⟩
abbrev main_cst_14 : Ref sig .tc := ⟨.hbm, 105, rfl⟩
abbrev main_v59 : Ref sig .tc := ⟨.hbm, 106, rfl⟩
abbrev main_v60 : Ref sig .tc := ⟨.hbm, 107, rfl⟩
abbrev main_cst_15 : Ref sig .tc := ⟨.hbm, 108, rfl⟩
abbrev main_v61 : Ref sig .tc := ⟨.hbm, 109, rfl⟩
abbrev main_cst_16 : Ref sig .tc := ⟨.hbm, 110, rfl⟩
abbrev main_v62 : Ref sig .tc := ⟨.hbm, 111, rfl⟩
abbrev main_v63 : Ref sig .tc := ⟨.hbm, 112, rfl⟩
abbrev main_cst_17 : Ref sig .tc := ⟨.hbm, 113, rfl⟩
abbrev main_v64 : Ref sig .tc := ⟨.hbm, 114, rfl⟩
abbrev main_cst_18 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩

abbrev nD : Nat := 1
abbrev τ : Topo := Topo.v7x

variable {F : FTy → Type} [FloatOps F]

class Facts₀ : Prop where
  slices_S4_S1_3 : S4.Slices ![3] S1
  slices_S4_S3_0 : S4.Slices ![0] S3
  concatenates_S1_S3_S4_d0 : Shape.Concatenates [S1, S3] S4 0
  bcast_S_S1 : S_.BroadcastsInDim S1 (![] : Fin 0 → Fin S1.rank)
  bcast_S_S_ : S_.BroadcastsInDim S_ (![] : Fin 0 → Fin S_.rank)
  reduceWindows_S4_S4_w4s1p3_0 : S4.ReduceWindows (![4] : Fin 1 → Nat) ![1] ![3] ![0] S4
  h_S_ : 0 < S_.numel
  bcast_S_S1024 : S_.BroadcastsInDim S1024 (![] : Fin 0 → Fin S1024.rank)
  bcast_S_S4 : S_.BroadcastsInDim S4 (![] : Fin 0 → Fin S4.rank)
  bcast_S4_S4x1_0 : S4.BroadcastsInDim S4x1 (![0] : Fin 1 → Fin S4x1.rank)
  reduceWindows_S1024_S1024_w1024s1p1023_0 : S1024.ReduceWindows (![1024] : Fin 1 → Nat) ![1] ![1023] ![0] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  slices_S16x1024x1024x4_S16x1024x1024x1_0_0_0_0 : S16x1024x1024x4.Slices ![0, 0, 0, 0] S16x1024x1024x1
  shapeCasts_S16x1024x1024x1_S16x1024x1024 : S16x1024x1024x1.ShapeCasts S16x1024x1024
  slices_S16x1024x1024x4_S16x1024x1024x1_0_0_0_1 : S16x1024x1024x4.Slices ![0, 0, 0, 1] S16x1024x1024x1
  slices_S16x1024x1024x4_S16x1024x1024x1_0_0_0_2 : S16x1024x1024x4.Slices ![0, 0, 0, 2] S16x1024x1024x1
  slices_S16x1024x1024x4_S16x1024x1024x1_0_0_0_3 : S16x1024x1024x4.Slices ![0, 0, 0, 3] S16x1024x1024x1
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  reducesTo_S16x1024x1024_S_d0_1_2 : S16x1024x1024.ReducesTo [0, 1, 2] S_
  reducesTo_S4_S_d0 : S4.ReducesTo [0] S_
  concatenates_S1_S1_S1_S1_S1_S1_S1_S7_d0 : Shape.Concatenates [S1, S1, S1, S1, S1, S1, S1] S7 0
  scatter_S4_S1_S__n_0_0_0_wf : ScatterDims.WF S4 S1 S_ [] [0] [0] 0
  scatter_S1024_S4x1_S4_n_0_0_1_wf : ScatterDims.WF S1024 S4x1 S4 [] [0] [0] 1
  gather_S4_S1024x1_S1024_n_0_n_n_0_1_1_wf : GatherDims.WF S4 S1024x1 S1024 [] [0] [] [0] [] 1 ![1]

variable [Facts₀]

def scatter_S4_S1_S__n_0_0_0 : ScatterDims S4 S1 S_ where
  updateWindowDims := []
  insertedWindowDims := [0]
  scatterDimsToOperandDims := [0]
  indexVectorDim := 0
  wf := scatter_S4_S1_S__n_0_0_0_wf
def scatter_S1024_S4x1_S4_n_0_0_1 : ScatterDims S1024 S4x1 S4 where
  updateWindowDims := []
  insertedWindowDims := [0]
  scatterDimsToOperandDims := [0]
  indexVectorDim := 1
  wf := scatter_S1024_S4x1_S4_n_0_0_1_wf
def gather_S4_S1024x1_S1024_n_0_n_n_0_1_1 : GatherDims S4 S1024x1 S1024 where
  offsetDims := []
  collapsedSliceDims := [0]
  operandBatchingDims := []
  startIndicesBatchingDims := []
  startIndexMap := [0]
  indexVectorDim := 1
  sliceSizes := ![1]
  wf := gather_S4_S1024x1_S1024_n_0_n_n_0_1_1_wf

class Facts : Prop extends Facts₀ where

variable [Facts]
-- ==== Proof.KKit.lean ====
/-
  The launch side of Kernel's one pallas_call, and what the body's two control cases are stated over.

  @main is nine stretches of host operations (the view ids from Ms, the inputs re-laid to 4096 lanes, the row and
  column id arrays, the channel weights), the pallas_call on the grid 16 × 2, and 53 host operations after it.
  `V` is what core `c`'s buffers hold when the region is entered: the launch memory after the host stretches.
  No host operation writes an argument array, so the three arguments are found, and left, as launched.
  The operations after the region write only buffers of their own, none of them an array a window stages.
  Grid point `t` is batch `t / 2`, row tile `t % 2`: the body resets its four running sums at row tile 0 and
  stores them to the output block at row tile 1; these are its two control cases.
-/
import proofs.«402724_j74560632258756_3_alg».proof.Proof.Gen.Kernel.Launch
import proofs.«402724_j74560632258756_3_alg».proof.Proof.Gen.Kernel.Skeleton
import proofs.«402724_j74560632258756_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The nine stretches of host operations before the region. -/
abbrev preOps : List (List (HloOp τ sig (Elt F))) :=
  [hostOps0, hostOps0_1, hostOps0_2, hostOps0_3, hostOps0_4, hostOps0_5, hostOps0_6, hostOps0_7, hostOps0_8]

/-- Core `c`'s buffer contents when the region is entered: the launch memory after the host stretches before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every operation of the stretches before the region touches TensorCore buffers only, -/
theorem preOps_sub : (preOps (F := F)).Forall fun ops => ops.Forall fun op => op.bufs ⊆ StableHlo.tcRefs τ sig :=
  List.forall_iff_forall_mem.mpr (by
    intro ops hops
    simp only [preOps, List.mem_cons, List.mem_nil_iff, or_false] at hops
    rcases hops with rfl | rfl | rfl | rfl | rfl | rfl | rfl | rfl | rfl
    exacts [hostOps0_sub, hostOps0_1_sub, hostOps0_2_sub, hostOps0_3_sub, hostOps0_4_sub, hostOps0_5_sub, hostOps0_6_sub, hostOps0_7_sub, hostOps0_8_sub])
/-- and allocates nothing. -/
theorem preOps_fresh : (preOps (F := F)).Forall fun ops => ops.Forall fun op => op.fresh = ∅ :=
  List.forall_iff_forall_mem.mpr (by
    intro ops hops
    simp only [preOps, List.mem_cons, List.mem_nil_iff, or_false] at hops
    rcases hops with rfl | rfl | rfl | rfl | rfl | rfl | rfl | rfl | rfl
    exacts [hostOps0_fresh, hostOps0_1_fresh, hostOps0_2_fresh, hostOps0_3_fresh, hostOps0_4_fresh, hostOps0_5_fresh, hostOps0_6_fresh, hostOps0_7_fresh, hostOps0_8_fresh])

set_option maxHeartbeats 4000000 in
/-- @main reduces to the region continued by the operations after it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The operations after the region touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- Each writes only its own result buffer, which is no array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run whose final state has every buffer that bypasses the region as the later operations leave it has the three
    arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The reset's condition: the row-tile coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The flush's condition: the row-tile coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points the body stores nothing into the output block, -/
theorem idleAt0_5_A : ∀ t : Fin cfg0.N, cond0_0 (grid0.coords t) → ¬cond0_1 (grid0.coords t) → cfg0.idle 5 (grid0.coords t) = true := by decide +kernel
/-- and the pipeline does not write it back there. -/
theorem noFlush0_5_A : ∀ t : Fin cfg0.N, cond0_0 (grid0.coords t) → ¬cond0_1 (grid0.coords t) → (cfg0.win 5).flush t = false := by decide +kernel
/-- At the odd points the body stores the output block. -/
theorem liveAt0_5_B : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1x8x128 .f32 := (Memref.whole cc0_stg5_0 : Memref sig .tc .vmem S1x8x128 .f32).view
abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
/-- The scratch holding the four running sums. -/
abbrev scM0_0 : Memref sig .tc .vmem S1x4 .f32 := Memref.whole cc0_scratch0
abbrev VS0_0 : View sig .tc .vmem S1x4 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KRunA.lean ====
/-
  The body at a point of row tile 0 (the reset is taken, the flush is not).

  On whole staging memrefs holding the five input blocks, the output block's buffer at any contents `xi5` and the
  scratch at anything, the body runs to its end: the inputs and the output block's buffer are handed back as they were
  (the body stores nothing into the output block here), and the scratch holds the stores the body made, listed last
  first — the zero fill, then the four sums of this tile added to what was read back.
-/
import proofs.«402724_j74560632258756_3_alg».proof.Proof.KKit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the scratch at a point of row tile 0, with the proof that the body runs. -/
noncomputable def kernelRun0_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) :
    Σ' (L5 : List (View.Piece (Elt F) S1x8x128 .f32)), { LS0 : List (View.Piece (Elt F) S1x4 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨[], ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KRunB.lean ====
/-
  The body at a point of row tile 1 (the reset is not taken, the flush is).

  On whole staging memrefs holding the five input blocks, the output block's buffer at anything and the scratch at the
  contents `xs0` the point before left, the body runs to its end: the inputs are handed back as they were, the scratch
  holds the one store the body made (this tile's four sums added to `xs0`) and the output block's buffer the one store
  of the padded block whose first four lanes are those sums.
-/
import proofs.«402724_j74560632258756_3_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's buffer and in the scratch at a point of row tile 1, with
    the proof that the body runs. -/
noncomputable def kernelRun0_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) :
    Σ' (L5 : List (View.Piece (Elt F) S1x8x128 .f32)), { LS0 : List (View.Piece (Elt F) S1x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KFrame.lean ====
/-
  The frame of Kernel: what the output block's buffer and the scratch hold after each grid point, the proof data of
  the one pipeline, the body obligation at every point, and the run of @main.

  At an even point (row tile 0) the scratch is zero-filled and this tile's four sums are added; the output block is
  left untouched and not written back.  At an odd point (row tile 1) this tile's four sums are added to what the point
  before left, and the padded block carrying the sums is stored and written back.  `outsAt0` records both buffers
  after each point by recursion on the point; the region's invariant holds the scratch at `outsAt0`'s second
  component from the first point on.
-/
import proofs.«402724_j74560632258756_3_alg».proof.Proof.KRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At an even point the body stores nothing into the output block: a placeholder nothing consults. -/
def out0_A_5 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) : Vec F S1x8x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The even point's stores cover the scratch. -/
theorem scover0_A_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) (y : S1x4.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1x4.size (by sl_kernel_rfl) y

/-- What an even point leaves in the scratch: its stores read back. -/
def sout0_A_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) : Vec F S1x4 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The odd point's one store covers the output block. -/
theorem cover0_B_5 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) (y : S1x8x128.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1x8x128.size (by sl_kernel_rfl) y

/-- What an odd point leaves in the output block's buffer. -/
def out0_B_5 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) : Vec F S1x8x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The odd point's one store covers the scratch. -/
theorem scover0_B_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) (y : S1x4.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1x4.size (by sl_kernel_rfl) y

/-- What an odd point leaves in the scratch. -/
def sout0_B_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) : Vec F S1x4 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-! ## What the two buffers hold after each point -/

/-- The output block's buffer and the scratch after the body at position `n`: at an even position the reset case run
    on the point's blocks, at an odd one the flush case run on them and on what position `n - 1` left in the scratch. -/
def outsAt0 (c : Dev nD) : (n : ℕ) → n < cfg0.N → Vec F S1x8x128 .f32 × Vec F S1x4 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        False.elim (by omega)

/-- `outsAt0` at an even point. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at an odd point: over what the point before left in the scratch. -/
theorem outsAt0_B (c : Dev nD) (t : Fin cfg0.N) (h0 : ¬t.val % 2 = 0) (h1 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the scratch
    at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's parity says which case it is in; the
    invariant hands the body the scratch (at anything at the first point, otherwise at what the point before left) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 2 = 0
  · have h1 : ¬t.val % 2 = 1 := by omega
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
    rw [outsAt0_B m c t h0 h1]
    unfold out0_B_5 sout0_B_0; (try dsimp only)
    have hz : t.val ≠ 0 := by omega
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 8000000 in
set_option backward.isDefEq.respectTransparency.types false in
/-- Every weakly fair execution of @main terminates, and every final state has each array of the pipeline at what the
    proof data's write-backs leave and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KIKit.lean ====
/-
  The launch side of KernelIdeal's one pallas_call, and what the body's two control cases are stated over.

  @main is nine stretches of host operations (the view ids from Ms, the inputs re-laid to 4096 lanes, the row and
  column id arrays, the channel weights), the pallas_call on the grid 16 × 2, and 53 host operations after it.
  `V` is what core `c`'s buffers hold when the region is entered: the launch memory after the host stretches.
  No host operation writes an argument array, so the three arguments are found, and left, as launched.
  The operations after the region write only buffers of their own, none of them an array a window stages.
  Grid point `t` is batch `t / 2`, row tile `t % 2`: the body resets its four running sums at row tile 0 and
  stores them to the output block at row tile 1; these are its two control cases.
-/
import proofs.«402724_j74560632258756_3_alg».proof.Proof.Gen.KernelIdeal.Launch
import proofs.«402724_j74560632258756_3_alg».proof.Proof.Gen.KernelIdeal.Skeleton
import proofs.«402724_j74560632258756_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The nine stretches of host operations before the region. -/
abbrev preOps : List (List (HloOp τ sig (Elt F))) :=
  [hostOps0, hostOps0_1, hostOps0_2, hostOps0_3, hostOps0_4, hostOps0_5, hostOps0_6, hostOps0_7, hostOps0_8]

/-- Core `c`'s buffer contents when the region is entered: the launch memory after the host stretches before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- Every operation of the stretches before the region touches TensorCore buffers only, -/
theorem preOps_sub : (preOps (F := F)).Forall fun ops => ops.Forall fun op => op.bufs ⊆ StableHlo.tcRefs τ sig :=
  List.forall_iff_forall_mem.mpr (by
    intro ops hops
    simp only [preOps, List.mem_cons, List.mem_nil_iff, or_false] at hops
    rcases hops with rfl | rfl | rfl | rfl | rfl | rfl | rfl | rfl | rfl
    exacts [hostOps0_sub, hostOps0_1_sub, hostOps0_2_sub, hostOps0_3_sub, hostOps0_4_sub, hostOps0_5_sub, hostOps0_6_sub, hostOps0_7_sub, hostOps0_8_sub])
/-- and allocates nothing. -/
theorem preOps_fresh : (preOps (F := F)).Forall fun ops => ops.Forall fun op => op.fresh = ∅ :=
  List.forall_iff_forall_mem.mpr (by
    intro ops hops
    simp only [preOps, List.mem_cons, List.mem_nil_iff, or_false] at hops
    rcases hops with rfl | rfl | rfl | rfl | rfl | rfl | rfl | rfl | rfl
    exacts [hostOps0_fresh, hostOps0_1_fresh, hostOps0_2_fresh, hostOps0_3_fresh, hostOps0_4_fresh, hostOps0_5_fresh, hostOps0_6_fresh, hostOps0_7_fresh, hostOps0_8_fresh])

set_option maxHeartbeats 4000000 in
/-- @main reduces to the region continued by the operations after it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The operations after the region touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 8000000 in
/-- Each writes only its own result buffer, which is no array a window stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does one after it: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is not
    fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is not
    fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is not
    fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is not
    fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is not
    fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run whose final state has every buffer that bypasses the region as the later operations leave it has the three
    arguments as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's branch conditions -/

/-- The reset's condition: the row-tile coordinate is 0. -/
abbrev cond0_0 (i : grid0.Coords) : Prop := (Scalar.cmpi .ne (Scalar.extui (Scalar.cmpi .eq (BitVec.ofNat 32 (i 1).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The flush's condition: the row-tile coordinate is 1. -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- At the even points the body stores nothing into the output block, -/
theorem idleAt0_5_A : ∀ t : Fin cfg0.N, cond0_0 (grid0.coords t) → ¬cond0_1 (grid0.coords t) → cfg0.idle 5 (grid0.coords t) = true := by decide +kernel
/-- and the pipeline does not write it back there. -/
theorem noFlush0_5_A : ∀ t : Fin cfg0.N, cond0_0 (grid0.coords t) → ¬cond0_1 (grid0.coords t) → (cfg0.win 5).flush t = false := by decide +kernel
/-- At the odd points the body stores the output block. -/
theorem liveAt0_5_B : ∀ t : Fin cfg0.N, ¬cond0_0 (grid0.coords t) → cond0_1 (grid0.coords t) → cfg0.idle 5 (grid0.coords t) = false := by decide +kernel

/-! ## The staging and scratch memrefs -/

/-- One staging buffer of the output window, through which its contents are stated. -/
abbrev VO0_5 : View sig .tc .vmem S1x8x128 .f32 := (Memref.whole cc0_stg5_0 : Memref sig .tc .vmem S1x8x128 .f32).view
abbrev ms0_0 (t : Fin cfg0.N) : Memref sig .tc .vmem S1x512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x8x128 .f32 := win0_5.stage (cfg0.slots t 5)
abbrev hs0_5 (t : Fin cfg0.N) : (ms0_5 t).IsWhole := hstage0_5 ((cfg0.slots t 5).cast nbuf0_5)
/-- The scratch holding the four running sums. -/
abbrev scM0_0 : Memref sig .tc .vmem S1x4 .f32 := Memref.whole cc0_scratch0
abbrev VS0_0 : View sig .tc .vmem S1x4 .f32 := scM0_0.view

/-- The region's invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KIRunA.lean ====
/-
  The body at a point of row tile 0 (the reset is taken, the flush is not).

  On whole staging memrefs holding the five input blocks, the output block's buffer at any contents `xi5` and the
  scratch at anything, the body runs to its end: the inputs and the output block's buffer are handed back as they were
  (the body stores nothing into the output block here), and the scratch holds the stores the body made, listed last
  first — the zero fill, then the four sums of this tile added to what was read back.
-/
import proofs.«402724_j74560632258756_3_alg».proof.Proof.KIKit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the scratch at a point of row tile 0, with the proof that the body runs. -/
noncomputable def kernelRun0_A (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) :
    Σ' (L5 : List (View.Piece (Elt F) S1x8x128 .f32)), { LS0 : List (View.Piece (Elt F) S1x4 .f32) //
      ∀ (xi5 : Vec F S1x8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨[], ?_, fun xi5 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KIRunB.lean ====
/-
  The body at a point of row tile 1 (the reset is not taken, the flush is).

  On whole staging memrefs holding the five input blocks, the output block's buffer at anything and the scratch at the
  contents `xs0` the point before left, the body runs to its end: the inputs are handed back as they were, the scratch
  holds the one store the body made (this tile's four sums added to `xs0`) and the output block's buffer the one store
  of the padded block whose first four lanes are those sums.
-/
import proofs.«402724_j74560632258756_3_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output block's buffer and in the scratch at a point of row tile 1, with
    the proof that the body runs. -/
noncomputable def kernelRun0_B (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) :
    Σ' (L5 : List (View.Piece (Elt F) S1x8x128 .f32)), { LS0 : List (View.Piece (Elt F) S1x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KIFrame.lean ====
/-
  The frame of KernelIdeal: what the output block's buffer and the scratch hold after each grid point, the proof data of
  the one pipeline, the body obligation at every point, and the run of @main.

  At an even point (row tile 0) the scratch is zero-filled and this tile's four sums are added; the output block is
  left untouched and not written back.  At an odd point (row tile 1) this tile's four sums are added to what the point
  before left, and the padded block carrying the sums is stored and written back.  `outsAt0` records both buffers
  after each point by recursion on the point; the region's invariant holds the scratch at `outsAt0`'s second
  component from the first point on.
-/
import proofs.«402724_j74560632258756_3_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At an even point the body stores nothing into the output block: a placeholder nothing consults. -/
def out0_A_5 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) : Vec F S1x8x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- The even point's stores cover the scratch. -/
theorem scover0_A_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) (y : S1x4.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S1x4.size (by sl_kernel_rfl) y

/-- What an even point leaves in the scratch: its stores read back. -/
def sout0_A_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) : Vec F S1x4 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- The odd point's one store covers the output block. -/
theorem cover0_B_5 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) (y : S1x8x128.Idx) :
    ∃ pc ∈ (kernelRun0_B c i arg2 harg2 arg3 harg3 arg4 harg4 arg5 harg5 arg6 harg6 arg7 harg7 arg8 harg8 hc0 hc1 x0 x1 x2 x3 x4 xs0).1, y ∈ pc.1.set :=
  View.cover_of_tiledL (kernelRun0_B c i arg2 harg2 arg3 harg3 arg4 harg4 arg5 harg5 arg6 harg6 arg7 harg7 arg8 harg8 hc0 hc1 x0 x1 x2 x3 x4 xs0).1 S1x8x128.size (by sl_kernel_rfl) y

/-- What an odd point leaves in the output block's buffer. -/
def out0_B_5 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) : Vec F S1x8x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- The odd point's one store covers the scratch. -/
theorem scover0_B_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) (y : S1x4.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S1x4.size (by sl_kernel_rfl) y

/-- What an odd point leaves in the scratch. -/
def sout0_B_0 (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) : Vec F S1x4 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-! ## What the two buffers hold after each point -/

/-- The output block's buffer and the scratch after the body at position `n`: at an even position the reset case run
    on the point's blocks, at an odd one the flush case run on them and on what position `n - 1` left in the scratch. -/
def outsAt0 (c : Dev nD) : (n : ℕ) → n < cfg0.N → Vec F S1x8x128 .f32 × Vec F S1x4 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 2 = 0 then
      if h1 : (n + 1) % 2 = 1 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 2 = 1 then
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2)
      else
        False.elim (by omega)

/-- `outsAt0` at an even point. -/
theorem outsAt0_A (c : Dev nD) (t : Fin cfg0.N) (h0 : t.val % 2 = 0) (h1 : ¬t.val % 2 = 1) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at an odd point: over what the point before left in the scratch. -/
theorem outsAt0_B (c : Dev nD) (t : Fin cfg0.N) (h0 : ¬t.val % 2 = 0) (h1 : t.val % 2 = 1) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the scratch at anything; afterwards the scratch
    at what the point before left in it; the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body each input's buffer at its block and the output's at
    `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' buffers hold their blocks; the point's parity says which case it is in; the
    invariant hands the body the scratch (at anything at the first point, otherwise at what the point before left) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val % 2 = 0
  · have h1 : ¬t.val % 2 = 1 := by omega
    rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
    rw [outsAt0_A m c t h0 h1]
    unfold sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have h1 : t.val % 2 = 1 := by omega
    rw [show (dats m 0 c).leavesExact 5 t = owns (c : Thread nD τ) (ms0_5 t) fullShare ((dats m 0 c).after 5 t) from by
      unfold Dat.leavesExact; rw [liveAt0_5_B t (fun h => h0 ((hcond0_0 t).mp h)) ((hcond0_1 t).mpr h1)], after0_5]
    rw [outsAt0_B m c t h0 h1]
    unfold out0_B_5 sout0_B_0; (try dsimp only)
    have hz : t.val ≠ 0 := by omega
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hg]
    · isplitl [HS0]
      · unfold owns; iexists _; isplitr
        swap; · iexact HS0
        ipureintro; exact View.read_writes_of_cover _ _ _ _ _ (scover0_B_0 c _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c _ _ _ _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the scratch back at some contents. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option maxHeartbeats 8000000 in
set_option backward.isDefEq.respectTransparency.types false in
/-- Every weakly fair execution of @main terminates, and every final state has each array of the pipeline at what the
    proof data's write-backs leave and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: @main runs to its end and the three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KIPieces.lean ====
/-
  What the two control cases leave in the scratch and in the output block's buffer, as the body's arithmetic.

  At a point of row tile 0 the scratch ends at this tile's four sums added to the zero fill; at a point of row tile 1
  at this tile's four sums added to what the scratch held before, and the output block's buffer at the padded block
  built from that scratch.
-/
import proofs.«402724_j74560632258756_3_alg».proof.Proof.KIFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl
theorem hz3 : (![0, 0, 0] : Fin 3 → Nat) = fun _ => 0 := by funext a; fin_cases a <;> rfl

/-- Row tile 0: the scratch ends at the tile's sums added to the zero fill. -/
theorem sout0_A_0_eq (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : cond0_0 i) (hc1 : ¬cond0_1 i)
    (x0 : Vec F S1x512x4096 .f32) (x1 : Vec F S1x512x4096 .f32) (x2 : Vec F S512x1 .i32) (x3 : Vec F S1x4096 .i32) (x4 : Vec F S1x4096 .f32) :
    sout0_A_0 c i arg2 harg2 arg3 harg3 arg4 harg4 arg5 harg5 arg6 harg6 arg7 harg7 arg8 harg8 hc0 hc1 x0 x1 x2 x3 x4
      = k0_pay1 (k0_pay7 x0 x1) (k0_pay8 x0 x1 x2 x3) (k0_pay9 x0 x1 x4) (k0_pay10 x0 x1 x2 x3 x4) (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1x4) hz2, View.readCov_unit_zero (S := S1x4) _ hz2]
  simp only [View.readAt_eq_ld, harg2.read_unread, harg3.read_unread, harg4.read_unread, harg5.read_unread, harg6.read_unread, harg8.read_unread, View.ld_unit_zero (S := S1x512x4096) hz3, View.ld_unit_zero (S := S512x1) hz2, View.ld_unit_zero (S := S1x4096) hz2, View.ld_unit_zero (S := S1x4) hz2]

/-- Row tile 1: the scratch ends at the tile's sums added to what it held. -/
theorem sout0_B_0_eq (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) :
    sout0_B_0 c i arg2 harg2 arg3 harg3 arg4 harg4 arg5 harg5 arg6 harg6 arg7 harg7 arg8 harg8 hc0 hc1 x0 x1 x2 x3 x4 xs0
      = k0_pay1 (k0_pay7 x0 x1) (k0_pay8 x0 x1 x2 x3) (k0_pay9 x0 x1 x4) (k0_pay10 x0 x1 x2 x3 x4) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1x4) hz2]
  simp only [View.readAt_eq_ld, harg2.read_unread, harg3.read_unread, harg4.read_unread, harg5.read_unread, harg6.read_unread, harg8.read_unread, View.ld_unit_zero (S := S1x512x4096) hz3, View.ld_unit_zero (S := S512x1) hz2, View.ld_unit_zero (S := S1x4096) hz2, View.ld_unit_zero (S := S1x4) hz2]

/-- Row tile 1: the output block's buffer ends at the padded block built from the updated scratch. -/
theorem out0_B_5_eq (c : Dev nD) (i : grid0.Coords) (arg2 : Memref sig .tc .vmem S1x512x4096 .f32) (harg2 : arg2.IsWhole) (arg3 : Memref sig .tc .vmem S1x512x4096 .f32) (harg3 : arg3.IsWhole) (arg4 : Memref sig .tc .vmem S512x1 .i32) (harg4 : arg4.IsWhole) (arg5 : Memref sig .tc .vmem S1x4096 .i32) (harg5 : arg5.IsWhole) (arg6 : Memref sig .tc .vmem S1x4096 .f32) (harg6 : arg6.IsWhole) (arg7 : Memref sig .tc .vmem S1x8x128 .f32) (harg7 : arg7.IsWhole) (arg8 : Memref sig .tc .vmem S1x4 .f32) (harg8 : arg8.IsWhole) (hc0 : ¬cond0_0 i) (hc1 : cond0_1 i)
    (x0 : Vec F S1x512x4096 .f32) (x1 : Vec F S1x512x4096 .f32) (x2 : Vec F S512x1 .i32) (x3 : Vec F S1x4096 .i32) (x4 : Vec F S1x4096 .f32) (xs0 : Vec F S1x4 .f32) :
    out0_B_5 c i arg2 harg2 arg3 harg3 arg4 harg4 arg5 harg5 arg6 harg6 arg7 harg7 arg8 harg8 hc0 hc1 x0 x1 x2 x3 x4 xs0
      = k0_pay2 (k0_pay1 (k0_pay7 x0 x1) (k0_pay8 x0 x1 x2 x3) (k0_pay9 x0 x1 x4) (k0_pay10 x0 x1 x2 x3 x4) xs0) := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero (S := S1x8x128) hz3, View.readCov_unit_zero (S := S1x4) _ hz2]
  simp only [View.readAt_eq_ld, harg2.read_unread, harg3.read_unread, harg4.read_unread, harg5.read_unread, harg6.read_unread, harg8.read_unread, View.ld_unit_zero (S := S1x512x4096) hz3, View.ld_unit_zero (S := S512x1) hz2, View.ld_unit_zero (S := S1x4096) hz2, View.ld_unit_zero (S := S1x4) hz2]

end Cert.KernelIdeal.Hand

end
-- ==== Proof.Spec.lean ====
/-
  The mathematics both programs compute, stated once over plain index types.

  From two arrays `a0 a1` of shape [16, 1024, 1024, 4] form the squared difference `sq a0 a1 b i j c`.
  Tokens `i` and `j` of the 1024 carry view ids; `diffView vid i j` is 1 when the ids differ and 0 when they agree.
  Channels 0 and 1 are the "t" pair, channels 2 and 3 the "s" pair; `chanT c` is 1 on the t pair and 0 on the s pair.

  One side sums over (b, i, j) the pair sums `d 0 + d 1` and `d 2 + d 3`, alone and weighted by `diffView`
  (`sumT`, `sumS`, `interT`, `interS`).  The other side walks the same data as 16 × 2 tiles of 512 rows by 4096 lanes,
  lane `l` standing for column `l / 4` and channel `l % 4`, and sums `d`, `d · chanT`, `d · diffView` and
  `(d · diffView) · chanT` over every tile (`tileAll`, `tileT`, `tileInterAll`, `tileInterT`).
  Regrouping the finite sums identifies `tileT` with `sumT` and `tileInterT` with `interT`; the s-pair sums are
  differences, which is where the entries have to be real numbers.
-/
import Idealize.ShloMosaic.PureOps.Ideal
import Idealize.ShloMosaic.Lib.ValueIdx

noncomputable section

namespace Cert.Spec

open Idealize.ShloMosaic Idealize.ShloMosaic.ValueIdx

/-- The inputs' shape. -/
abbrev A4 : Shape := ⟨4, ![16, 1024, 1024, 4]⟩
/-- The shape of the view-id vector. -/
abbrev V1 : Shape := ⟨1, ![1024]⟩

/-- The squared difference of the two inputs at batch `b`, row token `i`, column token `j`, channel `c`. -/
def sq (a0 a1 : A4.Idx → EReal) (b : Fin 16) (i j : Fin 1024) (c : Fin 4) : EReal :=
  (a0 (ix4 b i j c) - a1 (ix4 b i j c)) * (a0 (ix4 b i j c) - a1 (ix4 b i j c))

/-- 1 where tokens `i` and `j` belong to different views, 0 where they belong to the same one. -/
def diffView (vid : V1.Idx → BitVec 32) (i j : Fin 1024) : EReal :=
  if vid (ix1 i) = vid (ix1 j) then 0 else 1

/-- 1 on the t pair of channels (0, 1), 0 on the s pair (2, 3). -/
def chanT (c : Fin 4) : EReal := if c.val < 2 then 1 else 0

/-- Row `i` of tile row `r`: token `512 r + i`. -/
def rowOf (r : Fin 2) (i : Fin 512) : Fin 1024 := ⟨512 * r.val + i.val, by omega⟩
/-- Lane `l` is column token `l / 4`, -/
def colOf (l : Fin 4096) : Fin 1024 := ⟨l.val / 4, by omega⟩
/-- channel `l % 4`. -/
def chanOf (l : Fin 4096) : Fin 4 := ⟨l.val % 4, by omega⟩

variable (d : Fin 16 → Fin 1024 → Fin 1024 → Fin 4 → EReal) (q : Fin 1024 → Fin 1024 → EReal) (w : Fin 4 → EReal)

/-- Σ over (b, i, j) of the t pair. -/
def sumT : EReal := ∑ b : Fin 16, ∑ i : Fin 1024, ∑ j : Fin 1024, (d b i j 0 + d b i j 1)
/-- Σ over (b, i, j) of the s pair. -/
def sumS : EReal := ∑ b : Fin 16, ∑ i : Fin 1024, ∑ j : Fin 1024, (d b i j 2 + d b i j 3)
/-- Σ over (b, i, j) of the t pair weighted by `q i j`. -/
def interT : EReal := ∑ b : Fin 16, ∑ i : Fin 1024, ∑ j : Fin 1024, (d b i j 0 + d b i j 1) * q i j
/-- Σ over (b, i, j) of the s pair weighted by `q i j`. -/
def interS : EReal := ∑ b : Fin 16, ∑ i : Fin 1024, ∑ j : Fin 1024, (d b i j 2 + d b i j 3) * q i j

/-- Σ over every tile (b, r), row `i` and lane `l` of the entry. -/
def tileAll : EReal :=
  ∑ b : Fin 16, ∑ r : Fin 2, ∑ i : Fin 512, ∑ l : Fin 4096, d b (rowOf r i) (colOf l) (chanOf l)
/-- The same sum with each entry weighted by its channel's `w`. -/
def tileT : EReal :=
  ∑ b : Fin 16, ∑ r : Fin 2, ∑ i : Fin 512, ∑ l : Fin 4096, d b (rowOf r i) (colOf l) (chanOf l) * w (chanOf l)
/-- The same sum with each entry weighted by `q` at its two tokens. -/
def tileInterAll : EReal :=
  ∑ b : Fin 16, ∑ r : Fin 2, ∑ i : Fin 512, ∑ l : Fin 4096, d b (rowOf r i) (colOf l) (chanOf l) * q (rowOf r i) (colOf l)
/-- The same sum with both weights. -/
def tileInterT : EReal :=
  ∑ b : Fin 16, ∑ r : Fin 2, ∑ i : Fin 512, ∑ l : Fin 4096,
    (d b (rowOf r i) (colOf l) (chanOf l) * q (rowOf r i) (colOf l)) * w (chanOf l)

end Cert.Spec

end
-- ==== Proof.KIBlocks.lean ====
/-
  Where each window's block sits in its array, and what the output array holds after the run.

  The grid is 16 × 2; point `t = 2 b + r` is batch `b`, row tile `r`.  Windows 0 and 1 stage the block of 512 rows
  by 4096 lanes at (b, r, 0) of the two re-laid inputs, so row `p` of the block is row `512 r + p` of batch `b`.
  Window 2 stages rows `512 r …` of the row-id column; windows 3 and 4 stage their whole one-row arrays.
  Window 5 is the output: block `b` of 8 × 128, written back at the odd point of each batch only, so the blocks
  written back are pairwise disjoint and block `b` of the final array is what point `2 b + 1` left.
-/
import proofs.«402724_j74560632258756_3_alg».proof.Proof.KIFrame
import proofs.«402724_j74560632258756_3_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- the grid point of batch b, row tile r -/
def ptOf (b : Fin 16) (r : Fin 2) : Fin cfg0.N := ⟨2 * b.val + r.val, by have : cfg0.N = 32 := N_0; omega⟩

/-- Its position in the grid's order. -/
theorem ptOf_val (b : Fin 16) (r : Fin 2) : (ptOf b r).val = 2 * b.val + r.val := rfl

/-! ## The windows' block indices, decided over the grid -/

/-- Window 0's block index at point `t` is (t / 2, t % 2, 0). -/
private theorem idx0_0 : ∀ t : Fin cfg0.N, win0_0.index t (0 : Fin 3) = t.val / 2 ∧ win0_0.index t (1 : Fin 3) = t.val % 2
    ∧ win0_0.index t (2 : Fin 3) = 0 :=
  (by decide +kernel : ∀ t : Fin grid0.N, _)

/-- Window 1's block index at point `t` is (t / 2, t % 2, 0). -/
private theorem idx0_1 : ∀ t : Fin cfg0.N, win0_1.index t (0 : Fin 3) = t.val / 2 ∧ win0_1.index t (1 : Fin 3) = t.val % 2
    ∧ win0_1.index t (2 : Fin 3) = 0 :=
  (by decide +kernel : ∀ t : Fin grid0.N, _)

/-- Window 2's block index at point `t` is (t % 2, 0). -/
private theorem idx0_2 : ∀ t : Fin cfg0.N, win0_2.index t (0 : Fin 2) = t.val % 2 ∧ win0_2.index t (1 : Fin 2) = 0 :=
  (by decide +kernel : ∀ t : Fin grid0.N, _)

/-- Window 3's block index is (0, 0) at every point. -/
private theorem idx0_3 : ∀ t : Fin cfg0.N, win0_3.index t (0 : Fin 2) = 0 ∧ win0_3.index t (1 : Fin 2) = 0 :=
  (by decide +kernel : ∀ t : Fin grid0.N, _)

/-- Window 4's block index is (0, 0) at every point. -/
private theorem idx0_4 : ∀ t : Fin cfg0.N, win0_4.index t (0 : Fin 2) = 0 ∧ win0_4.index t (1 : Fin 2) = 0 :=
  (by decide +kernel : ∀ t : Fin grid0.N, _)

/-- Window 5's block index at point `t` is (t / 2, 0, 0). -/
private theorem idx0_5 : ∀ t : Fin cfg0.N, win0_5.index t (0 : Fin 3) = t.val / 2 ∧ win0_5.index t (1 : Fin 3) = 0
    ∧ win0_5.index t (2 : Fin 3) = 0 :=
  (by decide +kernel : ∀ t : Fin grid0.N, _)

/-! ## The input blocks, read where they sit in their arrays -/

/-- Row `p`, lane `l` of window 0's block at batch `b`, row tile `r` is row `512 r + p`, lane `l` of batch `b`. -/
theorem iblk0_apply (c : Dev nD) (b : Fin 16) (r : Fin 2) (p : Fin 512) (l : Fin 4096) :
    iblk m c 0 (ptOf b r) (ix3 0 p l) = V m c main_v18 (ix3 b (Cert.Spec.rowOf r p) l) := by
  obtain ⟨e0, e1, e2⟩ := idx0_0 (ptOf b r)
  rw [ptOf_val] at e0 e1
  show V m c main_v18 (((cfg0.win 0).blk (ptOf b r)).view.emb (ix3 0 p l)) = V m c main_v18 (ix3 b (Cert.Spec.rowOf r p) l)
  refine congrArg _ (funext fun a => Fin.ext ?_)
  match a with
  | ⟨0, _⟩ =>
    show win0_0.index (ptOf b r) (0 : Fin 3) * 1 + 1 * 0 = b.val
    have := r.isLt; omega
  | ⟨1, _⟩ =>
    show win0_0.index (ptOf b r) (1 : Fin 3) * 512 + 1 * p.val = 512 * r.val + p.val
    have := r.isLt; omega
  | ⟨2, _⟩ =>
    show win0_0.index (ptOf b r) (2 : Fin 3) * 4096 + 1 * l.val = l.val
    omega

/-- The same for window 1. -/
theorem iblk1_apply (c : Dev nD) (b : Fin 16) (r : Fin 2) (p : Fin 512) (l : Fin 4096) :
    iblk m c 1 (ptOf b r) (ix3 0 p l) = V m c main_v19 (ix3 b (Cert.Spec.rowOf r p) l) := by
  obtain ⟨e0, e1, e2⟩ := idx0_1 (ptOf b r)
  rw [ptOf_val] at e0 e1
  show V m c main_v19 (((cfg0.win 1).blk (ptOf b r)).view.emb (ix3 0 p l)) = V m c main_v19 (ix3 b (Cert.Spec.rowOf r p) l)
  refine congrArg _ (funext fun a => Fin.ext ?_)
  match a with
  | ⟨0, _⟩ =>
    show win0_1.index (ptOf b r) (0 : Fin 3) * 1 + 1 * 0 = b.val
    have := r.isLt; omega
  | ⟨1, _⟩ =>
    show win0_1.index (ptOf b r) (1 : Fin 3) * 512 + 1 * p.val = 512 * r.val + p.val
    have := r.isLt; omega
  | ⟨2, _⟩ =>
    show win0_1.index (ptOf b r) (2 : Fin 3) * 4096 + 1 * l.val = l.val
    omega

/-- Row `p` of window 2's block at row tile `r` is row `512 r + p` of the row-id column. -/
theorem iblk2_apply (c : Dev nD) (b : Fin 16) (r : Fin 2) (p : Fin 512) :
    iblk m c 2 (ptOf b r) (ix2 p 0) = V m c main_v20 (ix2 (Cert.Spec.rowOf r p) 0) := by
  obtain ⟨e0, e1⟩ := idx0_2 (ptOf b r)
  rw [ptOf_val] at e0
  show V m c main_v20 (((cfg0.win 2).blk (ptOf b r)).view.emb (ix2 p 0)) = V m c main_v20 (ix2 (Cert.Spec.rowOf r p) 0)
  refine congrArg _ (funext fun a => Fin.ext ?_)
  match a with
  | ⟨0, _⟩ =>
    show win0_2.index (ptOf b r) (0 : Fin 2) * 512 + 1 * p.val = 512 * r.val + p.val
    have := r.isLt; omega
  | ⟨1, _⟩ =>
    show win0_2.index (ptOf b r) (1 : Fin 2) * 1 + 1 * 0 = 0
    omega

/-- Window 3's block is its whole array at every point. -/
theorem iblk3_apply (c : Dev nD) (b : Fin 16) (r : Fin 2) (l : Fin 4096) :
    iblk m c 3 (ptOf b r) (ix2 0 l) = V m c main_v23 (ix2 0 l) := by
  obtain ⟨e0, e1⟩ := idx0_3 (ptOf b r)
  show V m c main_v23 (((cfg0.win 3).blk (ptOf b r)).view.emb (ix2 0 l)) = V m c main_v23 (ix2 0 l)
  refine congrArg _ (funext fun a => Fin.ext ?_)
  match a with
  | ⟨0, _⟩ =>
    show win0_3.index (ptOf b r) (0 : Fin 2) * 1 + 1 * 0 = 0
    omega
  | ⟨1, _⟩ =>
    show win0_3.index (ptOf b r) (1 : Fin 2) * 4096 + 1 * l.val = l.val
    omega

/-- Window 4's block is its whole array at every point. -/
theorem iblk4_apply (c : Dev nD) (b : Fin 16) (r : Fin 2) (l : Fin 4096) :
    iblk m c 4 (ptOf b r) (ix2 0 l) = V m c main_v27 (ix2 0 l) := by
  obtain ⟨e0, e1⟩ := idx0_4 (ptOf b r)
  show V m c main_v27 (((cfg0.win 4).blk (ptOf b r)).view.emb (ix2 0 l)) = V m c main_v27 (ix2 0 l)
  refine congrArg _ (funext fun a => Fin.ext ?_)
  match a with
  | ⟨0, _⟩ =>
    show win0_4.index (ptOf b r) (0 : Fin 2) * 1 + 1 * 0 = 0
    omega
  | ⟨1, _⟩ =>
    show win0_4.index (ptOf b r) (1 : Fin 2) * 4096 + 1 * l.val = l.val
    omega

/-! ## The output array after the run -/

/-- Among the points that write the output back, distinct points have distinct block indices: each batch's block is
    written back once, at its odd point. -/
private theorem flushIdx_inj5 : ∀ t t' : Fin cfg0.N, (cfg0.win 5).flush t = true → (cfg0.win 5).flush t' = true →
    win0_5.index t = win0_5.index t' → t = t' :=
  (by decide +kernel : ∀ t t' : Fin grid0.N, win0_5.flush t = true → win0_5.flush t' = true →
    win0_5.index t = win0_5.index t' → t = t')

/-- So the blocks written back share no array index. -/
private theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (flushIdx_inj5 t t' hf hf' h)

/-- after the run, row 0 lane k of batch b's output block is what the odd point of that batch left there -/
theorem out_apply (c : Dev nD) (b : Fin 16) (k : Fin 4) :
    (dats m 0 c).arrAt 5 cfg0.N (ix3 b 0 ⟨k.val, by omega⟩) = (outsAt0 m c (ptOf b 1).val (ptOf b 1).isLt).1 (ix3 0 0 ⟨k.val, by omega⟩) := by
  have hf : (cfg0.win 5).flush (ptOf b 1) = true := (flush0_5 (ptOf b 1)).mpr (by rw [ptOf_val]; omega)
  obtain ⟨e0, e1, e2⟩ := idx0_5 (ptOf b 1)
  rw [ptOf_val] at e0
  have hemb : ((cfg0.win 5).blk (ptOf b 1)).view.emb (ix3 (0 : Fin 1) (0 : Fin 8) (⟨k.val, by omega⟩ : Fin 128))
      = (ix3 b (0 : Fin 8) (⟨k.val, by omega⟩ : Fin 128) : S16x8x128.Idx) := by
    refine funext fun a => Fin.ext ?_
    match a with
    | ⟨0, _⟩ =>
      show win0_5.index (ptOf b 1) (0 : Fin 3) * 1 + 1 * 0 = b.val
      omega
    | ⟨1, _⟩ =>
      show win0_5.index (ptOf b 1) (1 : Fin 3) * 8 + 1 * 0 = 0
      omega
    | ⟨2, _⟩ =>
      show win0_5.index (ptOf b 1) (2 : Fin 3) * 128 + 1 * k.val = k.val
      omega
  have h := (dats m 0 c).arrAt_emb_eq_flushed 5 disjoint5 (ptOf b 1) hf (ix3 (0 : Fin 1) (0 : Fin 8) (⟨k.val, by omega⟩ : Fin 128))
  rw [hemb] at h
  refine h.trans ?_
  show (cfg0.win 5).cut (grid0.coords (ptOf b 1)) ((dats m 0 c).after 5 (ptOf b 1)) (ix3 (0 : Fin 1) (0 : Fin 8) (⟨k.val, by omega⟩ : Fin 128)) = _
  rw [after0_5]
  rfl

end Cert.KernelIdeal.Hand

end
-- ==== Proof.KPay.lean ====
/-
  The kernel body's arithmetic, read at the ideal values index by index.

  One grid step holds two blocks x0, x1 of 512 rows by 4096 lanes, a column of 512 row ids, a row of 4096 lane ids and a
  row of 4096 lane weights.  Its squared difference at row p, lane l is dB x0 x1 p l; its mask mB rid cid p l is 1
  where the row's id and the lane's id differ and 0 where they agree.  The step forms four numbers: the total of dB,
  the total of dB · mB, the total of dB · w and the total of (dB · mB) · w, each a sum over every row and lane, and adds
  them lane by lane to a four-lane accumulator; the last step copies the accumulator into row 0, lanes 0..3 of an
  8 × 128 block whose other entries are zero.
-/
import proofs.«402724_j74560632258756_3_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.HPay

open Cert.KernelIdeal Cert.KernelIdeal.Gen Idealize.ShloMosaic Idealize.ShloMosaic.ValueIdx

/-! ## Index sets and layout at an index -/

/-- The indices of a [1, a, b] array are the pairs (row, lane) … -/
def idxEquiv3u {a b : Nat} : (⟨3, ![1, a, b]⟩ : Shape).Idx ≃ Fin a × Fin b where
  toFun i := (i 1, i 2)
  invFun q := ix3 (0 : Fin 1) q.1 q.2
  left_inv i := by
    funext d
    match d with
    | ⟨0, _⟩ =>
      refine Fin.ext ?_
      have h : (i 0).val < 1 := (i 0).isLt
      show 0 = (i 0).val
      omega
    | ⟨1, _⟩ => rfl
    | ⟨2, _⟩ => rfl
  right_inv _ := rfl

/-- … so a sum over them is the double sum over rows and lanes. -/
theorem sum_idx3u {M : Type*} [AddCommMonoid M] {a b : Nat} (f : (⟨3, ![1, a, b]⟩ : Shape).Idx → M) :
    ∑ i, f i = ∑ p : Fin a, ∑ l : Fin b, f (ix3 (0 : Fin 1) p l) := by
  rw [← Equiv.sum_comp (idxEquiv3u (a := a) (b := b)).symm f, Fintype.sum_prod_type]
  rfl

/-- An [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a [512, 4096] block over every entry, as the body takes it: view the block [1, 512, 4096], reduce over
    the two block axes into [1], view that [1, 1, 1] and read its one entry. -/
theorem total_sum (src : FVec Ideal S512x4096 .f32)
    (hc : S512x4096.ShapeCasts S1x512x4096) (hr : S1x512x4096.Reduces [1, 2] S1)
    (hφ : FKind.Formats .f32) (hacc : (0x00000000#32 : BitVec 32) = FKind.add.neutral .f32 hφ)
    (hc2 : S1.ShapeCasts S1x1x1) (hp : ∀ a, (![0, 0, 0] : Fin 3 → Nat) a < S1x1x1.size a) :
    extractAt ![0, 0, 0]
        (shapeCast S1x1x1 (multiReduction (F := Ideal) .add [1, 2] S1 (shapeCast S1x512x4096 src hc) 0x00000000#32 hr hφ hacc) hc2) hp
      = ∑ p : Fin 512, ∑ l : Fin 4096, src (ix2 p l) := by
  unfold extractAt shapeCast
  refine (Ideal.multiReduction_add_total _ _ hr (fun b => by match b with | ⟨0, _⟩ => rfl) hφ hacc _).trans ?_
  rw [sum_idx3u]
  refine Finset.sum_congr rfl fun p _ => Finset.sum_congr rfl fun l _ => ?_
  exact shapeCast_ab_1ab_apply src hc (0 : Fin 1) p l

/-! ## The block's entries -/

/-- the squared difference of two blocks at row p, lane l -/
def dB (x0 x1 : Vec Ideal S1x512x4096 .f32) (p : Fin 512) (l : Fin 4096) : EReal :=
  (x0 (ix3 0 p l) - x1 (ix3 0 p l)) * (x0 (ix3 0 p l) - x1 (ix3 0 p l))
/-- 1 where row p's id differs from lane l's id, else 0 -/
def mB (rid : Vec Ideal S512x1 .i32) (cid : Vec Ideal S1x4096 .i32) (p : Fin 512) (l : Fin 4096) : EReal :=
  if rid (ix2 p 0) = cid (ix2 0 l) then 0 else 1

/-- The word "x ≠ y", widened to 32 bits and read as a signed integer, is 1 where the words differ and 0 where they
    agree. -/
theorem mask_word (x y : BitVec 32) :
    (((BitVec.setWidth 32 (IntOp.cmpi .ne x y)).toInt : ℝ) : EReal) = if x = y then 0 else 1 := by
  unfold IntOp.cmpi
  by_cases h : x = y
  · subst h
    have hb : (x != x) = false := by simp
    have h0 : (BitVec.setWidth 32 (BitVec.ofBool false)).toInt = 0 := by decide
    show (((BitVec.setWidth 32 (BitVec.ofBool (x != x))).toInt : ℝ) : EReal) = _
    rw [hb, h0, if_pos rfl, Int.cast_zero, EReal.coe_zero]
  · have hb : (x != y) = true := by simpa using h
    have h1 : (BitVec.setWidth 32 (BitVec.ofBool true)).toInt = 1 := by decide
    show (((BitVec.setWidth 32 (BitVec.ofBool (x != y))).toInt : ℝ) : EReal) = _
    rw [hb, h1, if_neg h, Int.cast_one, EReal.coe_one]

/-- The squared difference the body forms, at row p, lane l. -/
theorem pay4_apply (x0 x1 : Vec Ideal S1x512x4096 .f32) (p : Fin 512) (l : Fin 4096) :
    k0_pay4 (F := Ideal) x0 x1 (ix2 p l) = dB x0 x1 p l := by
  unfold k0_pay4 dB
  simp only [mulf_apply, subf_apply]
  rw [shapeCast_1ab_ab_apply, shapeCast_1ab_ab_apply]

/-- The masked squared difference the body forms, at row p, lane l. -/
theorem pay5_apply (x0 x1 : Vec Ideal S1x512x4096 .f32) (rid : Vec Ideal S512x1 .i32) (cid : Vec Ideal S1x4096 .i32)
    (p : Fin 512) (l : Fin 4096) :
    k0_pay5 (F := Ideal) x0 x1 rid cid (ix2 p l) = dB x0 x1 p l * mB rid cid p l := by
  unfold k0_pay5 mB
  simp only [mulf_apply, sitofp_apply, extui_apply, shapeCast_self]
  rw [pay4_apply]
  refine congrArg (dB x0 x1 p l * ·) ?_
  refine Eq.trans ?_ (mask_word (rid (ix2 p 0)) (cid (ix2 0 l)))
  show (((BitVec.setWidth 32 (IntOp.cmpi .ne (broadcastTo S512x4096 rid _ (ix2 p l)) (broadcastTo S512x4096 cid _ (ix2 p l)))).toInt : ℝ) : EReal) = _
  rw [broadcastTo_a1_ab_apply, broadcastTo_1b_ab_apply]

/-- The lane weights as the body reads them. -/
theorem pay6_eq (wv : Vec Ideal S1x4096 .f32) : k0_pay6 (F := Ideal) wv = wv := by
  unfold k0_pay6
  exact shapeCast_self wv _

theorem pay3_eq : k0_pay3 (F := Ideal) = fun _ => (0 : EReal) := by
  funext j
  unfold k0_pay3
  simp only [shapeCast_self, broadcast_apply]
  exact Ideal.ofBits_zero_f32

/-- The same total, spread over a [1, 1] vector. -/
theorem total_bcast (src : FVec Ideal S512x4096 .f32)
    (hc : S512x4096.ShapeCasts S1x512x4096) (hr : S1x512x4096.Reduces [1, 2] S1)
    (hφ : FKind.Formats .f32) (hacc : (0x00000000#32 : BitVec 32) = FKind.add.neutral .f32 hφ)
    (hc2 : S1.ShapeCasts S1x1x1) (hp : ∀ a, (![0, 0, 0] : Fin 3 → Nat) a < S1x1x1.size a) (j : S1x1.Idx) :
    broadcast S1x1 (extractAt ![0, 0, 0]
        (shapeCast S1x1x1 (multiReduction (F := Ideal) .add [1, 2] S1 (shapeCast S1x512x4096 src hc) 0x00000000#32 hr hφ hacc) hc2) hp) j
      = ∑ p : Fin 512, ∑ l : Fin 4096, src (ix2 p l) :=
  total_sum src hc hr hφ hacc hc2 hp

theorem pay7_eq (x0 x1 : Vec Ideal S1x512x4096 .f32) :
    k0_pay7 (F := Ideal) x0 x1 = fun _ => ∑ p : Fin 512, ∑ l : Fin 4096, dB x0 x1 p l := by
  funext j
  refine Eq.trans ?_ (Finset.sum_congr rfl fun p _ => Finset.sum_congr rfl fun l _ => pay4_apply x0 x1 p l)
  exact total_bcast (k0_pay4 (F := Ideal) x0 x1) shapeCasts_S512x4096_S1x512x4096 reduces_S1x512x4096_S1 (.inl rfl) rfl
    shapeCasts_S1_S1x1x1 inpos_S1x1x1_p0_0_0 j

theorem pay8_eq (x0 x1 : Vec Ideal S1x512x4096 .f32) (rid : Vec Ideal S512x1 .i32) (cid : Vec Ideal S1x4096 .i32) :
    k0_pay8 (F := Ideal) x0 x1 rid cid = fun _ => ∑ p : Fin 512, ∑ l : Fin 4096, dB x0 x1 p l * mB rid cid p l := by
  funext j
  refine Eq.trans ?_ (Finset.sum_congr rfl fun p _ => Finset.sum_congr rfl fun l _ => pay5_apply x0 x1 rid cid p l)
  exact total_bcast (k0_pay5 (F := Ideal) x0 x1 rid cid) shapeCasts_S512x4096_S1x512x4096 reduces_S1x512x4096_S1 (.inl rfl) rfl
    shapeCasts_S1_S1x1x1 inpos_S1x1x1_p0_0_0 j

theorem pay9_eq (x0 x1 : Vec Ideal S1x512x4096 .f32) (wv : Vec Ideal S1x4096 .f32) :
    k0_pay9 (F := Ideal) x0 x1 wv = fun _ => ∑ p : Fin 512, ∑ l : Fin 4096, dB x0 x1 p l * wv (ix2 0 l) := by
  funext j
  have hpt : ∀ (p : Fin 512) (l : Fin 4096),
      mulf (k0_pay4 (F := Ideal) x0 x1) (broadcastTo S512x4096 (k0_pay6 (F := Ideal) wv) broadcasts_S1x4096_S512x4096) (ix2 p l)
        = dB x0 x1 p l * wv (ix2 0 l) := fun p l => by
    rw [mulf_apply, pay4_apply, pay6_eq, broadcastTo_1b_ab_apply]
  refine Eq.trans ?_ (Finset.sum_congr rfl fun p _ => Finset.sum_congr rfl fun l _ => hpt p l)
  exact total_bcast (mulf (k0_pay4 (F := Ideal) x0 x1) (broadcastTo S512x4096 (k0_pay6 (F := Ideal) wv) broadcasts_S1x4096_S512x4096))
    shapeCasts_S512x4096_S1x512x4096 reduces_S1x512x4096_S1 (.inl rfl) rfl shapeCasts_S1_S1x1x1 inpos_S1x1x1_p0_0_0 j

theorem pay10_apply (x0 x1 : Vec Ideal S1x512x4096 .f32) (rid : Vec Ideal S512x1 .i32) (cid : Vec Ideal S1x4096 .i32)
    (wv : Vec Ideal S1x4096 .f32) (p : Fin 512) (l : Fin 4096) :
    k0_pay10 (F := Ideal) x0 x1 rid cid wv (ix2 p l) = (dB x0 x1 p l * mB rid cid p l) * wv (ix2 0 l) := by
  unfold k0_pay10
  simp only [mulf_apply]
  rw [pay5_apply, pay6_eq, broadcastTo_1b_ab_apply]

/-! ## The accumulator update and the flushed block -/

section Concat
variable {α : Type} (y0 y1 y2 y3 : S1x1.Idx → α) (h : Shape.Concatenates [S1x1, S1x1, S1x1, S1x1] S1x4 1)

/-- Four [1, 1] pieces laid side by side along the lanes: lane 0 reads the first, -/
theorem concat4_at0 :
    concatenate S1x4 1 [⟨S1x1, y0⟩, ⟨S1x1, y1⟩, ⟨S1x1, y2⟩, ⟨S1x1, y3⟩] h (ix2 (0 : Fin 1) (0 : Fin 4))
      = y0 (ix2 (0 : Fin 1) (0 : Fin 1)) :=
  concatenate_apply_piece 1 [⟨S1x1, y0⟩, ⟨S1x1, y1⟩, ⟨S1x1, y2⟩, ⟨S1x1, y3⟩] h (ix2 (0 : Fin 1) (0 : Fin 4)) 0 (by simp) S1x1 y0 rfl rfl 0 rfl (ix2 (0 : Fin 1) (0 : Fin 1))
    (fun b hb => by match b with | ⟨0, _⟩ => rfl | ⟨1, _⟩ => exact absurd rfl hb) rfl

/-- lane 1 the second, -/
theorem concat4_at1 :
    concatenate S1x4 1 [⟨S1x1, y0⟩, ⟨S1x1, y1⟩, ⟨S1x1, y2⟩, ⟨S1x1, y3⟩] h (ix2 (0 : Fin 1) (1 : Fin 4))
      = y1 (ix2 (0 : Fin 1) (0 : Fin 1)) :=
  concatenate_apply_piece 1 [⟨S1x1, y0⟩, ⟨S1x1, y1⟩, ⟨S1x1, y2⟩, ⟨S1x1, y3⟩] h (ix2 (0 : Fin 1) (1 : Fin 4)) 1 (by simp) S1x1 y1 rfl rfl 1 rfl (ix2 (0 : Fin 1) (0 : Fin 1))
    (fun b hb => by match b with | ⟨0, _⟩ => rfl | ⟨1, _⟩ => exact absurd rfl hb) rfl

/-- lane 2 the third, -/
theorem concat4_at2 :
    concatenate S1x4 1 [⟨S1x1, y0⟩, ⟨S1x1, y1⟩, ⟨S1x1, y2⟩, ⟨S1x1, y3⟩] h (ix2 (0 : Fin 1) (2 : Fin 4))
      = y2 (ix2 (0 : Fin 1) (0 : Fin 1)) :=
  concatenate_apply_piece 1 [⟨S1x1, y0⟩, ⟨S1x1, y1⟩, ⟨S1x1, y2⟩, ⟨S1x1, y3⟩] h (ix2 (0 : Fin 1) (2 : Fin 4)) 2 (by simp) S1x1 y2 rfl rfl 2 rfl (ix2 (0 : Fin 1) (0 : Fin 1))
    (fun b hb => by match b with | ⟨0, _⟩ => rfl | ⟨1, _⟩ => exact absurd rfl hb) rfl

/-- lane 3 the fourth. -/
theorem concat4_at3 :
    concatenate S1x4 1 [⟨S1x1, y0⟩, ⟨S1x1, y1⟩, ⟨S1x1, y2⟩, ⟨S1x1, y3⟩] h (ix2 (0 : Fin 1) (3 : Fin 4))
      = y3 (ix2 (0 : Fin 1) (0 : Fin 1)) :=
  concatenate_apply_piece 1 [⟨S1x1, y0⟩, ⟨S1x1, y1⟩, ⟨S1x1, y2⟩, ⟨S1x1, y3⟩] h (ix2 (0 : Fin 1) (3 : Fin 4)) 3 (by simp) S1x1 y3 rfl rfl 3 rfl (ix2 (0 : Fin 1) (0 : Fin 1))
    (fun b hb => by match b with | ⟨0, _⟩ => rfl | ⟨1, _⟩ => exact absurd rfl hb) rfl

end Concat

section Acc
variable (v25 v30 v37 : FVec Ideal S1x1 .f32) (v39 : FVec Ideal S512x4096 .f32) (v46 : Vec Ideal S1x4 .f32)

/-- The updated accumulator at a lane: the old lane plus the lane of the four numbers laid side by side. -/
theorem pay1_apply (i : S1x4.Idx) :
    k0_pay1 (F := Ideal) v25 v30 v37 v39 v46 i
      = v46 i + concatenate S1x4 1 [⟨S1x1, v25⟩, ⟨S1x1, v37⟩, ⟨S1x1, v30⟩,
          ⟨S1x1, broadcast S1x1 (extractAt ![0, 0, 0]
            (shapeCast S1x1x1 (multiReduction (F := Ideal) .add [1, 2] S1
              (shapeCast S1x512x4096 v39 shapeCasts_S512x4096_S1x512x4096) 0x00000000#32 reduces_S1x512x4096_S1 (.inl rfl) rfl)
              shapeCasts_S1_S1x1x1) inpos_S1x1x1_p0_0_0)⟩]
          concatenates_S1x1_S1x1_S1x1_S1x1_S1x4_d1 i := by
  unfold k0_pay1
  exact congrFun (shapeCast_self _ _) i

theorem pay1_at0 :
    k0_pay1 (F := Ideal) v25 v30 v37 v39 v46 (ix2 (0 : Fin 1) (0 : Fin 4))
      = v46 (ix2 (0 : Fin 1) (0 : Fin 4)) + v25 (ix2 (0 : Fin 1) (0 : Fin 1)) := by
  rw [pay1_apply, concat4_at0]

theorem pay1_at1 :
    k0_pay1 (F := Ideal) v25 v30 v37 v39 v46 (ix2 (0 : Fin 1) (1 : Fin 4))
      = v46 (ix2 (0 : Fin 1) (1 : Fin 4)) + v37 (ix2 (0 : Fin 1) (0 : Fin 1)) := by
  rw [pay1_apply, concat4_at1]

theorem pay1_at2 :
    k0_pay1 (F := Ideal) v25 v30 v37 v39 v46 (ix2 (0 : Fin 1) (2 : Fin 4))
      = v46 (ix2 (0 : Fin 1) (2 : Fin 4)) + v30 (ix2 (0 : Fin 1) (0 : Fin 1)) := by
  rw [pay1_apply, concat4_at2]

theorem pay1_at3 :
    k0_pay1 (F := Ideal) v25 v30 v37 v39 v46 (ix2 (0 : Fin 1) (3 : Fin 4))
      = v46 (ix2 (0 : Fin 1) (3 : Fin 4)) + ∑ p : Fin 512, ∑ l : Fin 4096, v39 (ix2 p l) := by
  rw [pay1_apply, concat4_at3]
  exact congrArg (v46 (ix2 (0 : Fin 1) (3 : Fin 4)) + ·)
    (total_bcast v39 shapeCasts_S512x4096_S1x512x4096 reduces_S1x512x4096_S1 (.inl rfl) rfl shapeCasts_S1_S1x1x1
      inpos_S1x1x1_p0_0_0 (ix2 (0 : Fin 1) (0 : Fin 1)))

end Acc

/-- the flushed block: row 0, lanes 0..3 carry the accumulator -/
theorem pay2_at (v55 : Vec Ideal S1x4 .f32) (k : Fin 4) :
    k0_pay2 (F := Ideal) v55 (ix3 (0 : Fin 1) (0 : Fin 8) (⟨k.val, by omega⟩ : Fin 128)) = v55 (ix2 (0 : Fin 1) k) := by
  unfold k0_pay2
  have hk : k.val < 128 := by omega
  refine Eq.trans (shapeCast_ab_1ab_apply _ _ (0 : Fin 1) (0 : Fin 8) (⟨k.val, hk⟩ : Fin 128)) ?_
  refine Eq.trans (concatenate_pair_apply_left (t := S8x128) (s₁ := S1x128) (s₂ := S7x128) 0 _ _ _
    (ix2 (0 : Fin 8) (⟨k.val, hk⟩ : Fin 128)) rfl (ix2 (0 : Fin 1) (⟨k.val, hk⟩ : Fin 128))
    (fun b => by match b with | ⟨0, _⟩ => rfl | ⟨1, _⟩ => rfl)) ?_
  exact concatenate_pair_apply_left (t := S1x128) (s₁ := S1x4) (s₂ := S1x124) 1 _ _ _
    (ix2 (0 : Fin 1) (⟨k.val, hk⟩ : Fin 128)) rfl (ix2 (0 : Fin 1) k)
    (fun b => by match b with | ⟨0, _⟩ => rfl | ⟨1, _⟩ => rfl)

end Cert.KernelIdeal.HPay

end
-- ==== Proof.KHost.lean ====
import proofs.«402724_j74560632258756_3_alg».proof.Proof.Gen.KernelIdeal.Launch
import Idealize.ShloMosaic.Lib.StableHlo.Run
import proofs.«402724_j74560632258756_3_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

/-!
  The host side of the program, as pure functions of the buffers' contents.

  Before the region the host computes, from the four view sizes `ms`, the view id of each of the 1024 tokens
  (`vids`: the sizes rolled by one, their first entry zeroed, summed cumulatively to the views' first tokens; a one
  scattered at each first token, summed cumulatively and lowered by one to the token's view number; the number looked
  up in the table 0 … 3), lays the ids out as a column (`rowIds`) and, each repeated four times, as a row of 4096 lanes
  (`colIds`), lays the channel weights 1, 1, 0, 0 out over the same lanes (`chanW`), and reads both inputs as
  [16, 1024, 4096] (`lanes`).

  After the region it keeps the first four entries of each batch's first row, sums them over the 16 batches
  (`batchSums`), takes the four sums apart (`lane`), and from their differences and the view sizes forms the seven
  outputs (`lossOf`).

  Each theorem states what the fold of the operations leaves in one buffer, for any contents beforehand.
-/

noncomputable section

namespace Cert.KernelIdeal.HHost

open Cert.KernelIdeal Cert.KernelIdeal.Gen Idealize.ShloMosaic Idealize.ShloMosaic.TcCoe Idealize.ShloMosaic.StableHlo
  Idealize.ShloMosaic.ValueIdx

variable {F : FTy → Type} [FloatOps F]

/-- The 63 operations before the region, the calls inlined, in order. -/
abbrev pre : List (HloOp τ sig (Elt F)) :=
  List.flatten [hostOps0, hostOps0_1, hostOps0_2, hostOps0_3, hostOps0_4, hostOps0_5, hostOps0_6, hostOps0_7, hostOps0_8]

/-! ## The view ids, stretch by stretch -/

/-- The four sizes rolled right by one: the last, then the first three. -/
def rolled (ms : IVec S4 32) : IVec S4 32 :=
  concatenate S4 0
    [⟨S1, extractStridedSlice S1 ![3] ms slices_S4_S1_3⟩, ⟨S3, extractStridedSlice S3 ![0] ms slices_S4_S3_0⟩]
    concatenates_S1_S3_S4_d0

/-- Entry 0 overwritten with zero. -/
def zeroFirst (x : IVec S4 32) : IVec S4 32 :=
  Host.scatter scatter_S4_S1_S__n_0_0_0 (fun _ b => b) x
    (broadcastInDim S1 ![] bcast_S_S1 (constantI S_ 32 0#32)) (constantI S_ 32 0#32)

/-- The running sum of four entries (windows of width 4, three zeros padded in front). -/
def cumsum4 (x : IVec S4 32) : IVec S4 32 :=
  Host.reduceWindow IntOp.addi ![4] ![1] ![3] ![0] x (broadcastInDim S_ ![] bcast_S_S_ (constantI S_ 32 0#32))
    reduceWindows_S4_S4_w4s1p3_0 h_S_

/-- A negative start wrapped by 1024. -/
def wrapStart (st : IVec S4 32) : IVec S4 32 :=
  select (cmpi .slt st (broadcastInDim S4 ![] bcast_S_S4 (constantI S_ 32 0#32)))
    (addi st (broadcastInDim S4 ![] bcast_S_S4 (constantI S_ 32 1024#32))) st

/-- A one added at each view's (wrapped) first token, over 1024 zeros. -/
def marks (st : IVec S4 32) : IVec S1024 32 :=
  Host.scatter scatter_S1024_S4x1_S4_n_0_0_1 IntOp.addi
    (broadcastInDim S1024 ![] bcast_S_S1024 (constantI S_ 32 0#32))
    (broadcastInDim S4x1 ![0] bcast_S4_S4x1_0 (wrapStart st))
    (broadcastInDim S4 ![] bcast_S_S4 (constantI S_ 32 1#32))

/-- The running sum of 1024 entries (windows of width 1024, 1023 zeros padded in front). -/
def cumsum1024 (x : IVec S1024 32) : IVec S1024 32 :=
  Host.reduceWindow IntOp.addi ![1024] ![1] ![1023] ![0] x (broadcastInDim S_ ![] bcast_S_S_ (constantI S_ 32 0#32))
    reduceWindows_S1024_S1024_w1024s1p1023_0 h_S_

/-- Every entry lowered by one. -/
def decr (x : IVec S1024 32) : IVec S1024 32 :=
  subi x (broadcastInDim S1024 ![] bcast_S_S1024 (constantI S_ 32 1#32))

/-- An index into a table of four, a negative one wrapped by four, as a column of index vectors. -/
def wrapIdx (ix : IVec S1024 32) : IVec S1024x1 32 :=
  broadcastInDim S1024x1 ![0] bcast_S1024_S1024x1_0
    (select (cmpi .slt ix (broadcastInDim S1024 ![] bcast_S_S1024 (constantI S_ 32 0#32)))
      (addi ix (broadcastInDim S1024 ![] bcast_S_S1024 (constantI S_ 32 4#32))) ix)

/-- Whether each index vector lies in the table: at least 0 and at most 3. -/
def inTable (j : IVec S1024x1 32) : IVec S1024 1 :=
  Host.reduce IntOp.andi
    (andi (cmpi .sge j (broadcastInDim S1024x1 ![] bcast_S_S1024x1 (constantI S_ 32 0#32)))
      (cmpi .sle j
        (broadcastInDim S1024x1 ![0, 1] bcast_S1x1_S1024x1_0_1
          (broadcastInDim S1x1 ![1] bcast_S1_S1x1_1 (constantI S1 32 3#32)))))
    (constantI S_ 1 1#1) reducesTo_S1024x1_S1024_d1 h_S_

/-- The table `tbl` of four entries read at each of the 1024 indices `ix` (wrapped): the gathered entry where the
    index lies in the table, the least integer elsewhere. -/
def take4 (tbl : IVec S4 32) (ix : IVec S1024 32) : IVec S1024 32 :=
  select (inTable (wrapIdx ix)) (Host.gather gather_S4_S1024x1_S1024_n_0_n_n_0_1_1 tbl (wrapIdx ix))
    (broadcastInDim S1024 ![] bcast_S_S1024 (constantI S_ 32 2147483648#32))

/-- The view id of each token, from the view sizes, the operations in program order: the sizes rolled, their first
    entry zeroed and summed cumulatively (each view's first token); a one at each first token, summed cumulatively and
    lowered by one (each token's view number); the table 0, 1, 2, 3 read at that number. -/
def vids (ms : IVec S4 32) : IVec S1024 32 :=
  take4 (iotaInDim S4 32 0) (decr (cumsum1024 (marks (cumsum4 (zeroFirst (rolled ms))))))
/-- The ids as a column. -/
def rowIds (v : IVec S1024 32) : IVec S1024x1 32 := shapeCast S1024x1 v shapeCasts_S1024_S1024x1

/-- The ids, each repeated four times, as a row of 4096 lanes. -/
def colIds (v : IVec S1024 32) : IVec S1x4096 32 :=
  shapeCast S1x4096
    (shapeCast S4096 (broadcastInDim S1024x4 ![0] bcast_S1024_S1024x4_0 v) shapeCasts_S1024x4_S4096)
    shapeCasts_S4096_S1x4096

/-- The channel weights 1, 1, 0, 0, repeated for each of the 1024 columns, as a row of 4096 lanes. -/
def chanW : FVec F S1x4096 .f32 :=
  shapeCast S1x4096
    (shapeCast S4096
      (broadcastInDim S1024x4 ![0, 1] bcast_S1x4_S1024x4_0_1
        (shapeCast S1x4 (fun i : S4.Idx => (FloatOps.ofBits .f32 (lit0 (S4.rowMajor i)) : F .f32)) shapeCasts_S4_S1x4))
      shapeCasts_S1024x4_S4096)
    shapeCasts_S4096_S1x4096

/-- An input read as [16, 1024, 4096]: column and channel merged into one lane axis. -/
def lanes (a : FVec F S16x1024x1024x4 .f32) : FVec F S16x1024x4096 .f32 :=
  shapeCast S16x1024x4096 a shapeCasts_S16x1024x1024x4_S16x1024x4096

attribute [local irreducible] Host.reduce Host.gather Host.scatter Host.reduceWindow

/-! ## Each stretch's fold, from any contents -/

section Stretches

variable (V : Valuation τ sig (Elt F))

theorem s0_v0 : after hostOps0 V (main_v0 : DevRef τ sig) = iotaInDim S4 32 0 := by
  simp only [hostOps0]; after_results
theorem s0_arg2 : after hostOps0 V (main_arg2 : DevRef τ sig) = V (main_arg2 : DevRef τ sig) := by
  simp only [hostOps0]; after_results

theorem s1_v1 : after hostOps0_1 V (main_v1 : DevRef τ sig) = rolled (V (main_arg2 : DevRef τ sig)) := by
  simp only [hostOps0_1]; after_results; rfl
theorem s1_v0 : after hostOps0_1 V (main_v0 : DevRef τ sig) = V (main_v0 : DevRef τ sig) := by
  simp only [hostOps0_1]; after_results

theorem s2_v3 : after hostOps0_2 V (main_v3 : DevRef τ sig) = zeroFirst (V (main_v1 : DevRef τ sig)) := by
  simp only [hostOps0_2]; after_results; rfl
theorem s2_v0 : after hostOps0_2 V (main_v0 : DevRef τ sig) = V (main_v0 : DevRef τ sig) := by
  simp only [hostOps0_2]; after_results

theorem s3_v4 : after hostOps0_3 V (main_v4 : DevRef τ sig) = cumsum4 (V (main_v3 : DevRef τ sig)) := by
  simp only [hostOps0_3]; after_results; rfl
theorem s3_v0 : after hostOps0_3 V (main_v0 : DevRef τ sig) = V (main_v0 : DevRef τ sig) := by
  simp only [hostOps0_3]; after_results

theorem s4_v13 : after hostOps0_4 V (main_v13 : DevRef τ sig) = marks (V (main_v4 : DevRef τ sig)) := by
  simp only [hostOps0_4]; after_results; rfl
theorem s4_v0 : after hostOps0_4 V (main_v0 : DevRef τ sig) = V (main_v0 : DevRef τ sig) := by
  simp only [hostOps0_4]; after_results

theorem s5_v14 : after hostOps0_5 V (main_v14 : DevRef τ sig) = cumsum1024 (V (main_v13 : DevRef τ sig)) := by
  simp only [hostOps0_5]; after_results; rfl
theorem s5_v0 : after hostOps0_5 V (main_v0 : DevRef τ sig) = V (main_v0 : DevRef τ sig) := by
  simp only [hostOps0_5]; after_results

theorem s6_v16 : after hostOps0_6 V (main_v16 : DevRef τ sig) = decr (V (main_v14 : DevRef τ sig)) := by
  simp only [hostOps0_6]; after_results; rfl
theorem s6_v0 : after hostOps0_6 V (main_v0 : DevRef τ sig) = V (main_v0 : DevRef τ sig) := by
  simp only [hostOps0_6]; after_results

end Stretches

section Stretches78

variable (V : Valuation τ sig (Elt F))

set_option maxHeartbeats 400000 in
theorem s7_v17 : after hostOps0_7 V (main_v17 : DevRef τ sig)
    = take4 (V (main_v0 : DevRef τ sig)) (V (main_v16 : DevRef τ sig)) := by
  simp only [hostOps0_7]; after_results_simp; rfl

theorem s8_v20 : after hostOps0_8 V (main_v20 : DevRef τ sig) = rowIds (V (main_v17 : DevRef τ sig)) := by
  simp only [hostOps0_8]; after_results; rfl
theorem s8_v23 : after hostOps0_8 V (main_v23 : DevRef τ sig) = colIds (V (main_v17 : DevRef τ sig)) := by
  simp only [hostOps0_8]; after_results; rfl

end Stretches78

/-- The fold over the nine stretches is the nine folds in turn. -/
theorem pre_eq (W : Valuation τ sig (Elt F)) : after pre W
    = after hostOps0_8 (after hostOps0_7 (after hostOps0_6 (after hostOps0_5 (after hostOps0_4 (after hostOps0_3
        (after hostOps0_2 (after hostOps0_1 (after hostOps0 W)))))))) := by
  simp only [pre, List.flatten_cons, List.flatten_nil, List.append_nil, StableHlo.after_append]

/-- After the first eight stretches `%17` holds the view ids. -/
theorem pre7_v17 (W : Valuation τ sig (Elt F)) :
    after hostOps0_7 (after hostOps0_6 (after hostOps0_5 (after hostOps0_4 (after hostOps0_3
        (after hostOps0_2 (after hostOps0_1 (after hostOps0 W))))))) (main_v17 : DevRef τ sig)
      = vids (W (main_arg2 : DevRef τ sig)) := by
  rw [s7_v17, s6_v16, s5_v14, s4_v13, s3_v4, s2_v3, s1_v1, s0_arg2,
    s6_v0, s5_v0, s4_v0, s3_v0, s2_v0, s1_v0, s0_v0]
  rfl

theorem pre_v20 (W : Valuation τ sig (Elt F)) :
    after pre W (main_v20 : DevRef τ sig) = rowIds (vids (W (main_arg2 : DevRef τ sig))) := by
  rw [pre_eq, s8_v20, pre7_v17]

theorem pre_v23 (W : Valuation τ sig (Elt F)) :
    after pre W (main_v23 : DevRef τ sig) = colIds (vids (W (main_arg2 : DevRef τ sig))) := by
  rw [pre_eq, s8_v23, pre7_v17]

/-! ## What the whole fold leaves in the buffers the region reads -/

set_option maxHeartbeats 400000 in
theorem pre_v18 (W : Valuation τ sig (Elt F)) :
    after pre W (main_v18 : DevRef τ sig) = lanes (W (main_arg0 : DevRef τ sig)) := by
  simp only [pre, hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 400000 in
theorem pre_v19 (W : Valuation τ sig (Elt F)) :
    after pre W (main_v19 : DevRef τ sig) = lanes (W (main_arg1 : DevRef τ sig)) := by
  simp only [pre, hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 400000 in
theorem pre_v27 (W : Valuation τ sig (Elt F)) : after pre W (main_v27 : DevRef τ sig) = chanW := by
  simp only [pre, hostOps0, hostOps0_1, hostOps0_2, hostOps0_3, hostOps0_4, hostOps0_5, hostOps0_6, hostOps0_7, hostOps0_8,
    List.flatten_cons, List.flatten_nil, List.append_nil, List.cons_append, List.nil_append]
  after_results
  rfl

set_option maxHeartbeats 400000 in
theorem pre_arg0 (W : Valuation τ sig (Elt F)) :
    after pre W (main_arg0 : DevRef τ sig) = W (main_arg0 : DevRef τ sig) := by
  simp only [pre, hostOps0, hostOps0_1, hostOps0_2, hostOps0_3, hostOps0_4, hostOps0_5, hostOps0_6, hostOps0_7, hostOps0_8,
    List.flatten_cons, List.flatten_nil, List.append_nil, List.cons_append, List.nil_append]
  after_results

set_option maxHeartbeats 400000 in
theorem pre_arg1 (W : Valuation τ sig (Elt F)) :
    after pre W (main_arg1 : DevRef τ sig) = W (main_arg1 : DevRef τ sig) := by
  simp only [pre, hostOps0, hostOps0_1, hostOps0_2, hostOps0_3, hostOps0_4, hostOps0_5, hostOps0_6, hostOps0_7, hostOps0_8,
    List.flatten_cons, List.flatten_nil, List.append_nil, List.cons_append, List.nil_append]
  after_results

set_option maxHeartbeats 400000 in
theorem pre_arg2 (W : Valuation τ sig (Elt F)) :
    after pre W (main_arg2 : DevRef τ sig) = W (main_arg2 : DevRef τ sig) := by
  simp only [pre, hostOps0, hostOps0_1, hostOps0_2, hostOps0_3, hostOps0_4, hostOps0_5, hostOps0_6, hostOps0_7, hostOps0_8,
    List.flatten_cons, List.flatten_nil, List.append_nil, List.cons_append, List.nil_append]
  after_results

/-! ## The layouts read at an index -/

/-- Lane `l` of row `i` of batch `b` is the input at column `l / 4`, channel `l % 4`. -/
theorem lanes_apply (a : FVec F S16x1024x1024x4 .f32) (b : Fin 16) (i : Fin 1024) (l : Fin 4096) :
    lanes a (ix3 b i l) = a (ix4 b i (Cert.Spec.colOf l) (Cert.Spec.chanOf l)) :=
  shapeCast_apply a _ _ _ (by
    rw [Shape.rowMajor_val_four, Shape.rowMajor_val_three]
    show ((b.val * 1024 + i.val) * 1024 + l.val / 4) * 4 + l.val % 4 = (b.val * 1024 + i.val) * 4096 + l.val
    omega)

/-- Row `i` of the column of ids is token `i`'s id. -/
theorem rowIds_apply (v : IVec S1024 32) (i : Fin 1024) : rowIds v (ix2 i 0) = v (ix1 i) :=
  shapeCast_apply v _ _ _ (by
    rw [Shape.rowMajor_val_one, Shape.rowMajor_val_two]
    show i.val = i.val * 1 + 0
    omega)

/-- Position `l` of a [4096] array read as [1024, 4] is row `l / 4`, column `l % 4`. -/
theorem cast_1024x4_4096_apply {α : Type} (y : S1024x4.Idx → α) (h : S1024x4.ShapeCasts S4096) (l : Fin 4096) :
    shapeCast S4096 y h (ix1 l) = y (ix2 (Cert.Spec.colOf l) (Cert.Spec.chanOf l)) :=
  shapeCast_apply y h _ _ (by
    rw [Shape.rowMajor_val_two, Shape.rowMajor_val_one]
    show l.val / 4 * 4 + l.val % 4 = l.val
    omega)

/-- Lane `l` of the row of ids is the id of column token `l / 4`. -/
theorem colIds_apply (v : IVec S1024 32) (l : Fin 4096) : colIds v (ix2 0 l) = v (ix1 (Cert.Spec.colOf l)) := by
  unfold colIds
  rw [shapeCast_a_1a_apply, cast_1024x4_4096_apply]
  exact broadcastInDim_apply _ _ v _ (ix1 (Cert.Spec.colOf l)) fun a => match a with | ⟨0, _⟩ => rfl

/-- Lane `l` of the row of channel weights is 1 on channels 0 and 1, 0 on channels 2 and 3. -/
theorem chanW_apply (l : Fin 4096) : chanW (F := Ideal) (ix2 0 l) = Cert.Spec.chanT (Cert.Spec.chanOf l) := by
  unfold chanW
  rw [shapeCast_a_1a_apply, cast_1024x4_4096_apply,
    broadcastInDim_apply _ _ _ _ (ix2 (0 : Fin 1) (Cert.Spec.chanOf l))
      (fun a => match a with | ⟨0, _⟩ => rfl | ⟨1, _⟩ => rfl),
    shapeCast_a_1a_apply]
  have hp : S4.rowMajor (ix1 (Cert.Spec.chanOf l)) = Cert.Spec.chanOf l := Fin.ext (Shape.rowMajor_val_one _)
  show Ideal.ofBits .f32 (lit0 (S4.rowMajor (ix1 (Cert.Spec.chanOf l)))) = _
  rw [hp]
  generalize Cert.Spec.chanOf l = c
  unfold Cert.Spec.chanT
  match c with
  | ⟨0, _⟩ => exact Ideal.ofBits_one_f32.trans (if_pos (show (0 : ℕ) < 2 by omega)).symm
  | ⟨1, _⟩ => exact Ideal.ofBits_one_f32.trans (if_pos (show (1 : ℕ) < 2 by omega)).symm
  | ⟨2, _⟩ => exact Ideal.ofBits_zero_f32.trans (if_neg (show ¬(2 : ℕ) < 2 by omega)).symm
  | ⟨3, _⟩ => exact Ideal.ofBits_zero_f32.trans (if_neg (show ¬(3 : ℕ) < 2 by omega)).symm

end Cert.KernelIdeal.HHost

end
-- ==== Proof.KHostTail.lean ====
/-
  The host operations after the region, as pure functions of what the region leaves.

  From the output array [16, 8, 128] the program takes row 0, lanes 0 … 3 of every batch and sums over the 16 batches:
  four sums `s 0 … s 3` (all pairs, the t pairs, the `q`-weighted pairs, the `q`-weighted t pairs).  It forms the
  differences `s 1 − s 3`, `(s 0 − s 1) − (s 2 − s 3)`, `s 3`, `s 2 − s 3`, divides the first two by `16 n` and the
  last two by `16 (2²⁰ − n)`, where `n` is the sum of the squares of the four counts, blends the quotients in pairs with
  fixed weights, and returns the four quotients and the three blends as one vector of seven.
-/
import proofs.«402724_j74560632258756_3_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws

noncomputable section

namespace Cert.KernelIdeal.HHost

open Cert.KernelIdeal Cert.KernelIdeal.Gen Idealize.ShloMosaic Idealize.ShloMosaic.StableHlo Idealize.ShloMosaic.ValueIdx
open Idealize.ShloMosaic.TcCoe

variable {F : FTy → Type} [FloatOps F]

/-! ## The pure functions -/

/-- Row 0, lanes 0 … 3 of every batch of the output array, summed over the 16 batches. -/
def batchSums (out : FVec F S16x8x128 .f32) : FVec F S4 .f32 :=
  Host.reduceAdd (shapeCast S16x4 (extractStridedSlice S16x1x4 ![0, 0, 0] out slices_S16x8x128_S16x1x4_0_0_0) shapeCasts_S16x1x4_S16x4)
    (constant S_ .f32 0x00000000#32) reducesTo_S16x4_S4_d0 h_S_

theorem slices_lane (k : Fin 4) : S4.Slices ![k.val] S1 := by revert k; decide

/-- Entry `k` of the four sums, as a scalar. -/
def lane (k : Fin 4) (s : FVec F S4 .f32) : FVec F S_ .f32 :=
  shapeCast S_ (extractStridedSlice S1 ![k.val] s (slices_lane k)) shapeCasts_S1_S_

/-- The sum of the squares of the four counts, as a float. -/
def sqCount (ms : IVec S4 32) : FVec F S_ .f32 :=
  sitofp .f32 (Host.reduce IntOp.addi (muli ms ms) (constantI S_ 32 0#32) reducesTo_S4_S_d0 h_S_)

/-- The divisor of the two intra sums: 16 n. -/
def intraDen (ms : IVec S4 32) : FVec F S_ .f32 := mulf (sqCount ms) (constant S_ .f32 0x41800000#32)

/-- The divisor of the two inter sums: 16 (2²⁰ − n). -/
def interDen (ms : IVec S4 32) : FVec F S_ .f32 :=
  mulf (subf (constant S_ .f32 0x49800000#32) (sqCount ms)) (constant S_ .f32 0x41800000#32)

/-- `a x + b y` with the weights given as words. -/
def blend (a b : BitVec 32) (x y : FVec F S_ .f32) : FVec F S_ .f32 :=
  addf (mulf (constant S_ .f32 a) x) (mulf (constant S_ .f32 b) y)

/-- Seven scalars as one vector of seven. -/
def pack7 (x0 x1 x2 x3 x4 x5 x6 : FVec F S_ .f32) : FVec F S7 .f32 :=
  concatenate S7 0 [⟨S1, broadcastInDim S1 ![] bcast_S_S1 x0⟩, ⟨S1, broadcastInDim S1 ![] bcast_S_S1 x1⟩,
    ⟨S1, broadcastInDim S1 ![] bcast_S_S1 x2⟩, ⟨S1, broadcastInDim S1 ![] bcast_S_S1 x3⟩,
    ⟨S1, broadcastInDim S1 ![] bcast_S_S1 x4⟩, ⟨S1, broadcastInDim S1 ![] bcast_S_S1 x5⟩,
    ⟨S1, broadcastInDim S1 ![] bcast_S_S1 x6⟩] concatenates_S1_S1_S1_S1_S1_S1_S1_S7_d0

/-- The four quotients (intra t, intra s, inter t, inter s), in the order (intra t, inter t, intra s, inter s), then
    the blends `½ inter t + ½ intra t`, `¾ inter s + ¼ intra s`, and `½` of each of those two. -/
def combine (qT qS rT rS : FVec F S_ .f32) : FVec F S7 .f32 :=
  pack7 qT rT qS rS (blend 0x3F000000#32 0x3F000000#32 rT qT) (blend 0x3F400000#32 0x3E800000#32 rS qS)
    (blend 0x3F000000#32 0x3F000000#32 (blend 0x3F000000#32 0x3F000000#32 rT qT) (blend 0x3F400000#32 0x3E800000#32 rS qS))

/-- The result vector from the four sums and the counts. -/
def lossOf (intraT intraS interT interS : FVec F S_ .f32) (ms : IVec S4 32) : FVec F S7 .f32 :=
  combine (Host.divf intraT (intraDen ms)) (Host.divf intraS (intraDen ms)) (Host.divf interT (interDen ms))
    (Host.divf interS (interDen ms))

/-! ## The operations, in five stretches -/

/-- The four sums. -/
private abbrev opsA : List (HloOp τ sig (Elt F)) :=
  [ StableHlo.unary main_v28 main_v29 ((extractStridedSlice S16x1x4 ![0, 0, 0] · slices_S16x8x128_S16x1x4_0_0_0) : (⟨S16x8x128, .f32⟩ : BufTy).Contents (Elt F) → (⟨S16x1x4, .f32⟩ : BufTy).Contents (Elt F)),
    StableHlo.reshape main_v29 main_v30 rfl shapeCasts_S16x1x4_S16x4,
    StableHlo.nullary main_cst_6 (constant S_ .f32 0x00000000#32),
    StableHlo.binary main_v30 main_cst_6 main_v31 ((fun x v => Host.reduceAdd x v reducesTo_S16x4_S4_d0 h_S_) : (⟨S16x4, .f32⟩ : BufTy).Contents (Elt F) → (⟨S_, .f32⟩ : BufTy).Contents (Elt F) → (⟨S4, .f32⟩ : BufTy).Contents (Elt F)),
    StableHlo.unary main_v31 main_v32 ((extractStridedSlice S1 ![0] · slices_S4_S1_0) : (⟨S4, .f32⟩ : BufTy).Contents (Elt F) → (⟨S1, .f32⟩ : BufTy).Contents (Elt F)),
    StableHlo.reshape main_v32 main_v33 rfl shapeCasts_S1_S_,
    StableHlo.unary main_v31 main_v34 ((extractStridedSlice S1 ![1] · slices_S4_S1_1) : (⟨S4, .f32⟩ : BufTy).Contents (Elt F) → (⟨S1, .f32⟩ : BufTy).Contents (Elt F)),
    StableHlo.reshape main_v34 main_v35 rfl shapeCasts_S1_S_,
    StableHlo.unary main_v31 main_v36 ((extractStridedSlice S1 ![2] · slices_S4_S1_2) : (⟨S4, .f32⟩ : BufTy).Contents (Elt F) → (⟨S1, .f32⟩ : BufTy).Contents (Elt F)),
    StableHlo.reshape main_v36 main_v37 rfl shapeCasts_S1_S_,
    StableHlo.unary main_v31 main_v38 ((extractStridedSlice S1 ![3] · slices_S4_S1_3) : (⟨S4, .f32⟩ : BufTy).Contents (Elt F) → (⟨S1, .f32⟩ : BufTy).Contents (Elt F)),
    StableHlo.reshape main_v38 main_v39 rfl shapeCasts_S1_S_ ]

/-- Their differences. -/
private abbrev opsA' : List (HloOp τ sig (Elt F)) :=
  [ StableHlo.binary main_v33 main_v35 main_v40 (subf : (⟨S_, .f32⟩ : BufTy).Contents (Elt F) → (⟨S_, .f32⟩ : BufTy).Contents (Elt F) → (⟨S_, .f32⟩ : BufTy).Contents (Elt F)),
    StableHlo.binary main_v37 main_v39 main_v41 (subf : (⟨S_, .f32⟩ : BufTy).Contents (Elt F) → (⟨S_, .f32⟩ : BufTy).Contents (Elt F) → (⟨S_, .f32⟩ : BufTy).Contents (Elt F)),
    StableHlo.binary main_v35 main_v39 main_v42 (subf : (⟨S_, .f32⟩ : BufTy).Contents (Elt F) → (⟨S_, .f32⟩ : BufTy).Contents (Elt F) → (⟨S_, .f32⟩ : BufTy).Contents (Elt F)),
    StableHlo.binary main_v40 main_v41 main_v43 (subf : (⟨S_, .f32⟩ : BufTy).Contents (Elt F) → (⟨S_, .f32⟩ : BufTy).Contents (Elt F) → (⟨S_, .f32⟩ : BufTy).Contents (Elt F)) ]

/-- The two divisors. -/
private abbrev opsB : List (HloOp τ sig (Elt F)) :=
  [ StableHlo.binary main_arg2 main_arg2 main_v44 (muli : (⟨S4, .i32⟩ : BufTy).Contents (Elt F) → (⟨S4, .i32⟩ : BufTy).Contents (Elt F) → (⟨S4, .i32⟩ : BufTy).Contents (Elt F)),
    StableHlo.nullary main_c_7 (constantI S_ 32 0#32),
    StableHlo.binary main_v44 main_c_7 main_v45 ((fun x v => Host.reduce IntOp.addi x v reducesTo_S4_S_d0 h_S_) : (⟨S4, .i32⟩ : BufTy).Contents (Elt F) → (⟨S_, .i32⟩ : BufTy).Contents (Elt F) → (⟨S_, .i32⟩ : BufTy).Contents (Elt F)),
    StableHlo.unary main_v45 main_v46 (sitofp .f32 : (⟨S_, .i32⟩ : BufTy).Contents (Elt F) → (⟨S_, .f32⟩ : BufTy).Contents (Elt F)),
    StableHlo.nullary main_cst_8 (constant S_ .f32 0x41800000#32),
    StableHlo.binary main_v46 main_cst_8 main_v47 (mulf : (⟨S_, .f32⟩ : BufTy).Contents (Elt F) → (⟨S_, .f32⟩ : BufTy).Contents (Elt F) → (⟨S_, .f32⟩ : BufTy).Contents (Elt F)),
    StableHlo.nullary main_cst_9 (constant S_ .f32 0x49800000#32),
    StableHlo.binary main_cst_9 main_v46 main_v48 (subf : (⟨S_, .f32⟩ : BufTy).Contents (Elt F) → (⟨S_, .f32⟩ : BufTy).Contents (Elt F) → (⟨S_, .f32⟩ : BufTy).Contents (Elt F)),
    StableHlo.nullary main_cst_10 (constant S_ .f32 0x41800000#32),
    StableHlo.binary main_v48 main_cst_10 main_v49 (mulf : (⟨S_, .f32⟩ : BufTy).Contents (Elt F) → (⟨S_, .f32⟩ : BufTy).Contents (Elt F) → (⟨S_, .f32⟩ : BufTy).Contents (Elt F)) ]

/-- The quotients, the blends, and each as a vector of one. -/
private abbrev opsC : List (HloOp τ sig (Elt F)) :=
  [ StableHlo.binary main_v42 main_v47 main_v50 (Host.divf : (⟨S_, .f32⟩ : BufTy).Contents (Elt F) → (⟨S_, .f32⟩ : BufTy).Contents (Elt F) → (⟨S_, .f32⟩ : BufTy).Contents (Elt F)),
    StableHlo.binary main_v43 main_v47 main_v51 (Host.divf : (⟨S_, .f32⟩ : BufTy).Contents (Elt F) → (⟨S_, .f32⟩ : BufTy).Contents (Elt F) → (⟨S_, .f32⟩ : BufTy).Contents (Elt F)),
    StableHlo.binary main_v39 main_v49 main_v52 (Host.divf : (⟨S_, .f32⟩ : BufTy).Contents (Elt F) → (⟨S_, .f32⟩ : BufTy).Contents (Elt F) → (⟨S_, .f32⟩ : BufTy).Contents (Elt F)),
    StableHlo.binary main_v41 main_v49 main_v53 (Host.divf : (⟨S_, .f32⟩ : BufTy).Contents (Elt F) → (⟨S_, .f32⟩ : BufTy).Contents (Elt F) → (⟨S_, .f32⟩ : BufTy).Contents (Elt F)),
    StableHlo.nullary main_cst_11 (constant S_ .f32 0x3F000000#32),
    StableHlo.binary main_cst_11 main_v52 main_v54 (mulf : (⟨S_, .f32⟩ : BufTy).Contents (Elt F) → (⟨S_, .f32⟩ : BufTy).Contents (Elt F) → (⟨S_, .f32⟩ : BufTy).Contents (Elt F)),
    StableHlo.nullary main_cst_12 (constant S_ .f32 0x3F000000#32),
    StableHlo.binary main_cst_12 main_v50 main_v55 (mulf : (⟨S_, .f32⟩ : BufTy).Contents (Elt F) → (⟨S_, .f32⟩ : BufTy).Contents (Elt F) → (⟨S_, .f32⟩ : BufTy).Contents (Elt F)),
    StableHlo.binary main_v54 main_v55 main_v56 (addf : (⟨S_, .f32⟩ : BufTy).Contents (Elt F) → (⟨S_, .f32⟩ : BufTy).Contents (Elt F) → (⟨S_, .f32⟩ : BufTy).Contents (Elt F)),
    StableHlo.nullary main_cst_13 (constant S_ .f32 0x3F400000#32),
    StableHlo.binary main_cst_13 main_v53 main_v57 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x3E800000#32),
    StableHlo.binary main_cst_14 main_v51 main_v58 (mulf : (⟨S_, .f32⟩ : BufTy).Contents (Elt F) → (⟨S_, .f32⟩ : BufTy).Contents (Elt F) → (⟨S_, .f32⟩ : BufTy).Contents (Elt F)),
    StableHlo.binary main_v57 main_v58 main_v59 (addf : (⟨S_, .f32⟩ : BufTy).Contents (Elt F) → (⟨S_, .f32⟩ : BufTy).Contents (Elt F) → (⟨S_, .f32⟩ : BufTy).Contents (Elt F)),
    StableHlo.nullary main_cst_15 (constant S_ .f32 0x3F000000#32),
    StableHlo.binary main_cst_15 main_v56 main_v60 (mulf : (⟨S_, .f32⟩ : BufTy).Contents (Elt F) → (⟨S_, .f32⟩ : BufTy).Contents (Elt F) → (⟨S_, .f32⟩ : BufTy).Contents (Elt F)),
    StableHlo.nullary main_cst_16 (constant S_ .f32 0x3F000000#32),
    StableHlo.binary main_cst_16 main_v59 main_v61 (mulf : (⟨S_, .f32⟩ : BufTy).Contents (Elt F) → (⟨S_, .f32⟩ : BufTy).Contents (Elt F) → (⟨S_, .f32⟩ : BufTy).Contents (Elt F)),
    StableHlo.binary main_v60 main_v61 main_v62 (addf : (⟨S_, .f32⟩ : BufTy).Contents (Elt F) → (⟨S_, .f32⟩ : BufTy).Contents (Elt F) → (⟨S_, .f32⟩ : BufTy).Contents (Elt F)),
    StableHlo.unary main_v50 main_v63 (broadcastInDim S1 ![] bcast_S_S1 : (⟨S_, .f32⟩ : BufTy).Contents (Elt F) → (⟨S1, .f32⟩ : BufTy).Contents (Elt F)),
    StableHlo.unary main_v52 main_v64 (broadcastInDim S1 ![] bcast_S_S1 : (⟨S_, .f32⟩ : BufTy).Contents (Elt F) → (⟨S1, .f32⟩ : BufTy).Contents (Elt F)),
    StableHlo.unary main_v51 main_v65 (broadcastInDim S1 ![] bcast_S_S1 : (⟨S_, .f32⟩ : BufTy).Contents (Elt F) → (⟨S1, .f32⟩ : BufTy).Contents (Elt F)),
    StableHlo.unary main_v53 main_v66 (broadcastInDim S1 ![] bcast_S_S1 : (⟨S_, .f32⟩ : BufTy).Contents (Elt F) → (⟨S1, .f32⟩ : BufTy).Contents (Elt F)),
    StableHlo.unary main_v56 main_v67 (broadcastInDim S1 ![] bcast_S_S1 : (⟨S_, .f32⟩ : BufTy).Contents (Elt F) → (⟨S1, .f32⟩ : BufTy).Contents (Elt F)),
    StableHlo.unary main_v59 main_v68 (broadcastInDim S1 ![] bcast_S_S1 : (⟨S_, .f32⟩ : BufTy).Contents (Elt F) → (⟨S1, .f32⟩ : BufTy).Contents (Elt F)),
    StableHlo.unary main_v62 main_v69 (broadcastInDim S1 ![] bcast_S_S1 : (⟨S_, .f32⟩ : BufTy).Contents (Elt F) → (⟨S1, .f32⟩ : BufTy).Contents (Elt F)) ]

/-- The seven vectors of one joined. -/
private abbrev opsD : List (HloOp τ sig (Elt F)) :=
  [ StableHlo.nary ![main_v63, main_v64, main_v65, main_v66, main_v67, main_v68, main_v69] main_v70 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0) ]

/-- The 53 operations are the five stretches in order. -/
private theorem hostOps1_eq : (hostOps1 : List (HloOp τ sig (Elt F))) = opsA ++ (opsA' ++ (opsB ++ (opsC ++ opsD))) := rfl

/-- Running two stretches in order is running the first, then the second from what it leaves. -/
private theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-! ## What each stretch leaves -/

/-- The four sums, entry by entry. -/
private theorem A_v33 (W : Valuation τ sig (Elt F)) : after opsA W (main_v33 : DevRef τ sig) = lane 0 (batchSums (W (main_v28 : DevRef τ sig))) := by
  after_results
  rfl
private theorem A_v35 (W : Valuation τ sig (Elt F)) : after opsA W (main_v35 : DevRef τ sig) = lane 1 (batchSums (W (main_v28 : DevRef τ sig))) := by
  after_results
  rfl
private theorem A_v37 (W : Valuation τ sig (Elt F)) : after opsA W (main_v37 : DevRef τ sig) = lane 2 (batchSums (W (main_v28 : DevRef τ sig))) := by
  after_results
  rfl
private theorem A_v39 (W : Valuation τ sig (Elt F)) : after opsA W (main_v39 : DevRef τ sig) = lane 3 (batchSums (W (main_v28 : DevRef τ sig))) := by
  after_results
  rfl

/-- The first stretch leaves the counts as they were. -/
private theorem A_arg2 (W : Valuation τ sig (Elt F)) : after opsA W (main_arg2 : DevRef τ sig) = W (main_arg2 : DevRef τ sig) := by
  after_results

/-- The four differences. -/
private theorem A'_v42 (W : Valuation τ sig (Elt F)) : after opsA' W (main_v42 : DevRef τ sig) = subf (W (main_v35 : DevRef τ sig)) (W (main_v39 : DevRef τ sig)) := by
  after_results
private theorem A'_v43 (W : Valuation τ sig (Elt F)) : after opsA' W (main_v43 : DevRef τ sig)
    = subf (subf (W (main_v33 : DevRef τ sig)) (W (main_v35 : DevRef τ sig))) (subf (W (main_v37 : DevRef τ sig)) (W (main_v39 : DevRef τ sig))) := by
  after_results
private theorem A'_v39 (W : Valuation τ sig (Elt F)) : after opsA' W (main_v39 : DevRef τ sig) = W (main_v39 : DevRef τ sig) := by
  after_results
private theorem A'_v41 (W : Valuation τ sig (Elt F)) : after opsA' W (main_v41 : DevRef τ sig) = subf (W (main_v37 : DevRef τ sig)) (W (main_v39 : DevRef τ sig)) := by
  after_results
private theorem A'_arg2 (W : Valuation τ sig (Elt F)) : after opsA' W (main_arg2 : DevRef τ sig) = W (main_arg2 : DevRef τ sig) := by
  after_results

/-- The divisor `16 n`. -/
private theorem B_v47 (W : Valuation τ sig (Elt F)) : after opsB W (main_v47 : DevRef τ sig) = intraDen (W (main_arg2 : DevRef τ sig)) := by
  after_results
  rfl

/-- The divisor `16 (2²⁰ − n)`. -/
private theorem B_v49 (W : Valuation τ sig (Elt F)) : after opsB W (main_v49 : DevRef τ sig) = interDen (W (main_arg2 : DevRef τ sig)) := by
  after_results
  rfl

/-- The second stretch leaves the four differences as they were. -/
private theorem B_v42 (W : Valuation τ sig (Elt F)) : after opsB W (main_v42 : DevRef τ sig) = W (main_v42 : DevRef τ sig) := by after_results
private theorem B_v43 (W : Valuation τ sig (Elt F)) : after opsB W (main_v43 : DevRef τ sig) = W (main_v43 : DevRef τ sig) := by after_results
private theorem B_v39 (W : Valuation τ sig (Elt F)) : after opsB W (main_v39 : DevRef τ sig) = W (main_v39 : DevRef τ sig) := by after_results
private theorem B_v41 (W : Valuation τ sig (Elt F)) : after opsB W (main_v41 : DevRef τ sig) = W (main_v41 : DevRef τ sig) := by after_results

/-- The four quotients and the three blends, each as a vector of one. -/
private theorem C_v63 (W : Valuation τ sig (Elt F)) : after opsC W (main_v63 : DevRef τ sig) = broadcastInDim S1 ![] bcast_S_S1 (Host.divf (W (main_v42 : DevRef τ sig)) (W (main_v47 : DevRef τ sig))) := by
  after_results_simp
private theorem C_v64 (W : Valuation τ sig (Elt F)) : after opsC W (main_v64 : DevRef τ sig) = broadcastInDim S1 ![] bcast_S_S1 (Host.divf (W (main_v39 : DevRef τ sig)) (W (main_v49 : DevRef τ sig))) := by
  after_results_simp
private theorem C_v65 (W : Valuation τ sig (Elt F)) : after opsC W (main_v65 : DevRef τ sig) = broadcastInDim S1 ![] bcast_S_S1 (Host.divf (W (main_v43 : DevRef τ sig)) (W (main_v47 : DevRef τ sig))) := by
  after_results_simp
private theorem C_v66 (W : Valuation τ sig (Elt F)) : after opsC W (main_v66 : DevRef τ sig) = broadcastInDim S1 ![] bcast_S_S1 (Host.divf (W (main_v41 : DevRef τ sig)) (W (main_v49 : DevRef τ sig))) := by
  after_results_simp
private theorem C_v67 (W : Valuation τ sig (Elt F)) : after opsC W (main_v67 : DevRef τ sig) = broadcastInDim S1 ![] bcast_S_S1 (blend 0x3F000000#32 0x3F000000#32 (Host.divf (W (main_v39 : DevRef τ sig)) (W (main_v49 : DevRef τ sig))) (Host.divf (W (main_v42 : DevRef τ sig)) (W (main_v47 : DevRef τ sig)))) := by
  after_results_simp
  rfl
private theorem C_v68 (W : Valuation τ sig (Elt F)) : after opsC W (main_v68 : DevRef τ sig) = broadcastInDim S1 ![] bcast_S_S1 (blend 0x3F400000#32 0x3E800000#32 (Host.divf (W (main_v41 : DevRef τ sig)) (W (main_v49 : DevRef τ sig))) (Host.divf (W (main_v43 : DevRef τ sig)) (W (main_v47 : DevRef τ sig)))) := by
  after_results_simp
  rfl
private theorem C_v69 (W : Valuation τ sig (Elt F)) : after opsC W (main_v69 : DevRef τ sig) = broadcastInDim S1 ![] bcast_S_S1 (blend 0x3F000000#32 0x3F000000#32 (blend 0x3F000000#32 0x3F000000#32 (Host.divf (W (main_v39 : DevRef τ sig)) (W (main_v49 : DevRef τ sig))) (Host.divf (W (main_v42 : DevRef τ sig)) (W (main_v47 : DevRef τ sig)))) (blend 0x3F400000#32 0x3E800000#32 (Host.divf (W (main_v41 : DevRef τ sig)) (W (main_v49 : DevRef τ sig))) (Host.divf (W (main_v43 : DevRef τ sig)) (W (main_v47 : DevRef τ sig))))) := by
  after_results_simp
  rfl

/-- The seven joined. -/
private theorem D_v70 (W : Valuation τ sig (Elt F)) : after opsD W (main_v70 : DevRef τ sig)
    = concatenate S7 0 [⟨S1, W (main_v63 : DevRef τ sig)⟩, ⟨S1, W (main_v64 : DevRef τ sig)⟩, ⟨S1, W (main_v65 : DevRef τ sig)⟩, ⟨S1, W (main_v66 : DevRef τ sig)⟩,
        ⟨S1, W (main_v67 : DevRef τ sig)⟩, ⟨S1, W (main_v68 : DevRef τ sig)⟩, ⟨S1, W (main_v69 : DevRef τ sig)⟩] concatenates_S1_S1_S1_S1_S1_S1_S1_S7_d0 := by
  rw [after_cons, after_nil, nary_result]
  rfl

/-! ## The whole tail -/

/-- What the 53 operations leave in the result: the result vector of the four sums' differences and the counts. -/
theorem tail_v70 (W : Valuation τ sig (Elt F)) : after hostOps1 W (main_v70 : DevRef τ sig)
      = (let s := batchSums (W (main_v28 : DevRef τ sig));
         lossOf (subf (lane 1 s) (lane 3 s)) (subf (subf (lane 0 s) (lane 1 s)) (subf (lane 2 s) (lane 3 s))) (lane 3 s) (subf (lane 2 s) (lane 3 s)) (W (main_arg2 : DevRef τ sig))) := by
  rw [hostOps1_eq, after_append, after_append, after_append, after_append, D_v70, C_v63, C_v64, C_v65, C_v66, C_v67, C_v68, C_v69,
    B_v47, B_v49, B_v42, B_v43, B_v39, B_v41, A'_v42, A'_v43, A'_v39, A'_v41, A'_arg2, A_v33, A_v35, A_v37, A_v39, A_arg2]
  rfl

/-- The operations leave the three arguments as they were. -/
theorem tail_arg0 (W : Valuation τ sig (Elt F)) : after hostOps1 W (main_arg0 : DevRef τ sig) = W (main_arg0 : DevRef τ sig) := by after_results
theorem tail_arg1 (W : Valuation τ sig (Elt F)) : after hostOps1 W (main_arg1 : DevRef τ sig) = W (main_arg1 : DevRef τ sig) := by after_results
theorem tail_arg2 (W : Valuation τ sig (Elt F)) : after hostOps1 W (main_arg2 : DevRef τ sig) = W (main_arg2 : DevRef τ sig) := by after_results

/-! ## The four sums at the extended reals -/

/-- Entry `k` of the four sums is the sum over the batches of row 0, lane `k` of the output array. -/
theorem lane_batchSums (out : FVec Ideal S16x8x128 .f32) (k : Fin 4) :
    lane k (batchSums (F := Ideal) out) = fun _ => (0 : EReal) + ∑ b : Fin 16, out (ix3 b (0 : Fin 8) (⟨k.val, by omega⟩ : Fin 128)) := by
  funext j
  have hred : S16x4.Reduces [0] S4 := by decide
  have h1 : lane k (batchSums (F := Ideal) out) j = batchSums (F := Ideal) out (ix1 k) := by
    unfold lane
    rw [shapeCast_apply _ _ j (ix1 (0 : Fin 1)) (by rw [Shape.rowMajor_val_one]; exact (Shape.rowMajorPi_zero _ _).symm)]
    exact extractStridedSlice_apply _ _ _ _ (ix1 k) (fun a => by match a with | ⟨0, _⟩ => rfl)
  rw [h1]
  unfold batchSums
  show Ideal.hostReduceAdd reducesTo_S16x4_S4_d0 _ (Ideal.ofBits .f32 0x00000000#32) (ix1 k) = _
  rw [Ideal.hostReduceAdd_single reducesTo_S16x4_S4_d0 hred, Ideal.ofBits_zero_f32]
  show (0 : EReal) + ∑ b : Fin 16, _ = (0 : EReal) + ∑ b : Fin 16, _
  congr 1
  refine Finset.sum_congr rfl fun b _ => ?_
  have hk : (S16x1x4.rowMajor (ix3 b (0 : Fin 1) k)).val = (S16x4.rowMajor (hred.lift (ix1 k) b)).val := by
    rw [Shape.rowMajor_val_three, Shape.rowMajor_val_two]
    show (b.val * 1 + 0) * 4 + k.val = b.val * 4 + k.val
    omega
  rw [shapeCast_apply _ _ (hred.lift (ix1 k) b) (ix3 b (0 : Fin 1) k) hk]
  exact extractStridedSlice_apply _ _ _ _ (ix3 b (0 : Fin 8) (⟨k.val, by omega⟩ : Fin 128)) (fun a => by
    match a with
    | ⟨0, _⟩ => exact (Nat.zero_add _).symm
    | ⟨1, _⟩ => exact (Nat.zero_add _).symm
    | ⟨2, _⟩ => exact (Nat.zero_add _).symm)

end Cert.KernelIdeal.HHost

end
-- ==== Proof.KIValue.lean ====
/-
  What the idealized kernel program returns, as the four tile sums of Spec.lean.

  At the grid point of batch `b` and row tile `r` the body's blocks are rows `512 r … 512 r + 511` of batch `b` of the
  two inputs re-laid to 4096 lanes, the view ids of those rows, the view ids of the 4096 lanes' columns and the
  channel weights.  Its four sums over the tile are therefore, entry by entry, the squared difference `sq`, alone
  and weighted by `chanT`, by `diffView` and by both.  The scratch after row tile 0 is `0 +` that tile's sums, after
  row tile 1 that plus the second tile's; the output block carries the latter in row 0, lanes 0 … 3.  Summing over
  the 16 batches gives `tileAll`, `tileT`, `tileInterAll`, `tileInterT`.
-/
import proofs.«402724_j74560632258756_3_alg».proof.Proof.KIPieces
import proofs.«402724_j74560632258756_3_alg».proof.Proof.KIBlocks
import proofs.«402724_j74560632258756_3_alg».proof.Proof.KPay
import proofs.«402724_j74560632258756_3_alg».proof.Proof.KHost
import proofs.«402724_j74560632258756_3_alg».proof.Proof.KHostTail
import proofs.«402724_j74560632258756_3_alg».proof.Proof.Spec

set_option maxRecDepth 16384

noncomputable section

namespace Cert.KernelIdeal.Hand

open Cert.KernelIdeal Cert.KernelIdeal.Gen Cert.KernelIdeal.HPay Cert.KernelIdeal.HHost Cert.Spec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

/-! ## The arguments, and the arrays the region finds -/

/-- The two float inputs and the view sizes at launch. -/
abbrev in0 (c : Dev nD) : FVec Ideal S16x1024x1024x4 .f32 := m ((c : Thread nD τ).loc main_arg0)
abbrev in1 (c : Dev nD) : FVec Ideal S16x1024x1024x4 .f32 := m ((c : Thread nD τ).loc main_arg1)
abbrev inMs (c : Dev nD) : IVec S4 32 := m ((c : Thread nD τ).loc main_arg2)

theorem V18_eq (c : Dev nD) : V m c main_v18 = lanes (in0 m c) := pre_v18 (fun b => m (c, b))
theorem V19_eq (c : Dev nD) : V m c main_v19 = lanes (in1 m c) := pre_v19 (fun b => m (c, b))
theorem V20_eq (c : Dev nD) : V m c main_v20 = rowIds (vids (inMs m c)) := pre_v20 (fun b => m (c, b))
theorem V23_eq (c : Dev nD) : V m c main_v23 = colIds (vids (inMs m c)) := pre_v23 (fun b => m (c, b))
theorem V27_eq (c : Dev nD) : V m c main_v27 = chanW (F := Ideal) := pre_v27 (fun b => m (c, b))

/-! ## The blocks at a grid point -/

/-- The five input blocks at the point of batch `b`, row tile `r`, at their literal types. -/
abbrev X0 (c : Dev nD) (b : Fin 16) (r : Fin 2) : Vec Ideal S1x512x4096 .f32 := iblk m c 0 (ptOf b r)
abbrev X1 (c : Dev nD) (b : Fin 16) (r : Fin 2) : Vec Ideal S1x512x4096 .f32 := iblk m c 1 (ptOf b r)
abbrev X2 (c : Dev nD) (b : Fin 16) (r : Fin 2) : Vec Ideal S512x1 .i32 := iblk m c 2 (ptOf b r)
abbrev X3 (c : Dev nD) (b : Fin 16) (r : Fin 2) : Vec Ideal S1x4096 .i32 := iblk m c 3 (ptOf b r)
abbrev X4 (c : Dev nD) (b : Fin 16) (r : Fin 2) : Vec Ideal S1x4096 .f32 := iblk m c 4 (ptOf b r)

theorem X0_apply (c : Dev nD) (b : Fin 16) (r : Fin 2) (p : Fin 512) (l : Fin 4096) :
    X0 m c b r (ix3 0 p l) = in0 m c (ix4 b (rowOf r p) (colOf l) (chanOf l)) := by
  show iblk m c 0 (ptOf b r) (ix3 0 p l) = _
  rw [iblk0_apply, V18_eq, lanes_apply]
theorem X1_apply (c : Dev nD) (b : Fin 16) (r : Fin 2) (p : Fin 512) (l : Fin 4096) :
    X1 m c b r (ix3 0 p l) = in1 m c (ix4 b (rowOf r p) (colOf l) (chanOf l)) := by
  show iblk m c 1 (ptOf b r) (ix3 0 p l) = _
  rw [iblk1_apply, V19_eq, lanes_apply]
theorem X2_apply (c : Dev nD) (b : Fin 16) (r : Fin 2) (p : Fin 512) :
    X2 m c b r (ix2 p 0) = vids (inMs m c) (ix1 (rowOf r p)) := by
  show iblk m c 2 (ptOf b r) (ix2 p 0) = _
  rw [iblk2_apply, V20_eq, rowIds_apply]
theorem X3_apply (c : Dev nD) (b : Fin 16) (r : Fin 2) (l : Fin 4096) :
    X3 m c b r (ix2 0 l) = vids (inMs m c) (ix1 (colOf l)) := by
  show iblk m c 3 (ptOf b r) (ix2 0 l) = _
  rw [iblk3_apply, V23_eq, colIds_apply]
theorem X4_apply (c : Dev nD) (b : Fin 16) (r : Fin 2) (l : Fin 4096) :
    X4 m c b r (ix2 0 l) = chanT (chanOf l) := by
  show iblk m c 4 (ptOf b r) (ix2 0 l) = _
  rw [iblk4_apply, V27_eq, chanW_apply]

/-- The entry of the tile: the squared difference at (b, 512 r + p, l / 4, l % 4). -/
abbrev dd (c : Dev nD) : Fin 16 → Fin 1024 → Fin 1024 → Fin 4 → EReal := sq (in0 m c) (in1 m c)
/-- The view-difference weight of the run's view ids. -/
abbrev qq (c : Dev nD) : Fin 1024 → Fin 1024 → EReal := diffView (vids (inMs m c))

theorem dB_tile (c : Dev nD) (b : Fin 16) (r : Fin 2) (p : Fin 512) (l : Fin 4096) :
    dB (X0 m c b r) (X1 m c b r) p l = dd m c b (rowOf r p) (colOf l) (chanOf l) := by
  unfold dB
  rw [X0_apply, X1_apply]
  rfl
theorem mB_tile (c : Dev nD) (b : Fin 16) (r : Fin 2) (p : Fin 512) (l : Fin 4096) :
    mB (X2 m c b r) (X3 m c b r) p l = qq m c (rowOf r p) (colOf l) := by
  unfold mB
  rw [X2_apply, X3_apply]
  rfl

/-! ## The accumulator update over variables -/

section Update
variable (x0 x1 : Vec Ideal S1x512x4096 .f32) (x2 : Vec Ideal S512x1 .i32) (x3 : Vec Ideal S1x4096 .i32) (x4 : Vec Ideal S1x4096 .f32)
  (xs0 : Vec Ideal S1x4 .f32)

/-- The scratch after an update, lane by lane: what it held plus the tile's sum for that lane. -/
theorem upd_at0 : k0_pay1 (F := Ideal) (k0_pay7 x0 x1) (k0_pay8 x0 x1 x2 x3) (k0_pay9 x0 x1 x4) (k0_pay10 x0 x1 x2 x3 x4) xs0 (ix2 (0 : Fin 1) (0 : Fin 4))
    = xs0 (ix2 (0 : Fin 1) (0 : Fin 4)) + ∑ p : Fin 512, ∑ l : Fin 4096, dB x0 x1 p l := by
  rw [pay1_at0, pay7_eq]
theorem upd_at1 : k0_pay1 (F := Ideal) (k0_pay7 x0 x1) (k0_pay8 x0 x1 x2 x3) (k0_pay9 x0 x1 x4) (k0_pay10 x0 x1 x2 x3 x4) xs0 (ix2 (0 : Fin 1) (1 : Fin 4))
    = xs0 (ix2 (0 : Fin 1) (1 : Fin 4)) + ∑ p : Fin 512, ∑ l : Fin 4096, dB x0 x1 p l * x4 (ix2 (0 : Fin 1) l) := by
  rw [pay1_at1, pay9_eq]
theorem upd_at2 : k0_pay1 (F := Ideal) (k0_pay7 x0 x1) (k0_pay8 x0 x1 x2 x3) (k0_pay9 x0 x1 x4) (k0_pay10 x0 x1 x2 x3 x4) xs0 (ix2 (0 : Fin 1) (2 : Fin 4))
    = xs0 (ix2 (0 : Fin 1) (2 : Fin 4)) + ∑ p : Fin 512, ∑ l : Fin 4096, dB x0 x1 p l * mB x2 x3 p l := by
  rw [pay1_at2, pay8_eq]
theorem upd_at3 : k0_pay1 (F := Ideal) (k0_pay7 x0 x1) (k0_pay8 x0 x1 x2 x3) (k0_pay9 x0 x1 x4) (k0_pay10 x0 x1 x2 x3 x4) xs0 (ix2 (0 : Fin 1) (3 : Fin 4))
    = xs0 (ix2 (0 : Fin 1) (3 : Fin 4)) + ∑ p : Fin 512, ∑ l : Fin 4096, (dB x0 x1 p l * mB x2 x3 p l) * x4 (ix2 (0 : Fin 1) l) := by
  rw [pay1_at3]
  exact congrArg _ (Finset.sum_congr rfl fun p _ => Finset.sum_congr rfl fun l _ => pay10_apply x0 x1 x2 x3 x4 p l)
end Update

/-! ## The tile sums at a grid point -/

/-- The four sums over the tile of batch `b`, row tile `r`. -/
def tv0 (c : Dev nD) (b : Fin 16) (r : Fin 2) : EReal := ∑ p : Fin 512, ∑ l : Fin 4096, dd m c b (rowOf r p) (colOf l) (chanOf l)
def tv1 (c : Dev nD) (b : Fin 16) (r : Fin 2) : EReal := ∑ p : Fin 512, ∑ l : Fin 4096, dd m c b (rowOf r p) (colOf l) (chanOf l) * chanT (chanOf l)
def tv2 (c : Dev nD) (b : Fin 16) (r : Fin 2) : EReal := ∑ p : Fin 512, ∑ l : Fin 4096, dd m c b (rowOf r p) (colOf l) (chanOf l) * qq m c (rowOf r p) (colOf l)
def tv3 (c : Dev nD) (b : Fin 16) (r : Fin 2) : EReal := ∑ p : Fin 512, ∑ l : Fin 4096, (dd m c b (rowOf r p) (colOf l) (chanOf l) * qq m c (rowOf r p) (colOf l)) * chanT (chanOf l)

theorem sum0 (c : Dev nD) (b : Fin 16) (r : Fin 2) : (∑ p : Fin 512, ∑ l : Fin 4096, dB (X0 m c b r) (X1 m c b r) p l) = tv0 m c b r :=
  Finset.sum_congr rfl fun p _ => Finset.sum_congr rfl fun l _ => dB_tile m c b r p l
theorem sum1 (c : Dev nD) (b : Fin 16) (r : Fin 2) : (∑ p : Fin 512, ∑ l : Fin 4096, dB (X0 m c b r) (X1 m c b r) p l * X4 m c b r (ix2 (0 : Fin 1) l)) = tv1 m c b r :=
  Finset.sum_congr rfl fun p _ => Finset.sum_congr rfl fun l _ => by rw [dB_tile, X4_apply]
theorem sum2 (c : Dev nD) (b : Fin 16) (r : Fin 2) : (∑ p : Fin 512, ∑ l : Fin 4096, dB (X0 m c b r) (X1 m c b r) p l * mB (X2 m c b r) (X3 m c b r) p l) = tv2 m c b r :=
  Finset.sum_congr rfl fun p _ => Finset.sum_congr rfl fun l _ => by rw [dB_tile, mB_tile]
theorem sum3 (c : Dev nD) (b : Fin 16) (r : Fin 2) : (∑ p : Fin 512, ∑ l : Fin 4096, (dB (X0 m c b r) (X1 m c b r) p l * mB (X2 m c b r) (X3 m c b r) p l) * X4 m c b r (ix2 (0 : Fin 1) l)) = tv3 m c b r :=
  Finset.sum_congr rfl fun p _ => Finset.sum_congr rfl fun l _ => by rw [dB_tile, mB_tile, X4_apply]

/-! ## The scratch and the output block after each point -/

theorem ptOf0_val (b : Fin 16) : (ptOf b 0).val = 2 * b.val := by simp [ptOf]
theorem ptOf1_val (b : Fin 16) : (ptOf b 1).val = 2 * b.val + 1 := by simp [ptOf]

theorem outsAt0_congr (c : Dev nD) {n n' : ℕ} (h : n = n') (hn : n < cfg0.N) (hn' : n' < cfg0.N) :
    outsAt0 m c n hn = outsAt0 m c n' hn' := by subst h; rfl

/-- After the even point of batch `b` the scratch is the first tile's update of the zero fill. -/
theorem scrA (c : Dev nD) (b : Fin 16) :
    (outsAt0 m c (ptOf b 0).val (ptOf b 0).isLt).2 = k0_pay1 (F := Ideal) (k0_pay7 (X0 m c b 0) (X1 m c b 0)) (k0_pay8 (X0 m c b 0) (X1 m c b 0) (X2 m c b 0) (X3 m c b 0)) (k0_pay9 (X0 m c b 0) (X1 m c b 0) (X4 m c b 0)) (k0_pay10 (X0 m c b 0) (X1 m c b 0) (X2 m c b 0) (X3 m c b 0) (X4 m c b 0)) (k0_pay3 (F := Ideal)) := by
  have h0 : (ptOf b 0).val % 2 = 0 := by rw [ptOf0_val]; omega
  have h1 : ¬(ptOf b 0).val % 2 = 1 := by rw [ptOf0_val]; omega
  rw [outsAt0_A m c (ptOf b 0) h0 h1]
  dsimp only
  exact sout0_A_0_eq (F := Ideal) c (grid0.coords (ptOf b 0)) (ms0_0 (ptOf b 0)) (hs0_0 (ptOf b 0)) (ms0_1 (ptOf b 0)) (hs0_1 (ptOf b 0)) (ms0_2 (ptOf b 0)) (hs0_2 (ptOf b 0)) (ms0_3 (ptOf b 0)) (hs0_3 (ptOf b 0)) (ms0_4 (ptOf b 0)) (hs0_4 (ptOf b 0)) (ms0_5 (ptOf b 0)) (hs0_5 (ptOf b 0)) scM0_0 (Memref.isWhole_whole _) ((hcond0_0 (ptOf b 0)).mpr h0) (fun h => h1 ((hcond0_1 (ptOf b 0)).mp h)) (iblk m c 0 (ptOf b 0)) (iblk m c 1 (ptOf b 0)) (iblk m c 2 (ptOf b 0)) (iblk m c 3 (ptOf b 0)) (iblk m c 4 (ptOf b 0))

/-- After the odd point it is the second tile's update of that, -/
theorem scrB (c : Dev nD) (b : Fin 16) :
    (outsAt0 m c (ptOf b 1).val (ptOf b 1).isLt).2 = k0_pay1 (F := Ideal) (k0_pay7 (X0 m c b 1) (X1 m c b 1)) (k0_pay8 (X0 m c b 1) (X1 m c b 1) (X2 m c b 1) (X3 m c b 1)) (k0_pay9 (X0 m c b 1) (X1 m c b 1) (X4 m c b 1)) (k0_pay10 (X0 m c b 1) (X1 m c b 1) (X2 m c b 1) (X3 m c b 1) (X4 m c b 1)) (outsAt0 m c (ptOf b 0).val (ptOf b 0).isLt).2 := by
  have h0 : ¬(ptOf b 1).val % 2 = 0 := by rw [ptOf1_val]; omega
  have h1 : (ptOf b 1).val % 2 = 1 := by rw [ptOf1_val]; omega
  rw [outsAt0_B m c (ptOf b 1) h0 h1]
  dsimp only
  rw [outsAt0_congr m c (show (ptOf b 1).val - 1 = (ptOf b 0).val by rw [ptOf1_val, ptOf0_val]; omega) _ (ptOf b 0).isLt]
  exact sout0_B_0_eq (F := Ideal) c (grid0.coords (ptOf b 1)) (ms0_0 (ptOf b 1)) (hs0_0 (ptOf b 1)) (ms0_1 (ptOf b 1)) (hs0_1 (ptOf b 1)) (ms0_2 (ptOf b 1)) (hs0_2 (ptOf b 1)) (ms0_3 (ptOf b 1)) (hs0_3 (ptOf b 1)) (ms0_4 (ptOf b 1)) (hs0_4 (ptOf b 1)) (ms0_5 (ptOf b 1)) (hs0_5 (ptOf b 1)) scM0_0 (Memref.isWhole_whole _) (fun h => h0 ((hcond0_0 (ptOf b 1)).mp h)) ((hcond0_1 (ptOf b 1)).mpr h1) (iblk m c 0 (ptOf b 1)) (iblk m c 1 (ptOf b 1)) (iblk m c 2 (ptOf b 1)) (iblk m c 3 (ptOf b 1)) (iblk m c 4 (ptOf b 1)) (outsAt0 m c (ptOf b 0).val (ptOf b 0).isLt).2

/-- and the output block's buffer the padded block built from it. -/
theorem outB (c : Dev nD) (b : Fin 16) :
    (outsAt0 m c (ptOf b 1).val (ptOf b 1).isLt).1 = k0_pay2 (F := Ideal) (k0_pay1 (F := Ideal) (k0_pay7 (X0 m c b 1) (X1 m c b 1)) (k0_pay8 (X0 m c b 1) (X1 m c b 1) (X2 m c b 1) (X3 m c b 1)) (k0_pay9 (X0 m c b 1) (X1 m c b 1) (X4 m c b 1)) (k0_pay10 (X0 m c b 1) (X1 m c b 1) (X2 m c b 1) (X3 m c b 1) (X4 m c b 1)) (outsAt0 m c (ptOf b 0).val (ptOf b 0).isLt).2) := by
  have h0 : ¬(ptOf b 1).val % 2 = 0 := by rw [ptOf1_val]; omega
  have h1 : (ptOf b 1).val % 2 = 1 := by rw [ptOf1_val]; omega
  rw [outsAt0_B m c (ptOf b 1) h0 h1]
  dsimp only
  rw [outsAt0_congr m c (show (ptOf b 1).val - 1 = (ptOf b 0).val by rw [ptOf1_val, ptOf0_val]; omega) _ (ptOf b 0).isLt]
  exact out0_B_5_eq (F := Ideal) c (grid0.coords (ptOf b 1)) (ms0_0 (ptOf b 1)) (hs0_0 (ptOf b 1)) (ms0_1 (ptOf b 1)) (hs0_1 (ptOf b 1)) (ms0_2 (ptOf b 1)) (hs0_2 (ptOf b 1)) (ms0_3 (ptOf b 1)) (hs0_3 (ptOf b 1)) (ms0_4 (ptOf b 1)) (hs0_4 (ptOf b 1)) (ms0_5 (ptOf b 1)) (hs0_5 (ptOf b 1)) scM0_0 (Memref.isWhole_whole _) (fun h => h0 ((hcond0_0 (ptOf b 1)).mp h)) ((hcond0_1 (ptOf b 1)).mpr h1) (iblk m c 0 (ptOf b 1)) (iblk m c 1 (ptOf b 1)) (iblk m c 2 (ptOf b 1)) (iblk m c 3 (ptOf b 1)) (iblk m c 4 (ptOf b 1)) (outsAt0 m c (ptOf b 0).val (ptOf b 0).isLt).2

/-- The zero fill is zero in every lane. -/
theorem pay3_at (j : S1x4.Idx) : k0_pay3 (F := Ideal) j = 0 := congrFun pay3_eq j

/-- Lane by lane, the output array after the run at row 0 of batch `b`: zero plus the first tile's sum, plus the second's. -/
theorem out_lane0 (c : Dev nD) (b : Fin 16) :
    (dats m 0 c).arrAt 5 cfg0.N (ix3 b (0 : Fin 8) (⟨(0 : Fin 4).val, by omega⟩ : Fin 128)) = (0 + tv0 m c b 0) + tv0 m c b 1 := by
  rw [out_apply m c b 0, outB m c b, pay2_at, upd_at0, scrA m c b, upd_at0, pay3_at, sum0, sum0]
theorem out_lane1 (c : Dev nD) (b : Fin 16) :
    (dats m 0 c).arrAt 5 cfg0.N (ix3 b (0 : Fin 8) (⟨(1 : Fin 4).val, by omega⟩ : Fin 128)) = (0 + tv1 m c b 0) + tv1 m c b 1 := by
  rw [out_apply m c b 1, outB m c b, pay2_at, upd_at1, scrA m c b, upd_at1, pay3_at, sum1, sum1]
theorem out_lane2 (c : Dev nD) (b : Fin 16) :
    (dats m 0 c).arrAt 5 cfg0.N (ix3 b (0 : Fin 8) (⟨(2 : Fin 4).val, by omega⟩ : Fin 128)) = (0 + tv2 m c b 0) + tv2 m c b 1 := by
  rw [out_apply m c b 2, outB m c b, pay2_at, upd_at2, scrA m c b, upd_at2, pay3_at, sum2, sum2]
theorem out_lane3 (c : Dev nD) (b : Fin 16) :
    (dats m 0 c).arrAt 5 cfg0.N (ix3 b (0 : Fin 8) (⟨(3 : Fin 4).val, by omega⟩ : Fin 128)) = (0 + tv3 m c b 0) + tv3 m c b 1 := by
  rw [out_apply m c b 3, outB m c b, pay2_at, upd_at3, scrA m c b, upd_at3, pay3_at, sum3, sum3]

/-! ## The four sums over the batches -/

/-- The output array after the run. -/
abbrev outArr (c : Dev nD) : FVec Ideal S16x8x128 .f32 := (dats m 0 c).arrAt 5 cfg0.N

theorem lane0_eq (c : Dev nD) : lane 0 (batchSums (F := Ideal) (outArr m c)) = fun _ => tileAll (dd m c) := by
  rw [lane_batchSums]
  funext _
  rw [zero_add]
  unfold tileAll
  exact Finset.sum_congr rfl fun b _ => by rw [Fin.sum_univ_two]; exact (out_lane0 m c b).trans (by rw [zero_add]; rfl)
theorem lane1_eq (c : Dev nD) : lane 1 (batchSums (F := Ideal) (outArr m c)) = fun _ => tileT (dd m c) chanT := by
  rw [lane_batchSums]
  funext _
  rw [zero_add]
  unfold tileT
  exact Finset.sum_congr rfl fun b _ => by rw [Fin.sum_univ_two]; exact (out_lane1 m c b).trans (by rw [zero_add]; rfl)
theorem lane2_eq (c : Dev nD) : lane 2 (batchSums (F := Ideal) (outArr m c)) = fun _ => tileInterAll (dd m c) (qq m c) := by
  rw [lane_batchSums]
  funext _
  rw [zero_add]
  unfold tileInterAll
  exact Finset.sum_congr rfl fun b _ => by rw [Fin.sum_univ_two]; exact (out_lane2 m c b).trans (by rw [zero_add]; rfl)
theorem lane3_eq (c : Dev nD) : lane 3 (batchSums (F := Ideal) (outArr m c)) = fun _ => tileInterT (dd m c) (qq m c) chanT := by
  rw [lane_batchSums]
  funext _
  rw [zero_add]
  unfold tileInterT
  exact Finset.sum_congr rfl fun b _ => by rw [Fin.sum_univ_two]; exact (out_lane3 m c b).trans (by rw [zero_add]; rfl)

/-! ## The run's result -/

/-- What the operations after the region compute from the four tile sums. -/
def kerOut (c : Dev nD) : FVec Ideal S7 .f32 :=
  lossOf (F := Ideal)
    (subf (fun _ => tileT (dd m c) chanT) (fun _ => tileInterT (dd m c) (qq m c) chanT))
    (subf (subf (fun _ => tileAll (dd m c)) (fun _ => tileT (dd m c) chanT)) (subf (fun _ => tileInterAll (dd m c) (qq m c)) (fun _ => tileInterT (dd m c) (qq m c) chanT)))
    (fun _ => tileInterT (dd m c) (qq m c) chanT)
    (subf (fun _ => tileInterAll (dd m c) (qq m c)) (fun _ => tileInterT (dd m c) (qq m c) chanT))
    (inMs m c)

/-- The result buffer after the operations that follow the region. -/
theorem tail_eq (c : Dev nD) :
    Pipeline.afterTail₀ cfgs (dats m) 0 (V0 m) [hostOps1] c main_v70 = kerOut m c := by
  unfold Pipeline.afterTail₀
  rw [show ([hostOps1] : List (List (HloOp τ sig (Elt Ideal)))).flatten = hostOps1 from by simp only [List.flatten_cons, List.flatten_nil, List.append_nil]]
  rw [tail_v70]
  dsimp only
  rw [Pipeline.withArrays_arr spec0 launch0.win.arr_inj c _ _ 5,
    Pipeline.withArrays_of_ne _ c (V0 m c) _ main_arg2 (by exact (by decide : ∀ w, Pipeline.arrRef spec0 w ≠ main_arg2))]
  rw [show V0 m c (Proc.devRef .tc main_arg2) = inMs m c from V_main_arg2 m c]
  unfold kerOut
  rw [← lane0_eq m c, ← lane1_eq m c, ← lane2_eq m c, ← lane3_eq m c]

/-- Every weakly fair execution of the idealized kernel program terminates with its result at `kerOut` and its
    arguments unchanged. -/
theorem value_run : θ_run defs (onTc (τ := τ) (main (F := Ideal))) ⟨m, fun _ => 0, ρ⟩ (fun r => ∀ c : Dev nD,
      r.2.mem ((c.tc : Thread nD τ).loc main_v70) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v70 (Pipeline.mem_restRefs_of main_v70 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Hand

end
-- ==== Proof.RefPre.lean ====
/-
  The reference's first stretch, operations %0 … %17 with the outlined functions' operations listed at their call
  sites: from the four view sizes in argument 2, the view id of each of the 1024 tokens.

  The sizes rolled by one with a zero written in front and summed along are the views' first tokens (`starts`); a one
  is added at each of them in a vector of 1024 zeros (`marks`); the running sum of that minus one is each token's view
  number (`tokView`); the table `iota 4` read at that number, with the fill where the number is out of range, is the
  token's view id (`takeV`, `vids`). What the stretch leaves in %17 is that term of what it found in argument 2, and
  it writes no argument.
-/
import proofs.«402724_j74560632258756_3_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations %0 and the roll's two slices. -/
abbrev opsPreA : List (HloOp τ sig (Elt F)) :=
  [ StableHlo.nullary main_v0 (iotaInDim S4 32 0),
    StableHlo.unary main_arg2 main_call0_v0 ((extractStridedSlice S1 ![3] · slices_S4_S1_3) : (⟨S4, .i32⟩ : BufTy).Contents (Elt F) → (⟨S1, .i32⟩ : BufTy).Contents (Elt F)),
    StableHlo.unary main_arg2 main_call0_v1 ((extractStridedSlice S3 ![0] · slices_S4_S3_0) : (⟨S4, .i32⟩ : BufTy).Contents (Elt F) → (⟨S3, .i32⟩ : BufTy).Contents (Elt F)) ]

/-- From the roll's concatenate through %17. -/
abbrev opsPreB : List (HloOp τ sig (Elt F)) :=
  [ StableHlo.binary main_call0_v0 main_call0_v1 main_v1 ((fun a b => concatenate S4 0 [⟨S1, a⟩, ⟨S3, b⟩] concatenates_S1_S3_S4_d0) : (⟨S1, .i32⟩ : BufTy).Contents (Elt F) → (⟨S3, .i32⟩ : BufTy).Contents (Elt F) → (⟨S4, .i32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F)),
    StableHlo.nullary main_call1_call0_c (constantI S_ 32 0#32),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_v3 main_call1_call0_v0 main_v4 ((fun x v => Host.reduceWindow IntOp.addi ![4] ![1] ![3] ![0] x v reduceWindows_S4_S4_w4s1p3_0 h_S_) : (⟨S4, .i32⟩ : BufTy).Contents (Elt F) → (⟨S_, .i32⟩ : BufTy).Contents (Elt F) → (⟨S4, .i32⟩ : BufTy).Contents (Elt F)),
    StableHlo.nullary main_c_1 (constantI S_ 32 0#32),
    StableHlo.unary main_c_1 main_v5 (broadcastInDim S1024 ![] bcast_S_S1024 : (⟨S_, .i32⟩ : BufTy).Contents (Elt F) → (⟨S1024, .i32⟩ : BufTy).Contents (Elt F)),
    StableHlo.nullary main_c_2 (constantI S_ 32 0#32),
    StableHlo.unary main_c_2 main_v6 (broadcastInDim S4 ![] bcast_S_S4 : (⟨S_, .i32⟩ : BufTy).Contents (Elt F) → (⟨S4, .i32⟩ : BufTy).Contents (Elt F)),
    StableHlo.binary main_v4 main_v6 main_v7 (cmpi .slt : (⟨S4, .i32⟩ : BufTy).Contents (Elt F) → (⟨S4, .i32⟩ : BufTy).Contents (Elt F) → (⟨S4, .i1⟩ : BufTy).Contents (Elt F)),
    StableHlo.nullary main_c_3 (constantI S_ 32 1024#32),
    StableHlo.unary main_c_3 main_v8 (broadcastInDim S4 ![] bcast_S_S4 : (⟨S_, .i32⟩ : BufTy).Contents (Elt F) → (⟨S4, .i32⟩ : BufTy).Contents (Elt F)),
    StableHlo.binary main_v4 main_v8 main_v9 (addi : (⟨S4, .i32⟩ : BufTy).Contents (Elt F) → (⟨S4, .i32⟩ : BufTy).Contents (Elt F) → (⟨S4, .i32⟩ : BufTy).Contents (Elt F)),
    StableHlo.ternary main_v7 main_v9 main_v4 main_v10 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v10 main_v11 (broadcastInDim S4x1 ![0] bcast_S4_S4x1_0 : (⟨S4, .i32⟩ : BufTy).Contents (Elt F) → (⟨S4x1, .i32⟩ : BufTy).Contents (Elt F)),
    StableHlo.nullary main_c_4 (constantI S_ 32 1#32),
    StableHlo.unary main_c_4 main_v12 (broadcastInDim S4 ![] bcast_S_S4 : (⟨S_, .i32⟩ : BufTy).Contents (Elt F) → (⟨S4, .i32⟩ : BufTy).Contents (Elt F)),
    StableHlo.ternary main_v5 main_v11 main_v12 main_v13 ((fun x i u => Host.scatter scatter_S1024_S4x1_S4_n_0_0_1 IntOp.addi x i u) : (⟨S1024, .i32⟩ : BufTy).Contents (Elt F) → (⟨S4x1, .i32⟩ : BufTy).Contents (Elt F) → (⟨S4, .i32⟩ : BufTy).Contents (Elt F) → (⟨S1024, .i32⟩ : BufTy).Contents (Elt F)),
    StableHlo.nullary main_call2_call0_c (constantI S_ 32 0#32),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v13 main_call2_call0_v0 main_v14 ((fun x v => Host.reduceWindow IntOp.addi ![1024] ![1] ![1023] ![0] x v reduceWindows_S1024_S1024_w1024s1p1023_0 h_S_) : (⟨S1024, .i32⟩ : BufTy).Contents (Elt F) → (⟨S_, .i32⟩ : BufTy).Contents (Elt F) → (⟨S1024, .i32⟩ : BufTy).Contents (Elt F)),
    StableHlo.nullary main_c_5 (constantI S_ 32 1#32),
    StableHlo.unary main_c_5 main_v15 (broadcastInDim S1024 ![] bcast_S_S1024 : (⟨S_, .i32⟩ : BufTy).Contents (Elt F) → (⟨S1024, .i32⟩ : BufTy).Contents (Elt F)),
    StableHlo.binary main_v14 main_v15 main_v16 (subi : (⟨S1024, .i32⟩ : BufTy).Contents (Elt F) → (⟨S1024, .i32⟩ : BufTy).Contents (Elt F) → (⟨S1024, .i32⟩ : BufTy).Contents (Elt F)),
    StableHlo.nullary main_call3_c (constantI S_ 32 0#32),
    StableHlo.unary main_call3_c main_call3_v0 ((broadcastInDim S1024 ![] bcast_S_S1024) : (⟨S_, .i32⟩ : BufTy).Contents (Elt F) → (⟨S1024, .i32⟩ : BufTy).Contents (Elt F)),
    StableHlo.binary main_v16 main_call3_v0 main_call3_v1 ((cmpi .slt) : (⟨S1024, .i32⟩ : BufTy).Contents (Elt F) → (⟨S1024, .i32⟩ : BufTy).Contents (Elt F) → (⟨S1024, .i1⟩ : BufTy).Contents (Elt F)),
    StableHlo.nullary main_call3_c_0 (constantI S_ 32 4#32),
    StableHlo.unary main_call3_c_0 main_call3_v2 ((broadcastInDim S1024 ![] bcast_S_S1024) : (⟨S_, .i32⟩ : BufTy).Contents (Elt F) → (⟨S1024, .i32⟩ : BufTy).Contents (Elt F)),
    StableHlo.binary main_v16 main_call3_v2 main_call3_v3 (addi : (⟨S1024, .i32⟩ : BufTy).Contents (Elt F) → (⟨S1024, .i32⟩ : BufTy).Contents (Elt F) → (⟨S1024, .i32⟩ : BufTy).Contents (Elt F)),
    StableHlo.ternary main_call3_v1 main_call3_v3 main_v16 main_call3_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_call3_v4 main_call3_v5 ((broadcastInDim S1024x1 ![0] bcast_S1024_S1024x1_0) : (⟨S1024, .i32⟩ : BufTy).Contents (Elt F) → (⟨S1024x1, .i32⟩ : BufTy).Contents (Elt F)),
    StableHlo.nullary main_call3_c_1 (constantI S1 32 3#32),
    StableHlo.nullary main_call3_c_2 (constantI S_ 32 0#32),
    StableHlo.unary main_call3_c_2 main_call3_v6 ((broadcastInDim S1024x1 ![] bcast_S_S1024x1) : (⟨S_, .i32⟩ : BufTy).Contents (Elt F) → (⟨S1024x1, .i32⟩ : BufTy).Contents (Elt F)),
    StableHlo.binary main_call3_v5 main_call3_v6 main_call3_v7 ((cmpi .sge) : (⟨S1024x1, .i32⟩ : BufTy).Contents (Elt F) → (⟨S1024x1, .i32⟩ : BufTy).Contents (Elt F) → (⟨S1024x1, .i1⟩ : BufTy).Contents (Elt F)),
    StableHlo.unary main_call3_c_1 main_call3_v8 ((broadcastInDim S1x1 ![1] bcast_S1_S1x1_1) : (⟨S1, .i32⟩ : BufTy).Contents (Elt F) → (⟨S1x1, .i32⟩ : BufTy).Contents (Elt F)),
    StableHlo.unary main_call3_v8 main_call3_v9 ((broadcastInDim S1024x1 ![0, 1] bcast_S1x1_S1024x1_0_1) : (⟨S1x1, .i32⟩ : BufTy).Contents (Elt F) → (⟨S1024x1, .i32⟩ : BufTy).Contents (Elt F)),
    StableHlo.binary main_call3_v5 main_call3_v9 main_call3_v10 ((cmpi .sle) : (⟨S1024x1, .i32⟩ : BufTy).Contents (Elt F) → (⟨S1024x1, .i32⟩ : BufTy).Contents (Elt F) → (⟨S1024x1, .i1⟩ : BufTy).Contents (Elt F)),
    StableHlo.binary main_call3_v7 main_call3_v10 main_call3_v11 (andi : (⟨S1024x1, .i1⟩ : BufTy).Contents (Elt F) → (⟨S1024x1, .i1⟩ : BufTy).Contents (Elt F) → (⟨S1024x1, .i1⟩ : BufTy).Contents (Elt F)),
    StableHlo.nullary main_call3_c_3 (constantI S_ 1 1#1),
    StableHlo.binary main_call3_v11 main_call3_c_3 main_call3_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
    StableHlo.binary main_v0 main_call3_v5 main_call3_v13 ((fun x i => Host.gather gather_S4_S1024x1_S1024_n_0_n_n_0_1_1 x i) : (⟨S4, .i32⟩ : BufTy).Contents (Elt F) → (⟨S1024x1, .i32⟩ : BufTy).Contents (Elt F) → (⟨S1024, .i32⟩ : BufTy).Contents (Elt F)),
    StableHlo.nullary main_call3_c_4 (constantI S_ 32 2147483648#32),
    StableHlo.unary main_call3_c_4 main_call3_v14 ((broadcastInDim S1024 ![] bcast_S_S1024) : (⟨S_, .i32⟩ : BufTy).Contents (Elt F) → (⟨S1024, .i32⟩ : BufTy).Contents (Elt F)),
    StableHlo.ternary main_call3_v12 main_call3_v13 main_call3_v14 main_v17 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ]

/-- Operations %0 … %17, in order. -/
abbrev opsPre : List (HloOp τ sig (Elt F)) :=
  [ StableHlo.nullary main_v0 (iotaInDim S4 32 0),
    StableHlo.unary main_arg2 main_call0_v0 ((extractStridedSlice S1 ![3] · slices_S4_S1_3) : (⟨S4, .i32⟩ : BufTy).Contents (Elt F) → (⟨S1, .i32⟩ : BufTy).Contents (Elt F)),
    StableHlo.unary main_arg2 main_call0_v1 ((extractStridedSlice S3 ![0] · slices_S4_S3_0) : (⟨S4, .i32⟩ : BufTy).Contents (Elt F) → (⟨S3, .i32⟩ : BufTy).Contents (Elt F)),
    StableHlo.binary main_call0_v0 main_call0_v1 main_v1 ((fun a b => concatenate S4 0 [⟨S1, a⟩, ⟨S3, b⟩] concatenates_S1_S3_S4_d0) : (⟨S1, .i32⟩ : BufTy).Contents (Elt F) → (⟨S3, .i32⟩ : BufTy).Contents (Elt F) → (⟨S4, .i32⟩ : BufTy).Contents (Elt F)),
    StableHlo.nullary main_c (constantI S_ 32 0#32),
    StableHlo.unary main_c main_v2 (broadcastInDim S1 ![] bcast_S_S1 : (⟨S_, .i32⟩ : BufTy).Contents (Elt F) → (⟨S1, .i32⟩ : BufTy).Contents (Elt F)),
    StableHlo.nullary main_c_0 (constantI S_ 32 0#32),
    StableHlo.ternary main_v1 main_v2 main_c_0 main_v3 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F)),
    StableHlo.nullary main_call1_call0_c (constantI S_ 32 0#32),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_v3 main_call1_call0_v0 main_v4 ((fun x v => Host.reduceWindow IntOp.addi ![4] ![1] ![3] ![0] x v reduceWindows_S4_S4_w4s1p3_0 h_S_) : (⟨S4, .i32⟩ : BufTy).Contents (Elt F) → (⟨S_, .i32⟩ : BufTy).Contents (Elt F) → (⟨S4, .i32⟩ : BufTy).Contents (Elt F)),
    StableHlo.nullary main_c_1 (constantI S_ 32 0#32),
    StableHlo.unary main_c_1 main_v5 (broadcastInDim S1024 ![] bcast_S_S1024 : (⟨S_, .i32⟩ : BufTy).Contents (Elt F) → (⟨S1024, .i32⟩ : BufTy).Contents (Elt F)),
    StableHlo.nullary main_c_2 (constantI S_ 32 0#32),
    StableHlo.unary main_c_2 main_v6 (broadcastInDim S4 ![] bcast_S_S4 : (⟨S_, .i32⟩ : BufTy).Contents (Elt F) → (⟨S4, .i32⟩ : BufTy).Contents (Elt F)),
    StableHlo.binary main_v4 main_v6 main_v7 (cmpi .slt : (⟨S4, .i32⟩ : BufTy).Contents (Elt F) → (⟨S4, .i32⟩ : BufTy).Contents (Elt F) → (⟨S4, .i1⟩ : BufTy).Contents (Elt F)),
    StableHlo.nullary main_c_3 (constantI S_ 32 1024#32),
    StableHlo.unary main_c_3 main_v8 (broadcastInDim S4 ![] bcast_S_S4 : (⟨S_, .i32⟩ : BufTy).Contents (Elt F) → (⟨S4, .i32⟩ : BufTy).Contents (Elt F)),
    StableHlo.binary main_v4 main_v8 main_v9 (addi : (⟨S4, .i32⟩ : BufTy).Contents (Elt F) → (⟨S4, .i32⟩ : BufTy).Contents (Elt F) → (⟨S4, .i32⟩ : BufTy).Contents (Elt F)),
    StableHlo.ternary main_v7 main_v9 main_v4 main_v10 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v10 main_v11 (broadcastInDim S4x1 ![0] bcast_S4_S4x1_0 : (⟨S4, .i32⟩ : BufTy).Contents (Elt F) → (⟨S4x1, .i32⟩ : BufTy).Contents (Elt F)),
    StableHlo.nullary main_c_4 (constantI S_ 32 1#32),
    StableHlo.unary main_c_4 main_v12 (broadcastInDim S4 ![] bcast_S_S4 : (⟨S_, .i32⟩ : BufTy).Contents (Elt F) → (⟨S4, .i32⟩ : BufTy).Contents (Elt F)),
    StableHlo.ternary main_v5 main_v11 main_v12 main_v13 ((fun x i u => Host.scatter scatter_S1024_S4x1_S4_n_0_0_1 IntOp.addi x i u) : (⟨S1024, .i32⟩ : BufTy).Contents (Elt F) → (⟨S4x1, .i32⟩ : BufTy).Contents (Elt F) → (⟨S4, .i32⟩ : BufTy).Contents (Elt F) → (⟨S1024, .i32⟩ : BufTy).Contents (Elt F)),
    StableHlo.nullary main_call2_call0_c (constantI S_ 32 0#32),
    StableHlo.unary main_call2_call0_c main_call2_call0_v0 ((broadcastInDim S_ ![] bcast_S_S_) : (⟨S_, .i32⟩ : BufTy).Contents (Elt F) → (⟨S_, .i32⟩ : BufTy).Contents (Elt F)),
    StableHlo.binary main_v13 main_call2_call0_v0 main_v14 ((fun x v => Host.reduceWindow IntOp.addi ![1024] ![1] ![1023] ![0] x v reduceWindows_S1024_S1024_w1024s1p1023_0 h_S_) : (⟨S1024, .i32⟩ : BufTy).Contents (Elt F) → (⟨S_, .i32⟩ : BufTy).Contents (Elt F) → (⟨S1024, .i32⟩ : BufTy).Contents (Elt F)),
    StableHlo.nullary main_c_5 (constantI S_ 32 1#32),
    StableHlo.unary main_c_5 main_v15 (broadcastInDim S1024 ![] bcast_S_S1024 : (⟨S_, .i32⟩ : BufTy).Contents (Elt F) → (⟨S1024, .i32⟩ : BufTy).Contents (Elt F)),
    StableHlo.binary main_v14 main_v15 main_v16 (subi : (⟨S1024, .i32⟩ : BufTy).Contents (Elt F) → (⟨S1024, .i32⟩ : BufTy).Contents (Elt F) → (⟨S1024, .i32⟩ : BufTy).Contents (Elt F)),
    StableHlo.nullary main_call3_c (constantI S_ 32 0#32),
    StableHlo.unary main_call3_c main_call3_v0 ((broadcastInDim S1024 ![] bcast_S_S1024) : (⟨S_, .i32⟩ : BufTy).Contents (Elt F) → (⟨S1024, .i32⟩ : BufTy).Contents (Elt F)),
    StableHlo.binary main_v16 main_call3_v0 main_call3_v1 ((cmpi .slt) : (⟨S1024, .i32⟩ : BufTy).Contents (Elt F) → (⟨S1024, .i32⟩ : BufTy).Contents (Elt F) → (⟨S1024, .i1⟩ : BufTy).Contents (Elt F)),
    StableHlo.nullary main_call3_c_0 (constantI S_ 32 4#32),
    StableHlo.unary main_call3_c_0 main_call3_v2 ((broadcastInDim S1024 ![] bcast_S_S1024) : (⟨S_, .i32⟩ : BufTy).Contents (Elt F) → (⟨S1024, .i32⟩ : BufTy).Contents (Elt F)),
    StableHlo.binary main_v16 main_call3_v2 main_call3_v3 (addi : (⟨S1024, .i32⟩ : BufTy).Contents (Elt F) → (⟨S1024, .i32⟩ : BufTy).Contents (Elt F) → (⟨S1024, .i32⟩ : BufTy).Contents (Elt F)),
    StableHlo.ternary main_call3_v1 main_call3_v3 main_v16 main_call3_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_call3_v4 main_call3_v5 ((broadcastInDim S1024x1 ![0] bcast_S1024_S1024x1_0) : (⟨S1024, .i32⟩ : BufTy).Contents (Elt F) → (⟨S1024x1, .i32⟩ : BufTy).Contents (Elt F)),
    StableHlo.nullary main_call3_c_1 (constantI S1 32 3#32),
    StableHlo.nullary main_call3_c_2 (constantI S_ 32 0#32),
    StableHlo.unary main_call3_c_2 main_call3_v6 ((broadcastInDim S1024x1 ![] bcast_S_S1024x1) : (⟨S_, .i32⟩ : BufTy).Contents (Elt F) → (⟨S1024x1, .i32⟩ : BufTy).Contents (Elt F)),
    StableHlo.binary main_call3_v5 main_call3_v6 main_call3_v7 ((cmpi .sge) : (⟨S1024x1, .i32⟩ : BufTy).Contents (Elt F) → (⟨S1024x1, .i32⟩ : BufTy).Contents (Elt F) → (⟨S1024x1, .i1⟩ : BufTy).Contents (Elt F)),
    StableHlo.unary main_call3_c_1 main_call3_v8 ((broadcastInDim S1x1 ![1] bcast_S1_S1x1_1) : (⟨S1, .i32⟩ : BufTy).Contents (Elt F) → (⟨S1x1, .i32⟩ : BufTy).Contents (Elt F)),
    StableHlo.unary main_call3_v8 main_call3_v9 ((broadcastInDim S1024x1 ![0, 1] bcast_S1x1_S1024x1_0_1) : (⟨S1x1, .i32⟩ : BufTy).Contents (Elt F) → (⟨S1024x1, .i32⟩ : BufTy).Contents (Elt F)),
    StableHlo.binary main_call3_v5 main_call3_v9 main_call3_v10 ((cmpi .sle) : (⟨S1024x1, .i32⟩ : BufTy).Contents (Elt F) → (⟨S1024x1, .i32⟩ : BufTy).Contents (Elt F) → (⟨S1024x1, .i1⟩ : BufTy).Contents (Elt F)),
    StableHlo.binary main_call3_v7 main_call3_v10 main_call3_v11 (andi : (⟨S1024x1, .i1⟩ : BufTy).Contents (Elt F) → (⟨S1024x1, .i1⟩ : BufTy).Contents (Elt F) → (⟨S1024x1, .i1⟩ : BufTy).Contents (Elt F)),
    StableHlo.nullary main_call3_c_3 (constantI S_ 1 1#1),
    StableHlo.binary main_call3_v11 main_call3_c_3 main_call3_v12 ((fun x v => Host.reduce IntOp.andi x v reducesTo_S1024x1_S1024_d1 h_S_) : (⟨S1024x1, .i1⟩ : BufTy).Contents (Elt F) → (⟨S_, .i1⟩ : BufTy).Contents (Elt F) → (⟨S1024, .i1⟩ : BufTy).Contents (Elt F)),
    StableHlo.binary main_v0 main_call3_v5 main_call3_v13 ((fun x i => Host.gather gather_S4_S1024x1_S1024_n_0_n_n_0_1_1 x i) : (⟨S4, .i32⟩ : BufTy).Contents (Elt F) → (⟨S1024x1, .i32⟩ : BufTy).Contents (Elt F) → (⟨S1024, .i32⟩ : BufTy).Contents (Elt F)),
    StableHlo.nullary main_call3_c_4 (constantI S_ 32 2147483648#32),
    StableHlo.unary main_call3_c_4 main_call3_v14 ((broadcastInDim S1024 ![] bcast_S_S1024) : (⟨S_, .i32⟩ : BufTy).Contents (Elt F) → (⟨S1024, .i32⟩ : BufTy).Contents (Elt F)),
    StableHlo.ternary main_call3_v12 main_call3_v13 main_call3_v14 main_v17 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ]

theorem opsPre_eq : (opsPre : List (HloOp τ sig (Elt F))) = opsPreA ++ opsPreB := rfl

theorem opsPre_sub : (opsPre : List (HloOp τ sig (Elt F))).Forall fun op => op.bufs ⊆ tcRefs τ sig :=
  ⟨nullary_bufs_sub .., unary_bufs_sub .., unary_bufs_sub .., binary_bufs_sub .., nullary_bufs_sub .., unary_bufs_sub .., nullary_bufs_sub .., ternary_bufs_sub .., nullary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The buffers after two lines run one after the other: the second line's fold from the first's. -/
theorem after_append {τ' : Topo} {sig' : RefSig} {Val : EltTy → Type} (l₁ l₂ : List (HloOp τ' sig' Val)) :
    ∀ V : Valuation τ' sig' Val, after (l₁ ++ l₂) V = after l₂ (after l₁ V) := by
  induction l₁ with
  | nil => intro V; rfl
  | cons op l ih => intro V; rw [List.cons_append, after_cons, after_cons, ih]

/-! ## The values, operation by operation -/

/-- The views' first tokens (%1 … %4): the view sizes rolled by one (the last size `r0` in front of the first three `r1`),
    a zero written over the front, the running sum. -/
noncomputable def starts' (r0 : IVec S1 32) (r1 : IVec S3 32) : IVec S4 32 :=
  let v1 : IVec S4 32 := concatenate S4 0 [⟨S1, r0⟩, ⟨S3, r1⟩] concatenates_S1_S3_S4_d0
  let c : IVec S_ 32 := constantI S_ 32 0#32
  let v2 : IVec S1 32 := broadcastInDim S1 ![] bcast_S_S1 c
  let c_0 : IVec S_ 32 := constantI S_ 32 0#32
  let v3 : IVec S4 32 := Host.scatter scatter_S4_S1_S__n_0_0_0 (fun _ b => b) v1 v2 c_0
  let k1c : IVec S_ 32 := constantI S_ 32 0#32
  let k1v0 : IVec S_ 32 := broadcastInDim S_ ![] bcast_S_S_ k1c
  let v4 : IVec S4 32 := Host.reduceWindow IntOp.addi ![4] ![1] ![3] ![0] v3 k1v0 reduceWindows_S4_S4_w4s1p3_0 h_S_
  v4

/-- The same from the view sizes: the two slices of `ms` (the roll's halves). -/
noncomputable def starts (ms : IVec S4 32) : IVec S4 32 :=
  starts' (extractStridedSlice S1 ![3] ms slices_S4_S1_3) (extractStridedSlice S3 ![0] ms slices_S4_S3_0)

/-- A one added at each view's first token (%5 … %13), a negative start wrapped by 1024 first. -/
noncomputable def marks (v4 : IVec S4 32) : IVec S1024 32 :=
  let c_1 : IVec S_ 32 := constantI S_ 32 0#32
  let v5 : IVec S1024 32 := broadcastInDim S1024 ![] bcast_S_S1024 c_1
  let c_2 : IVec S_ 32 := constantI S_ 32 0#32
  let v6 : IVec S4 32 := broadcastInDim S4 ![] bcast_S_S4 c_2
  let v7 : IVec S4 1 := cmpi .slt v4 v6
  let c_3 : IVec S_ 32 := constantI S_ 32 1024#32
  let v8 : IVec S4 32 := broadcastInDim S4 ![] bcast_S_S4 c_3
  let v9 : IVec S4 32 := addi v4 v8
  let v10 : IVec S4 32 := select v7 v9 v4
  let v11 : IVec S4x1 32 := broadcastInDim S4x1 ![0] bcast_S4_S4x1_0 v10
  let c_4 : IVec S_ 32 := constantI S_ 32 1#32
  let v12 : IVec S4 32 := broadcastInDim S4 ![] bcast_S_S4 c_4
  let v13 : IVec S1024 32 := Host.scatter scatter_S1024_S4x1_S4_n_0_0_1 IntOp.addi v5 v11 v12
  v13

/-- Each token's view number (%14 … %16): the running sum of the marks, minus one. -/
noncomputable def tokView (v13 : IVec S1024 32) : IVec S1024 32 :=
  let k2c : IVec S_ 32 := constantI S_ 32 0#32
  let k2v0 : IVec S_ 32 := broadcastInDim S_ ![] bcast_S_S_ k2c
  let v14 : IVec S1024 32 :=
    Host.reduceWindow IntOp.addi ![1024] ![1] ![1023] ![0] v13 k2v0 reduceWindows_S1024_S1024_w1024s1p1023_0 h_S_
  let c_5 : IVec S_ 32 := constantI S_ 32 1#32
  let v15 : IVec S1024 32 := broadcastInDim S1024 ![] bcast_S_S1024 c_5
  let v16 : IVec S1024 32 := subi v14 v15
  v16

/-- The table `v0` read at each token's view number (%17; out of range, the fill): a negative number
    wrapped by 4, the in-range test, the gather, the fill where the test fails. -/
noncomputable def takeV (v0 : IVec S4 32) (v16 : IVec S1024 32) : IVec S1024 32 :=
  let tc : IVec S_ 32 := constantI S_ 32 0#32
  let t0 : IVec S1024 32 := broadcastInDim S1024 ![] bcast_S_S1024 tc
  let t1 : IVec S1024 1 := cmpi .slt v16 t0
  let tc_0 : IVec S_ 32 := constantI S_ 32 4#32
  let t2 : IVec S1024 32 := broadcastInDim S1024 ![] bcast_S_S1024 tc_0
  let t3 : IVec S1024 32 := addi v16 t2
  let t4 : IVec S1024 32 := select t1 t3 v16
  let t5 : IVec S1024x1 32 := broadcastInDim S1024x1 ![0] bcast_S1024_S1024x1_0 t4
  let tc_1 : IVec S1 32 := constantI S1 32 3#32
  let tc_2 : IVec S_ 32 := constantI S_ 32 0#32
  let t6 : IVec S1024x1 32 := broadcastInDim S1024x1 ![] bcast_S_S1024x1 tc_2
  let t7 : IVec S1024x1 1 := cmpi .sge t5 t6
  let t8 : IVec S1x1 32 := broadcastInDim S1x1 ![1] bcast_S1_S1x1_1 tc_1
  let t9 : IVec S1024x1 32 := broadcastInDim S1024x1 ![0, 1] bcast_S1x1_S1024x1_0_1 t8
  let t10 : IVec S1024x1 1 := cmpi .sle t5 t9
  let t11 : IVec S1024x1 1 := andi t7 t10
  let tc_3 : IVec S_ 1 := constantI S_ 1 1#1
  let t12 : IVec S1024 1 := Host.reduce IntOp.andi t11 tc_3 reducesTo_S1024x1_S1024_d1 h_S_
  let t13 : IVec S1024 32 := Host.gather gather_S4_S1024x1_S1024_n_0_n_n_0_1_1 v0 t5
  let tc_4 : IVec S_ 32 := constantI S_ 32 2147483648#32
  let t14 : IVec S1024 32 := broadcastInDim S1024 ![] bcast_S_S1024 tc_4
  select t12 t13 t14

/-- The view id of each of the 1024 tokens (operations %0 … %17). -/
noncomputable def vids (ms : IVec S4 32) : IVec S1024 32 :=
  takeV (iotaInDim S4 32 0) (tokView (marks (starts ms)))

/-! ## What the stretch leaves in %17 -/

theorem preA_v0 (V : Valuation τ sig (Elt F)) :
    after opsPreA V (main_v0 : DevRef τ sig) = iotaInDim S4 32 0 := by
  after_results_simp

theorem preA_r0 (V : Valuation τ sig (Elt F)) :
    after opsPreA V (main_call0_v0 : DevRef τ sig)
      = extractStridedSlice S1 ![3] (V (main_arg2 : DevRef τ sig)) slices_S4_S1_3 := by
  after_results_simp

theorem preA_r1 (V : Valuation τ sig (Elt F)) :
    after opsPreA V (main_call0_v1 : DevRef τ sig)
      = extractStridedSlice S3 ![0] (V (main_arg2 : DevRef τ sig)) slices_S4_S3_0 := by
  after_results_simp

set_option maxRecDepth 8192 in
set_option maxHeartbeats 1000000 in
theorem preB_v17 (W : Valuation τ sig (Elt F)) :
    after opsPreB W (main_v17 : DevRef τ sig)
      = takeV (W (main_v0 : DevRef τ sig))
          (tokView (marks (starts' (W (main_call0_v0 : DevRef τ sig)) (W (main_call0_v1 : DevRef τ sig))))) := by
  after_results_simp
  rfl

/-- %17: the view ids of the sizes in argument 2. -/
theorem pre_v17 (W : Valuation τ sig (Elt F)) :
    after opsPre W (main_v17 : DevRef τ sig) = vids (W (main_arg2 : DevRef τ sig)) := by
  rw [opsPre_eq, after_append, preB_v17, preA_v0, preA_r0, preA_r1]
  rfl

set_option maxRecDepth 8192 in
/-- No operation of the stretch writes argument 0. -/
theorem pre_arg0 (W : Valuation τ sig (Elt F)) :
    after opsPre W (main_arg0 : DevRef τ sig) = W (main_arg0 : DevRef τ sig) := by
  after_results_simp

set_option maxRecDepth 8192 in
/-- No operation of the stretch writes argument 1. -/
theorem pre_arg1 (W : Valuation τ sig (Elt F)) :
    after opsPre W (main_arg1 : DevRef τ sig) = W (main_arg1 : DevRef τ sig) := by
  after_results_simp

set_option maxRecDepth 8192 in
/-- No operation of the stretch writes argument 2. -/
theorem pre_arg2 (W : Valuation τ sig (Elt F)) :
    after opsPre W (main_arg2 : DevRef τ sig) = W (main_arg2 : DevRef τ sig) := by
  after_results_simp

end Cert.ReferenceIdeal.HRun

end
-- ==== Proof.RefMid.lean ====
/-
  The reference's middle stretch, operations %18 … %47: from the view ids in %17 and the two inputs, the four sums.

  The squared difference of the inputs is cut into its four channels; channels 0 and 1 added are the t pair, channels
  2 and 3 the s pair. The view ids broadcast along the columns and along the rows, compared for inequality and
  converted, are the different-view mask, repeated over the 16 batches. Each pair is summed over every batch and
  token pair, alone (`totT`, `totS`) and weighted by the mask (`interT`, `interS`); the same-view sums are the
  differences. What the stretch leaves in each of those buffers is that term of what it found in the arguments and
  in %17, and it writes no argument.
-/
import proofs.«402724_j74560632258756_3_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations %18 … %47, in order. -/
abbrev opsMid : List (HloOp τ sig (Elt F)) :=
  [ StableHlo.unary main_v17 main_v18 (broadcastInDim S1x1024 ![1] bcast_S1024_S1x1024_1 : (⟨S1024, .i32⟩ : BufTy).Contents (Elt F) → (⟨S1x1024, .i32⟩ : BufTy).Contents (Elt F)),
    StableHlo.unary main_v17 main_v19 (broadcastInDim S1024x1 ![0] bcast_S1024_S1024x1_0 : (⟨S1024, .i32⟩ : BufTy).Contents (Elt F) → (⟨S1024x1, .i32⟩ : BufTy).Contents (Elt F)),
    StableHlo.unary main_v18 main_v20 (broadcastInDim S1024x1024 ![0, 1] bcast_S1x1024_S1024x1024_0_1 : (⟨S1x1024, .i32⟩ : BufTy).Contents (Elt F) → (⟨S1024x1024, .i32⟩ : BufTy).Contents (Elt F)),
    StableHlo.unary main_v19 main_v21 (broadcastInDim S1024x1024 ![0, 1] bcast_S1024x1_S1024x1024_0_1 : (⟨S1024x1, .i32⟩ : BufTy).Contents (Elt F) → (⟨S1024x1024, .i32⟩ : BufTy).Contents (Elt F)),
    StableHlo.binary main_v20 main_v21 main_v22 (cmpi .ne : (⟨S1024x1024, .i32⟩ : BufTy).Contents (Elt F) → (⟨S1024x1024, .i32⟩ : BufTy).Contents (Elt F) → (⟨S1024x1024, .i1⟩ : BufTy).Contents (Elt F)),
    StableHlo.unary main_v22 main_v23 (uitofp .f32 : (⟨S1024x1024, .i1⟩ : BufTy).Contents (Elt F) → (⟨S1024x1024, .f32⟩ : BufTy).Contents (Elt F)),
    StableHlo.binary main_arg0 main_arg1 main_v24 (subf : (⟨S16x1024x1024x4, .f32⟩ : BufTy).Contents (Elt F) → (⟨S16x1024x1024x4, .f32⟩ : BufTy).Contents (Elt F) → (⟨S16x1024x1024x4, .f32⟩ : BufTy).Contents (Elt F)),
    StableHlo.binary main_v24 main_v24 main_v25 (mulf : (⟨S16x1024x1024x4, .f32⟩ : BufTy).Contents (Elt F) → (⟨S16x1024x1024x4, .f32⟩ : BufTy).Contents (Elt F) → (⟨S16x1024x1024x4, .f32⟩ : BufTy).Contents (Elt F)),
    StableHlo.unary main_v25 main_v26 ((extractStridedSlice S16x1024x1024x1 ![0, 0, 0, 0] · slices_S16x1024x1024x4_S16x1024x1024x1_0_0_0_0) : (⟨S16x1024x1024x4, .f32⟩ : BufTy).Contents (Elt F) → (⟨S16x1024x1024x1, .f32⟩ : BufTy).Contents (Elt F)),
    StableHlo.reshape main_v26 main_v27 rfl shapeCasts_S16x1024x1024x1_S16x1024x1024,
    StableHlo.unary main_v25 main_v28 ((extractStridedSlice S16x1024x1024x1 ![0, 0, 0, 1] · slices_S16x1024x1024x4_S16x1024x1024x1_0_0_0_1) : (⟨S16x1024x1024x4, .f32⟩ : BufTy).Contents (Elt F) → (⟨S16x1024x1024x1, .f32⟩ : BufTy).Contents (Elt F)),
    StableHlo.reshape main_v28 main_v29 rfl shapeCasts_S16x1024x1024x1_S16x1024x1024,
    StableHlo.binary main_v27 main_v29 main_v30 (addf : (⟨S16x1024x1024, .f32⟩ : BufTy).Contents (Elt F) → (⟨S16x1024x1024, .f32⟩ : BufTy).Contents (Elt F) → (⟨S16x1024x1024, .f32⟩ : BufTy).Contents (Elt F)),
    StableHlo.unary main_v25 main_v31 ((extractStridedSlice S16x1024x1024x1 ![0, 0, 0, 2] · slices_S16x1024x1024x4_S16x1024x1024x1_0_0_0_2) : (⟨S16x1024x1024x4, .f32⟩ : BufTy).Contents (Elt F) → (⟨S16x1024x1024x1, .f32⟩ : BufTy).Contents (Elt F)),
    StableHlo.reshape main_v31 main_v32 rfl shapeCasts_S16x1024x1024x1_S16x1024x1024,
    StableHlo.unary main_v25 main_v33 ((extractStridedSlice S16x1024x1024x1 ![0, 0, 0, 3] · slices_S16x1024x1024x4_S16x1024x1024x1_0_0_0_3) : (⟨S16x1024x1024x4, .f32⟩ : BufTy).Contents (Elt F) → (⟨S16x1024x1024x1, .f32⟩ : BufTy).Contents (Elt F)),
    StableHlo.reshape main_v33 main_v34 rfl shapeCasts_S16x1024x1024x1_S16x1024x1024,
    StableHlo.binary main_v32 main_v34 main_v35 (addf : (⟨S16x1024x1024, .f32⟩ : BufTy).Contents (Elt F) → (⟨S16x1024x1024, .f32⟩ : BufTy).Contents (Elt F) → (⟨S16x1024x1024, .f32⟩ : BufTy).Contents (Elt F)),
    StableHlo.unary main_v23 main_v36 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v36 main_v37 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    StableHlo.binary main_v30 main_v37 main_v38 (mulf : (⟨S16x1024x1024, .f32⟩ : BufTy).Contents (Elt F) → (⟨S16x1024x1024, .f32⟩ : BufTy).Contents (Elt F) → (⟨S16x1024x1024, .f32⟩ : BufTy).Contents (Elt F)),
    StableHlo.nullary main_cst (constant S_ .f32 0x00000000#32),
    StableHlo.binary main_v38 main_cst main_v39 ((fun x v => Host.reduceAdd x v reducesTo_S16x1024x1024_S_d0_1_2 h_S_) : (⟨S16x1024x1024, .f32⟩ : BufTy).Contents (Elt F) → (⟨S_, .f32⟩ : BufTy).Contents (Elt F) → (⟨S_, .f32⟩ : BufTy).Contents (Elt F)),
    StableHlo.unary main_v23 main_v40 (broadcastInDim S1x1024x1024 ![1, 2] bcast_S1024x1024_S1x1024x1024_1_2 : (⟨S1024x1024, .f32⟩ : BufTy).Contents (Elt F) → (⟨S1x1024x1024, .f32⟩ : BufTy).Contents (Elt F)),
    StableHlo.unary main_v40 main_v41 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    StableHlo.binary main_v35 main_v41 main_v42 (mulf : (⟨S16x1024x1024, .f32⟩ : BufTy).Contents (Elt F) → (⟨S16x1024x1024, .f32⟩ : BufTy).Contents (Elt F) → (⟨S16x1024x1024, .f32⟩ : BufTy).Contents (Elt F)),
    StableHlo.nullary main_cst_6 (constant S_ .f32 0x00000000#32),
    StableHlo.binary main_v42 main_cst_6 main_v43 ((fun x v => Host.reduceAdd x v reducesTo_S16x1024x1024_S_d0_1_2 h_S_) : (⟨S16x1024x1024, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v30 main_cst_7 main_v44 ((fun x v => Host.reduceAdd x v reducesTo_S16x1024x1024_S_d0_1_2 h_S_) : (⟨S16x1024x1024, .f32⟩ : BufTy).Contents (Elt F) → (⟨S_, .f32⟩ : BufTy).Contents (Elt F) → (⟨S_, .f32⟩ : BufTy).Contents (Elt F)),
    StableHlo.binary main_v44 main_v39 main_v45 (subf : (⟨S_, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.binary main_v35 main_cst_8 main_v46 ((fun x v => Host.reduceAdd x v reducesTo_S16x1024x1024_S_d0_1_2 h_S_) : (⟨S16x1024x1024, .f32⟩ : BufTy).Contents (Elt F) → (⟨S_, .f32⟩ : BufTy).Contents (Elt F) → (⟨S_, .f32⟩ : BufTy).Contents (Elt F)),
    StableHlo.binary main_v46 main_v43 main_v47 (subf : (⟨S_, .f32⟩ : BufTy).Contents (Elt F) → (⟨S_, .f32⟩ : BufTy).Contents (Elt F) → (⟨S_, .f32⟩ : BufTy).Contents (Elt F)) ]

theorem opsMid_sub : (opsMid : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., binary_bufs_sub .., nullary_bufs_sub .., binary_bufs_sub .., unary_bufs_sub .., unary_bufs_sub .., binary_bufs_sub .., nullary_bufs_sub .., binary_bufs_sub .., nullary_bufs_sub .., binary_bufs_sub .., binary_bufs_sub .., nullary_bufs_sub .., binary_bufs_sub .., binary_bufs_sub ..⟩
/-- The squared difference of the two inputs (%24, %25). -/
noncomputable def sqd (a0 a1 : FVec F S16x1024x1024x4 .f32) : FVec F S16x1024x1024x4 .f32 :=
  let v24 : FVec F S16x1024x1024x4 .f32 := subf a0 a1
  mulf v24 v24

/-- Channel `c` of the squared difference as a [16, 1024, 1024] array (a slice of width one along the last axis, reshaped). -/
noncomputable def chan (a0 a1 : FVec F S16x1024x1024x4 .f32) (off : Fin 4 → Nat) (h : S16x1024x1024x4.Slices off S16x1024x1024x1) :
    FVec F S16x1024x1024 .f32 :=
  shapeCast S16x1024x1024 (extractStridedSlice S16x1024x1024x1 off (sqd a0 a1) h) shapeCasts_S16x1024x1024x1_S16x1024x1024

/-- The t pair summed channelwise (%30): channel 0 plus channel 1. -/
noncomputable def pairT (a0 a1 : FVec F S16x1024x1024x4 .f32) : FVec F S16x1024x1024 .f32 :=
  addf (chan a0 a1 ![0, 0, 0, 0] slices_S16x1024x1024x4_S16x1024x1024x1_0_0_0_0)
    (chan a0 a1 ![0, 0, 0, 1] slices_S16x1024x1024x4_S16x1024x1024x1_0_0_0_1)

/-- The s pair summed channelwise (%35): channel 2 plus channel 3. -/
noncomputable def pairS (a0 a1 : FVec F S16x1024x1024x4 .f32) : FVec F S16x1024x1024 .f32 :=
  addf (chan a0 a1 ![0, 0, 0, 2] slices_S16x1024x1024x4_S16x1024x1024x1_0_0_0_2)
    (chan a0 a1 ![0, 0, 0, 3] slices_S16x1024x1024x4_S16x1024x1024x1_0_0_0_3)

/-- The different-view mask as a float array over (row token, column token) (%18 … %23): the view ids along the columns
    against the view ids along the rows, `ne`, converted. -/
noncomputable def mask (v : IVec S1024 32) : FVec F S1024x1024 .f32 :=
  let v18 : IVec S1x1024 32 := broadcastInDim S1x1024 ![1] bcast_S1024_S1x1024_1 v
  let v19 : IVec S1024x1 32 := broadcastInDim S1024x1 ![0] bcast_S1024_S1024x1_0 v
  let v20 : IVec S1024x1024 32 := broadcastInDim S1024x1024 ![0, 1] bcast_S1x1024_S1024x1024_0_1 v18
  let v21 : IVec S1024x1024 32 := broadcastInDim S1024x1024 ![0, 1] bcast_S1024x1_S1024x1024_0_1 v19
  let v22 : IVec S1024x1024 1 := cmpi .ne v20 v21
  uitofp .f32 v22

/-- The mask repeated over the 16 batches (%36, %37; again %40, %41). -/
noncomputable def mask3 (v : IVec S1024 32) : FVec F S16x1024x1024 .f32 :=
  broadcastInDim S16x1024x1024 ![0, 1, 2] bcast_S1x1024x1024_S16x1024x1024_0_1_2
    (broadcastInDim S1x1024x1024 ![1, 2] bcast_S1024x1024_S1x1024x1024_1_2 (mask (F := F) v))

/-- %44: the t pair summed over every batch and token pair. -/
noncomputable def totT (a0 a1 : FVec F S16x1024x1024x4 .f32) : FVec F S_ .f32 :=
  Host.reduceAdd (pairT a0 a1) (constant S_ .f32 0x00000000#32) reducesTo_S16x1024x1024_S_d0_1_2 h_S_

/-- %46: the s pair summed over every batch and token pair. -/
noncomputable def totS (a0 a1 : FVec F S16x1024x1024x4 .f32) : FVec F S_ .f32 :=
  Host.reduceAdd (pairS a0 a1) (constant S_ .f32 0x00000000#32) reducesTo_S16x1024x1024_S_d0_1_2 h_S_

/-- %39: the t pair weighted by the different-view mask, summed. -/
noncomputable def interT (a0 a1 : FVec F S16x1024x1024x4 .f32) (v : IVec S1024 32) : FVec F S_ .f32 :=
  Host.reduceAdd (mulf (pairT a0 a1) (mask3 v)) (constant S_ .f32 0x00000000#32) reducesTo_S16x1024x1024_S_d0_1_2 h_S_

/-- %43: the s pair weighted by the different-view mask, summed. -/
noncomputable def interS (a0 a1 : FVec F S16x1024x1024x4 .f32) (v : IVec S1024 32) : FVec F S_ .f32 :=
  Host.reduceAdd (mulf (pairS a0 a1) (mask3 v)) (constant S_ .f32 0x00000000#32) reducesTo_S16x1024x1024_S_d0_1_2 h_S_

/-! ## What the stretch leaves in its result buffers -/

set_option maxRecDepth 8192 in
set_option maxHeartbeats 1000000 in
/-- %39: the t pair weighted by the mask, summed. -/
theorem mid_v39 (W : Valuation τ sig (Elt F)) :
    after opsMid W (main_v39 : DevRef τ sig)
      = interT (W (main_arg0 : DevRef τ sig)) (W (main_arg1 : DevRef τ sig)) (W (main_v17 : DevRef τ sig)) := by
  after_results_simp
  rfl

set_option maxRecDepth 8192 in
set_option maxHeartbeats 1000000 in
/-- %43: the s pair weighted by the mask, summed. -/
theorem mid_v43 (W : Valuation τ sig (Elt F)) :
    after opsMid W (main_v43 : DevRef τ sig)
      = interS (W (main_arg0 : DevRef τ sig)) (W (main_arg1 : DevRef τ sig)) (W (main_v17 : DevRef τ sig)) := by
  after_results_simp
  rfl

set_option maxRecDepth 8192 in
set_option maxHeartbeats 1000000 in
/-- %45: the t pair's total minus its different-view part. -/
theorem mid_v45 (W : Valuation τ sig (Elt F)) :
    after opsMid W (main_v45 : DevRef τ sig)
      = subf (totT (W (main_arg0 : DevRef τ sig)) (W (main_arg1 : DevRef τ sig)))
          (interT (W (main_arg0 : DevRef τ sig)) (W (main_arg1 : DevRef τ sig)) (W (main_v17 : DevRef τ sig))) := by
  after_results_simp
  rfl

set_option maxRecDepth 8192 in
set_option maxHeartbeats 1000000 in
/-- %47: the s pair's total minus its different-view part. -/
theorem mid_v47 (W : Valuation τ sig (Elt F)) :
    after opsMid W (main_v47 : DevRef τ sig)
      = subf (totS (W (main_arg0 : DevRef τ sig)) (W (main_arg1 : DevRef τ sig)))
          (interS (W (main_arg0 : DevRef τ sig)) (W (main_arg1 : DevRef τ sig)) (W (main_v17 : DevRef τ sig))) := by
  after_results_simp
  rfl

set_option maxRecDepth 8192 in
/-- No operation of the stretch writes argument 0. -/
theorem mid_arg0 (W : Valuation τ sig (Elt F)) :
    after opsMid W (main_arg0 : DevRef τ sig) = W (main_arg0 : DevRef τ sig) := by
  after_results_simp

set_option maxRecDepth 8192 in
/-- No operation of the stretch writes argument 1. -/
theorem mid_arg1 (W : Valuation τ sig (Elt F)) :
    after opsMid W (main_arg1 : DevRef τ sig) = W (main_arg1 : DevRef τ sig) := by
  after_results_simp

set_option maxRecDepth 8192 in
/-- No operation of the stretch writes argument 2. -/
theorem mid_arg2 (W : Valuation τ sig (Elt F)) :
    after opsMid W (main_arg2 : DevRef τ sig) = W (main_arg2 : DevRef τ sig) := by
  after_results_simp

end Cert.ReferenceIdeal.HRun

end
-- ==== Proof.RefTail.lean ====
/-
  The reference's last stretch, operations %48 … %74: from the four sums and the view sizes, the seven outputs.

  `Σ ms²` converted to a float counts the same-view token pairs of one batch; times 16 it normalises the same-view
  sums, and `2²⁰ − Σ ms²` times 16 the different-view sums. The four quotients, the t and s combinations
  `½·inter + ½·intra` and `¾·inter + ¼·intra`, and the mean of those two are each broadcast to one element and
  concatenated. What the stretch leaves in %74 is that term of what it found in %45, %47, %39, %43 and argument 2, and
  it writes no argument.
-/
import proofs.«402724_j74560632258756_3_alg».proof.Proof.Gen.ReferenceIdeal
import Idealize.ShloMosaic.Lib.StableHlo.Run

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- Operations %48 … %74, in order. -/
abbrev opsTail : List (HloOp τ sig (Elt F)) :=
  [ StableHlo.binary main_arg2 main_arg2 main_v48 (muli : (⟨S4, .i32⟩ : BufTy).Contents (Elt F) → (⟨S4, .i32⟩ : BufTy).Contents (Elt F) → (⟨S4, .i32⟩ : BufTy).Contents (Elt F)),
    StableHlo.nullary main_c_9 (constantI S_ 32 0#32),
    StableHlo.binary main_v48 main_c_9 main_v49 ((fun x v => Host.reduce IntOp.addi x v reducesTo_S4_S_d0 h_S_) : (⟨S4, .i32⟩ : BufTy).Contents (Elt F) → (⟨S_, .i32⟩ : BufTy).Contents (Elt F) → (⟨S_, .i32⟩ : BufTy).Contents (Elt F)),
    StableHlo.unary main_v49 main_v50 (sitofp .f32 : (⟨S_, .i32⟩ : BufTy).Contents (Elt F) → (⟨S_, .f32⟩ : BufTy).Contents (Elt F)),
    StableHlo.nullary main_cst_10 (constant S_ .f32 0x41800000#32),
    StableHlo.binary main_v50 main_cst_10 main_v51 (mulf : (⟨S_, .f32⟩ : BufTy).Contents (Elt F) → (⟨S_, .f32⟩ : BufTy).Contents (Elt F) → (⟨S_, .f32⟩ : BufTy).Contents (Elt F)),
    StableHlo.nullary main_cst_11 (constant S_ .f32 0x49800000#32),
    StableHlo.binary main_cst_11 main_v50 main_v52 (subf : (⟨S_, .f32⟩ : BufTy).Contents (Elt F) → (⟨S_, .f32⟩ : BufTy).Contents (Elt F) → (⟨S_, .f32⟩ : BufTy).Contents (Elt F)),
    StableHlo.nullary main_cst_12 (constant S_ .f32 0x41800000#32),
    StableHlo.binary main_v52 main_cst_12 main_v53 (mulf : (⟨S_, .f32⟩ : BufTy).Contents (Elt F) → (⟨S_, .f32⟩ : BufTy).Contents (Elt F) → (⟨S_, .f32⟩ : BufTy).Contents (Elt F)),
    StableHlo.binary main_v45 main_v51 main_v54 (Host.divf : (⟨S_, .f32⟩ : BufTy).Contents (Elt F) → (⟨S_, .f32⟩ : BufTy).Contents (Elt F) → (⟨S_, .f32⟩ : BufTy).Contents (Elt F)),
    StableHlo.binary main_v47 main_v51 main_v55 (Host.divf : (⟨S_, .f32⟩ : BufTy).Contents (Elt F) → (⟨S_, .f32⟩ : BufTy).Contents (Elt F) → (⟨S_, .f32⟩ : BufTy).Contents (Elt F)),
    StableHlo.binary main_v39 main_v53 main_v56 (Host.divf : (⟨S_, .f32⟩ : BufTy).Contents (Elt F) → (⟨S_, .f32⟩ : BufTy).Contents (Elt F) → (⟨S_, .f32⟩ : BufTy).Contents (Elt F)),
    StableHlo.binary main_v43 main_v53 main_v57 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0x3F000000#32),
    StableHlo.binary main_cst_13 main_v56 main_v58 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x3F000000#32),
    StableHlo.binary main_cst_14 main_v54 main_v59 (mulf : (⟨S_, .f32⟩ : BufTy).Contents (Elt F) → (⟨S_, .f32⟩ : BufTy).Contents (Elt F) → (⟨S_, .f32⟩ : BufTy).Contents (Elt F)),
    StableHlo.binary main_v58 main_v59 main_v60 (addf : (⟨S_, .f32⟩ : BufTy).Contents (Elt F) → (⟨S_, .f32⟩ : BufTy).Contents (Elt F) → (⟨S_, .f32⟩ : BufTy).Contents (Elt F)),
    StableHlo.nullary main_cst_15 (constant S_ .f32 0x3F400000#32),
    StableHlo.binary main_cst_15 main_v57 main_v61 (mulf : (⟨S_, .f32⟩ : BufTy).Contents (Elt F) → (⟨S_, .f32⟩ : BufTy).Contents (Elt F) → (⟨S_, .f32⟩ : BufTy).Contents (Elt F)),
    StableHlo.nullary main_cst_16 (constant S_ .f32 0x3E800000#32),
    StableHlo.binary main_cst_16 main_v55 main_v62 (mulf : (⟨S_, .f32⟩ : BufTy).Contents (Elt F) → (⟨S_, .f32⟩ : BufTy).Contents (Elt F) → (⟨S_, .f32⟩ : BufTy).Contents (Elt F)),
    StableHlo.binary main_v61 main_v62 main_v63 (addf : (⟨S_, .f32⟩ : BufTy).Contents (Elt F) → (⟨S_, .f32⟩ : BufTy).Contents (Elt F) → (⟨S_, .f32⟩ : BufTy).Contents (Elt F)),
    StableHlo.nullary main_cst_17 (constant S_ .f32 0x3F000000#32),
    StableHlo.binary main_cst_17 main_v60 main_v64 (mulf : (⟨S_, .f32⟩ : BufTy).Contents (Elt F) → (⟨S_, .f32⟩ : BufTy).Contents (Elt F) → (⟨S_, .f32⟩ : BufTy).Contents (Elt F)),
    StableHlo.nullary main_cst_18 (constant S_ .f32 0x3F000000#32),
    StableHlo.binary main_cst_18 main_v63 main_v65 (mulf : (⟨S_, .f32⟩ : BufTy).Contents (Elt F) → (⟨S_, .f32⟩ : BufTy).Contents (Elt F) → (⟨S_, .f32⟩ : BufTy).Contents (Elt F)),
    StableHlo.binary main_v64 main_v65 main_v66 (addf : (⟨S_, .f32⟩ : BufTy).Contents (Elt F) → (⟨S_, .f32⟩ : BufTy).Contents (Elt F) → (⟨S_, .f32⟩ : BufTy).Contents (Elt F)),
    StableHlo.unary main_v54 main_v67 (broadcastInDim S1 ![] bcast_S_S1 : (⟨S_, .f32⟩ : BufTy).Contents (Elt F) → (⟨S1, .f32⟩ : BufTy).Contents (Elt F)),
    StableHlo.unary main_v56 main_v68 (broadcastInDim S1 ![] bcast_S_S1 : (⟨S_, .f32⟩ : BufTy).Contents (Elt F) → (⟨S1, .f32⟩ : BufTy).Contents (Elt F)),
    StableHlo.unary main_v55 main_v69 (broadcastInDim S1 ![] bcast_S_S1 : (⟨S_, .f32⟩ : BufTy).Contents (Elt F) → (⟨S1, .f32⟩ : BufTy).Contents (Elt F)),
    StableHlo.unary main_v57 main_v70 (broadcastInDim S1 ![] bcast_S_S1 : (⟨S_, .f32⟩ : BufTy).Contents (Elt F) → (⟨S1, .f32⟩ : BufTy).Contents (Elt F)),
    StableHlo.unary main_v60 main_v71 (broadcastInDim S1 ![] bcast_S_S1 : (⟨S_, .f32⟩ : BufTy).Contents (Elt F) → (⟨S1, .f32⟩ : BufTy).Contents (Elt F)),
    StableHlo.unary main_v63 main_v72 (broadcastInDim S1 ![] bcast_S_S1 : (⟨S_, .f32⟩ : BufTy).Contents (Elt F) → (⟨S1, .f32⟩ : BufTy).Contents (Elt F)),
    StableHlo.unary main_v66 main_v73 (broadcastInDim S1 ![] bcast_S_S1 : (⟨S_, .f32⟩ : BufTy).Contents (Elt F) → (⟨S1, .f32⟩ : BufTy).Contents (Elt F)),
    StableHlo.nary ![main_v67, main_v68, main_v69, main_v70, main_v71, main_v72, main_v73] main_v74 (fun u => concatenate S7 0 [⟨S1, u 0⟩, ⟨S1, u 1⟩, ⟨S1, u 2⟩, ⟨S1, u 3⟩, ⟨S1, u 4⟩, ⟨S1, u 5⟩, ⟨S1, u 6⟩] concatenates_S1_S1_S1_S1_S1_S1_S1_S7_d0) ]

theorem opsTail_sub : (opsTail : List (HloOp τ sig (Elt F))).Forall fun op => op.bufs ⊆ tcRefs τ sig :=
  ⟨binary_bufs_sub .., nullary_bufs_sub .., binary_bufs_sub .., unary_bufs_sub .., nullary_bufs_sub .., binary_bufs_sub .., nullary_bufs_sub .., binary_bufs_sub .., nullary_bufs_sub .., binary_bufs_sub .., binary_bufs_sub .., binary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., nullary_bufs_sub .., binary_bufs_sub .., nullary_bufs_sub .., binary_bufs_sub .., binary_bufs_sub .., unary_bufs_sub .., unary_bufs_sub .., unary_bufs_sub .., unary_bufs_sub .., unary_bufs_sub .., unary_bufs_sub .., unary_bufs_sub .., nary_bufs_sub ..⟩

/-! ## The value, operation by operation -/

/-- The seven outputs from the four sums (operations %48 … %74): the same-view and different-view pair counts from
    `Σ ms²`, the four normalised losses, their weighted combinations, concatenated. -/
noncomputable def lossOf (intraT intraS interT interS : FVec F S_ .f32) (ms : IVec S4 32) : FVec F S7 .f32 :=
  let v48 : IVec S4 32 := muli ms ms
  let c_9 : IVec S_ 32 := constantI S_ 32 0#32
  let v49 : IVec S_ 32 := Host.reduce IntOp.addi v48 c_9 reducesTo_S4_S_d0 h_S_
  let v50 : FVec F S_ .f32 := sitofp .f32 v49
  let cst_10 : FVec F S_ .f32 := constant S_ .f32 0x41800000#32
  let v51 : FVec F S_ .f32 := mulf v50 cst_10
  let cst_11 : FVec F S_ .f32 := constant S_ .f32 0x49800000#32
  let v52 : FVec F S_ .f32 := subf cst_11 v50
  let cst_12 : FVec F S_ .f32 := constant S_ .f32 0x41800000#32
  let v53 : FVec F S_ .f32 := mulf v52 cst_12
  let v54 : FVec F S_ .f32 := Host.divf intraT v51
  let v55 : FVec F S_ .f32 := Host.divf intraS v51
  let v56 : FVec F S_ .f32 := Host.divf interT v53
  let v57 : FVec F S_ .f32 := Host.divf interS v53
  let cst_13 : FVec F S_ .f32 := constant S_ .f32 0x3F000000#32
  let v58 : FVec F S_ .f32 := mulf cst_13 v56
  let cst_14 : FVec F S_ .f32 := constant S_ .f32 0x3F000000#32
  let v59 : FVec F S_ .f32 := mulf cst_14 v54
  let v60 : FVec F S_ .f32 := addf v58 v59
  let cst_15 : FVec F S_ .f32 := constant S_ .f32 0x3F400000#32
  let v61 : FVec F S_ .f32 := mulf cst_15 v57
  let cst_16 : FVec F S_ .f32 := constant S_ .f32 0x3E800000#32
  let v62 : FVec F S_ .f32 := mulf cst_16 v55
  let v63 : FVec F S_ .f32 := addf v61 v62
  let cst_17 : FVec F S_ .f32 := constant S_ .f32 0x3F000000#32
  let v64 : FVec F S_ .f32 := mulf cst_17 v60
  let cst_18 : FVec F S_ .f32 := constant S_ .f32 0x3F000000#32
  let v65 : FVec F S_ .f32 := mulf cst_18 v63
  let v66 : FVec F S_ .f32 := addf v64 v65
  let v67 : FVec F S1 .f32 := broadcastInDim S1 ![] bcast_S_S1 v54
  let v68 : FVec F S1 .f32 := broadcastInDim S1 ![] bcast_S_S1 v56
  let v69 : FVec F S1 .f32 := broadcastInDim S1 ![] bcast_S_S1 v55
  let v70 : FVec F S1 .f32 := broadcastInDim S1 ![] bcast_S_S1 v57
  let v71 : FVec F S1 .f32 := broadcastInDim S1 ![] bcast_S_S1 v60
  let v72 : FVec F S1 .f32 := broadcastInDim S1 ![] bcast_S_S1 v63
  let v73 : FVec F S1 .f32 := broadcastInDim S1 ![] bcast_S_S1 v66
  concatenate S7 0 [⟨S1, v67⟩, ⟨S1, v68⟩, ⟨S1, v69⟩, ⟨S1, v70⟩, ⟨S1, v71⟩, ⟨S1, v72⟩, ⟨S1, v73⟩]
    concatenates_S1_S1_S1_S1_S1_S1_S1_S7_d0

section Nary7
variable {nD' : Nat} {τ' : Topo} {sig' : RefSig} {Val : EltTy → Type}
variable {x0 x1 x2 x3 x4 x5 x6 y : Ref sig' .tc}

/-- A seven-operand operation's result with each operand's contents read at its own reference. -/
theorem nary7_result
    (f : ((k : Fin 7) → ((![x0, x1, x2, x3, x4, x5, x6] : Fin 7 → Ref sig' .tc) k).ty.Contents Val) → y.ty.Contents Val) (hxs hy)
    (G : Valuation τ' sig' Val) :
    (nary (τ := τ') ![x0, x1, x2, x3, x4, x5, x6] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (fun i => i.elim0)))))))) := by
  rw [nary_result]; congr 1; funext k; fin_cases k <;> rfl

theorem nary7_result'
    (f : ((k : Fin 7) → ((![x0, x1, x2, x3, x4, x5, x6] : Fin 7 → Ref sig' .tc) k).ty.Contents Val) → y.ty.Contents Val) (hxs hy)
    (G : Valuation τ' sig' Val) :
    (nary (τ := τ') ![x0, x1, x2, x3, x4, x5, x6] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (fun i => i.elim0)))))))) :=
  nary7_result f hxs hy G
end Nary7

/-- The fold's results by one pass, a seven-operand operation's operands each read at its own reference. -/
macro "after_results7" : tactic =>
  `(tactic| (simp (disch := decide) only [after_cons, after_nil,
      nullary_result', unary_result', binary_result', ternary_result', reshape_result', nary7_result',
      nullary_result_ne', unary_result_ne', binary_result_ne', ternary_result_ne', reshape_result_ne', nary_result_ne']))

/-! ## What the stretch leaves in %74 -/

set_option maxRecDepth 8192 in
set_option maxHeartbeats 1000000 in
/-- %74: the seven outputs. -/
theorem tail_v74 (W : Valuation τ sig (Elt F)) :
    after opsTail W (main_v74 : DevRef τ sig)
      = lossOf (W (main_v45 : DevRef τ sig)) (W (main_v47 : DevRef τ sig)) (W (main_v39 : DevRef τ sig))
          (W (main_v43 : DevRef τ sig)) (W (main_arg2 : DevRef τ sig)) := by
  after_results7
  rfl

set_option maxRecDepth 8192 in
/-- No operation of the stretch writes argument 0. -/
theorem tail_arg0 (W : Valuation τ sig (Elt F)) :
    after opsTail W (main_arg0 : DevRef τ sig) = W (main_arg0 : DevRef τ sig) := by
  after_results_simp

set_option maxRecDepth 8192 in
/-- No operation of the stretch writes argument 1. -/
theorem tail_arg1 (W : Valuation τ sig (Elt F)) :
    after opsTail W (main_arg1 : DevRef τ sig) = W (main_arg1 : DevRef τ sig) := by
  after_results_simp

set_option maxRecDepth 8192 in
/-- No operation of the stretch writes argument 2. -/
theorem tail_arg2 (W : Valuation τ sig (Elt F)) :
    after opsTail W (main_arg2 : DevRef τ sig) = W (main_arg2 : DevRef τ sig) := by
  after_results_simp

end Cert.ReferenceIdeal.HRun

end
-- ==== Proof.RefRun.lean ====
/-
  The reference's run. @main is the straight line of its 123 operations — the three stretches one after the other,
  the outlined functions' operations at their call sites — so every weakly fair execution terminates with each
  buffer at the fold of the operations' results over what the launch put there. At the result buffer that fold is
  `refOut` of the three arguments' launch contents: the last stretch's term of the middle stretch's four sums, those
  of the first stretch's view ids. The arguments are written by no operation.
-/
import proofs.«402724_j74560632258756_3_alg».proof.Proof.Gen.ReferenceIdeal
import Idealize.ShloMosaic.Lib.StableHlo.Run
import proofs.«402724_j74560632258756_3_alg».proof.Proof.RefPre
import proofs.«402724_j74560632258756_3_alg».proof.Proof.RefMid
import proofs.«402724_j74560632258756_3_alg».proof.Proof.RefTail

noncomputable section

namespace Cert.ReferenceIdeal.HRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's 123 operations, in order. -/
abbrev ops : List (HloOp τ sig (Elt F)) := opsPre ++ (opsMid ++ opsTail)

attribute [local irreducible] Host.reduce Host.reduceWindow Host.gather Host.scatter Host.reduceAdd in
set_option maxRecDepth 8192 in
set_option maxHeartbeats 4000000 in
/-- @main is that straight line: a call is its callee's operations, and sequencing is associative. The host's folds
    and searches stay folded while the two sides are compared: the equation never looks inside them. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsPre_sub op h
    · rcases List.mem_append.mp h with h | h
      · exact List.forall_iff_forall_mem.mp opsMid_sub op h
      · exact List.forall_iff_forall_mem.mp opsTail_sub op h

theorem opsPre_fresh : ∀ op ∈ (opsPre : List (HloOp τ sig (Elt F))), op.fresh = ∅ := by
  intro _ h; (repeat (cases h with | head => rfl | tail _ h => ?_)); exact nomatch h
theorem opsMid_fresh : ∀ op ∈ (opsMid : List (HloOp τ sig (Elt F))), op.fresh = ∅ := by
  intro _ h; (repeat (cases h with | head => rfl | tail _ h => ?_)); exact nomatch h
theorem opsTail_fresh : ∀ op ∈ (opsTail : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := fun op h => by
  rcases List.mem_append.mp h with h | h
  · exact opsPre_fresh op h
  · rcases List.mem_append.mp h with h | h
    · exact opsMid_fresh op h
    · exact opsTail_fresh op h

/-- What @main leaves in %74 from its three arguments' contents. -/
noncomputable def refOut (a0 a1 : FVec F S16x1024x1024x4 .f32) (ms : IVec S4 32) : FVec F S7 .f32 :=
  lossOf (subf (totT a0 a1) (interT a0 a1 (vids ms))) (subf (totS a0 a1) (interS a0 a1 (vids ms)))
    (interT a0 a1 (vids ms)) (interS a0 a1 (vids ms)) ms

/-- The fold at the result buffer: the three stretches' terms composed. -/
theorem out_eq (V : Valuation τ sig (Elt F)) :
    after ops V (main_v74 : DevRef τ sig)
      = refOut (V (main_arg0 : DevRef τ sig)) (V (main_arg1 : DevRef τ sig)) (V (main_arg2 : DevRef τ sig)) := by
  show after (opsPre ++ (opsMid ++ opsTail)) V _ = _
  rw [after_append, after_append, tail_v74, mid_v45, mid_v47, mid_v39, mid_v43, mid_arg2, pre_v17, pre_arg0, pre_arg1,
    pre_arg2]
  rfl

theorem arg0_eq (V : Valuation τ sig (Elt F)) :
    after ops V (main_arg0 : DevRef τ sig) = V (main_arg0 : DevRef τ sig) := by
  show after (opsPre ++ (opsMid ++ opsTail)) V _ = _
  rw [after_append, after_append, tail_arg0, mid_arg0, pre_arg0]

theorem arg1_eq (V : Valuation τ sig (Elt F)) :
    after ops V (main_arg1 : DevRef τ sig) = V (main_arg1 : DevRef τ sig) := by
  show after (opsPre ++ (opsMid ++ opsTail)) V _ = _
  rw [after_append, after_append, tail_arg1, mid_arg1, pre_arg1]

theorem arg2_eq (V : Valuation τ sig (Elt F)) :
    after ops V (main_arg2 : DevRef τ sig) = V (main_arg2 : DevRef τ sig) := by
  show after (opsPre ++ (opsMid ++ opsTail)) V _ = _
  rw [after_append, after_append, tail_arg2, mid_arg2, pre_arg2]

/-- On every device, for any float values, from any memory with zero counters: every weakly fair execution of @main
    terminates with the result at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v74).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ (fun _ => ops_fresh))

end Cert.ReferenceIdeal.HRun

end
-- ==== Proof.RefRead.lean ====
/-
  The reference's four sums read at the extended reals.

  At an index (b, i, j) the reshaped slice of channel `c` is the squared difference at (b, i, j, c); the mask is 1 where
  the column token's view id differs from the row token's, which is `diffView` at (i, j) since inequality is
  symmetric; a sum into rank zero from the zero constant is the sum over every index, and a sum over the indices of a
  [16, 1024, 1024] array is the triple sum over its coordinates. So the four sums are the specification's.
-/
import proofs.«402724_j74560632258756_3_alg».proof.Proof.RefMid
import proofs.«402724_j74560632258756_3_alg».proof.Proof.Spec
import Idealize.ShloMosaic.Lib.ValueIdx
import Idealize.ShloMosaic.Lib.Pipeline.Value
import Idealize.ShloMosaic.PureOps.Ideal.Laws

noncomputable section

namespace Cert.ReferenceIdeal.HRun

open Cert.ReferenceIdeal Idealize.ShloMosaic Idealize.ShloMosaic.ValueIdx
open Cert.ReferenceIdeal.Facts₀ Cert.ReferenceIdeal.Facts

/-! ## A sum over a rank-3 index set, coordinate by coordinate -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The reference's arrays read at an index -/

/-- The squared difference at (b, i, j, c). -/
theorem sqd_apply (a0 a1 : FVec Ideal S16x1024x1024x4 .f32) (b : Fin 16) (i j : Fin 1024) (c : Fin 4) :
    sqd a0 a1 (ix4 b i j c) = Cert.Spec.sq a0 a1 b i j c := rfl

/-- Channel `c` at (b, i, j): the reshape reads the slice at (b, i, j, 0), the slice reads the squared difference at
    (b, i, j, c). -/
theorem chan_apply (a0 a1 : FVec Ideal S16x1024x1024x4 .f32) (off : Fin 4 → Nat)
    (h : S16x1024x1024x4.Slices off S16x1024x1024x1) (c : Fin 4)
    (h0 : off 0 = 0) (h1 : off 1 = 0) (h2 : off 2 = 0) (h3 : off 3 = c.val) (b : Fin 16) (i j : Fin 1024) :
    chan a0 a1 off h (ix3 b i j) = Cert.Spec.sq a0 a1 b i j c := by
  unfold chan
  rw [shapeCast_apply _ _ (ix3 b i j) (ix4 b i j (0 : Fin 1)) (by
    rw [Shape.rowMajor_val_four, Shape.rowMajor_val_three]
    show ((b.val * 1024 + i.val) * 1024 + j.val) * 1 + 0 = (b.val * 1024 + i.val) * 1024 + j.val
    omega)]
  rw [extractStridedSlice_apply off _ h (ix4 b i j (0 : Fin 1)) (ix4 b i j c) (fun a =>
    match a with
    | ⟨0, _⟩ => by show b.val = off 0 + b.val; omega
    | ⟨1, _⟩ => by show i.val = off 1 + i.val; omega
    | ⟨2, _⟩ => by show j.val = off 2 + j.val; omega
    | ⟨3, _⟩ => by show c.val = off 3 + 0; omega)]
  exact sqd_apply a0 a1 b i j c

/-- The t pair at (b, i, j). -/
theorem pairT_apply (a0 a1 : FVec Ideal S16x1024x1024x4 .f32) (b : Fin 16) (i j : Fin 1024) :
    pairT a0 a1 (ix3 b i j) = Cert.Spec.sq a0 a1 b i j 0 + Cert.Spec.sq a0 a1 b i j 1 := by
  unfold pairT
  show chan a0 a1 _ _ (ix3 b i j) + chan a0 a1 _ _ (ix3 b i j) = _
  rw [chan_apply a0 a1 ![0, 0, 0, 0] _ 0 rfl rfl rfl rfl, chan_apply a0 a1 ![0, 0, 0, 1] _ 1 rfl rfl rfl rfl]

/-- The s pair at (b, i, j). -/
theorem pairS_apply (a0 a1 : FVec Ideal S16x1024x1024x4 .f32) (b : Fin 16) (i j : Fin 1024) :
    pairS a0 a1 (ix3 b i j) = Cert.Spec.sq a0 a1 b i j 2 + Cert.Spec.sq a0 a1 b i j 3 := by
  unfold pairS
  show chan a0 a1 _ _ (ix3 b i j) + chan a0 a1 _ _ (ix3 b i j) = _
  rw [chan_apply a0 a1 ![0, 0, 0, 2] _ 2 rfl rfl rfl rfl, chan_apply a0 a1 ![0, 0, 0, 3] _ 3 rfl rfl rfl rfl]

/-- The mask at (row token i, column token j): the column's view id against the row's, which is `diffView` — the
    comparison is symmetric. -/
theorem mask_apply (v : IVec S1024 32) (i j : Fin 1024) :
    mask (F := Ideal) v (ix2 i j) = Cert.Spec.diffView v i j := by
  unfold mask
  show FloatOps.uitofp (F := Ideal) .f32 (IntOp.cmpi .ne
      (broadcastInDim S1024x1024 ![0, 1] bcast_S1x1024_S1024x1024_0_1 (broadcastInDim S1x1024 ![1] bcast_S1024_S1x1024_1 v) (ix2 i j))
      (broadcastInDim S1024x1024 ![0, 1] bcast_S1024x1_S1024x1024_0_1 (broadcastInDim S1024x1 ![0] bcast_S1024_S1024x1_0 v) (ix2 i j))) = _
  rw [broadcastInDim_apply _ _ _ (ix2 i j) (ix2 (0 : Fin 1) j) (fun a =>
        match a with
        | ⟨0, _⟩ => rfl
        | ⟨1, _⟩ => rfl),
    broadcastInDim_apply _ _ _ (ix2 (0 : Fin 1) j) (ix1 j) (fun a =>
        match a with
        | ⟨0, _⟩ => rfl),
    broadcastInDim_apply _ _ _ (ix2 i j) (ix2 i (0 : Fin 1)) (fun a =>
        match a with
        | ⟨0, _⟩ => rfl
        | ⟨1, _⟩ => rfl),
    broadcastInDim_apply _ _ _ (ix2 i (0 : Fin 1)) (ix1 i) (fun a =>
        match a with
        | ⟨0, _⟩ => rfl)]
  unfold Cert.Spec.diffView
  show (((IntOp.cmpi .ne (v (ix1 j)) (v (ix1 i))).toNat : ℝ) : EReal) = _
  unfold IntOp.cmpi
  by_cases hv : v (ix1 i) = v (ix1 j)
  · rw [if_pos hv, hv]
    simp
  · rw [if_neg hv]
    have : (v (ix1 j) != v (ix1 i)) = true := by
      rw [bne_iff_ne]; exact fun e => hv e.symm
    simp [this]

/-- The mask repeated over the batches at (b, i, j). -/
theorem mask3_apply (v : IVec S1024 32) (b : Fin 16) (i j : Fin 1024) :
    mask3 (F := Ideal) v (ix3 b i j) = Cert.Spec.diffView v i j := by
  unfold mask3
  rw [broadcastInDim_apply _ _ _ (ix3 b i j) (ix3 (0 : Fin 1) i j) (fun a =>
        match a with
        | ⟨0, _⟩ => rfl
        | ⟨1, _⟩ => rfl
        | ⟨2, _⟩ => rfl),
    broadcastInDim_apply _ _ _ (ix3 (0 : Fin 1) i j) (ix2 i j) (fun a =>
        match a with
        | ⟨0, _⟩ => rfl
        | ⟨1, _⟩ => rfl)]
  exact mask_apply v i j

/-- The host's sum of a [16, 1024, 1024] array into rank zero from the zero constant: the triple sum over the coordinates. -/
theorem reduce_all (x : FVec Ideal S16x1024x1024 .f32) :
    Host.reduceAdd x (constant S_ .f32 0x00000000#32) reducesTo_S16x1024x1024_S_d0_1_2 h_S_
      = fun _ => ∑ b : Fin 16, ∑ i : Fin 1024, ∑ j : Fin 1024, x (ix3 b i j) := by
  funext k
  unfold Host.reduceAdd
  rw [Ideal.hostReduceAdd_def, Ideal.hostReduceAdd_total _ (fun b => b.elim0), sum_idx3]
  show Ideal.ofBits .f32 0x00000000#32 + _ = _
  rw [Ideal.ofBits_zero_f32, zero_add]

/-! ## The four sums -/

theorem totT_ideal (a0 a1 : FVec Ideal S16x1024x1024x4 .f32) :
    totT (F := Ideal) a0 a1 = fun _ => Cert.Spec.sumT (Cert.Spec.sq a0 a1) := by
  unfold totT Cert.Spec.sumT
  rw [reduce_all]
  funext _
  exact Finset.sum_congr rfl fun b _ => Finset.sum_congr rfl fun i _ => Finset.sum_congr rfl fun j _ => pairT_apply a0 a1 b i j

theorem totS_ideal (a0 a1 : FVec Ideal S16x1024x1024x4 .f32) :
    totS (F := Ideal) a0 a1 = fun _ => Cert.Spec.sumS (Cert.Spec.sq a0 a1) := by
  unfold totS Cert.Spec.sumS
  rw [reduce_all]
  funext _
  exact Finset.sum_congr rfl fun b _ => Finset.sum_congr rfl fun i _ => Finset.sum_congr rfl fun j _ => pairS_apply a0 a1 b i j

theorem interT_ideal (a0 a1 : FVec Ideal S16x1024x1024x4 .f32) (v : IVec S1024 32) :
    interT (F := Ideal) a0 a1 v = fun _ => Cert.Spec.interT (Cert.Spec.sq a0 a1) (Cert.Spec.diffView v) := by
  unfold interT Cert.Spec.interT
  rw [reduce_all]
  funext _
  refine Finset.sum_congr rfl fun b _ => Finset.sum_congr rfl fun i _ => Finset.sum_congr rfl fun j _ => ?_
  show pairT a0 a1 (ix3 b i j) * mask3 (F := Ideal) v (ix3 b i j) = _
  rw [pairT_apply, mask3_apply]

theorem interS_ideal (a0 a1 : FVec Ideal S16x1024x1024x4 .f32) (v : IVec S1024 32) :
    interS (F := Ideal) a0 a1 v = fun _ => Cert.Spec.interS (Cert.Spec.sq a0 a1) (Cert.Spec.diffView v) := by
  unfold interS Cert.Spec.interS
  rw [reduce_all]
  funext _
  refine Finset.sum_congr rfl fun b _ => Finset.sum_congr rfl fun i _ => Finset.sum_congr rfl fun j _ => ?_
  show pairS a0 a1 (ix3 b i j) * mask3 (F := Ideal) v (ix3 b i j) = _
  rw [pairS_apply, mask3_apply]

end Cert.ReferenceIdeal.HRun

end
-- ==== Proof.SumLaws.lean ====
/-
  The regrouping laws between the tile sums and the pair sums of Spec.lean.

  A tile row `r` and a row `i` inside it name token `512 r + i`, and every token is named once; a lane `l` names column
  `l / 4` and channel `l % 4`, and every (column, channel) pair is named once.  So a sum over (r, i, l) is a sum over
  (i, j, c), and summing the four channels of `d · w` with `w = (1, 1, 0, 0)` leaves the t pair `d 0 + d 1`.
  With `q` valued in {0, 1} the product `(d 0 + d 1) · q` distributes.  The s-pair sums appear as differences
  `Σ (d 0 + d 1 + d 2 + d 3) − Σ (d 0 + d 1)`, which cancel to `Σ (d 2 + d 3)` when every entry is a real number.
-/
import proofs.«402724_j74560632258756_3_alg».proof.Proof.Spec
import Mathlib.Data.EReal.Operations
import Mathlib.Algebra.BigOperators.Fin
import Mathlib.Algebra.BigOperators.Group.Finset.Basic
import Mathlib.Data.Fintype.BigOperators

noncomputable section

namespace Cert.Spec

open Idealize.ShloMosaic Idealize.ShloMosaic.ValueIdx

variable (d : Fin 16 → Fin 1024 → Fin 1024 → Fin 4 → EReal) (q : Fin 1024 → Fin 1024 → EReal) (w : Fin 4 → EReal)

theorem chanT_0 : chanT 0 = 1 := by simp [chanT]
theorem chanT_1 : chanT 1 = 1 := by simp [chanT]
theorem chanT_2 : chanT 2 = 0 := by simp [chanT]
theorem chanT_3 : chanT 3 = 0 := by simp [chanT]

/-- `diffView` takes the values 0 and 1 only. -/
theorem diffView_zero_or_one (vid : V1.Idx → BitVec 32) (i j : Fin 1024) : diffView vid i j = 0 ∨ diffView vid i j = 1 := by
  unfold diffView
  split
  · exact Or.inl rfl
  · exact Or.inr rfl

/-- The squared difference of real entries is real. -/
theorem sq_real (a0 a1 : A4.Idx → EReal) (h0 : ∀ i, ∃ x : ℝ, a0 i = (x : EReal)) (h1 : ∀ i, ∃ x : ℝ, a1 i = (x : EReal))
    (b : Fin 16) (i j : Fin 1024) (c : Fin 4) : ∃ x : ℝ, sq a0 a1 b i j c = (x : EReal) := by
  obtain ⟨x, hx⟩ := h0 (ix4 b i j c)
  obtain ⟨y, hy⟩ := h1 (ix4 b i j c)
  refine ⟨(x - y) * (x - y), ?_⟩
  unfold sq
  rw [hx, hy, ← EReal.coe_sub, ← EReal.coe_mul]

/-- Tokens are named once each by a tile row and a row inside it. -/
private def rowEquiv : Fin 2 × Fin 512 ≃ Fin 1024 where
  toFun p := rowOf p.1 p.2
  invFun t := (⟨t.val / 512, by omega⟩, ⟨t.val % 512, by omega⟩)
  left_inv := by
    rintro ⟨r, i⟩
    apply Prod.ext
    · apply Fin.ext
      show (512 * r.val + i.val) / 512 = r.val
      omega
    · apply Fin.ext
      show (512 * r.val + i.val) % 512 = i.val
      omega
  right_inv := by
    intro t
    apply Fin.ext
    show 512 * (t.val / 512) + t.val % 512 = t.val
    omega

/-- (Column, channel) pairs are named once each by a lane. -/
private def laneEquiv : Fin 4096 ≃ Fin 1024 × Fin 4 where
  toFun l := (colOf l, chanOf l)
  invFun p := ⟨4 * p.1.val + p.2.val, by omega⟩
  left_inv := by
    intro l
    apply Fin.ext
    show 4 * (l.val / 4) + l.val % 4 = l.val
    omega
  right_inv := by
    rintro ⟨j, c⟩
    apply Prod.ext
    · apply Fin.ext
      show (4 * j.val + c.val) / 4 = j.val
      omega
    · apply Fin.ext
      show (4 * j.val + c.val) % 4 = c.val
      omega

/-- A sum over the lanes is a sum over the columns of the four channels. -/
private theorem sum_lane (G : Fin 1024 → Fin 4 → EReal) :
    ∑ l : Fin 4096, G (colOf l) (chanOf l) = ∑ j : Fin 1024, (G j 0 + G j 1 + G j 2 + G j 3) := by
  rw [Fintype.sum_equiv laneEquiv (fun l => G (colOf l) (chanOf l)) (fun p => G p.1 p.2) (fun _ => rfl),
    Fintype.sum_prod_type]
  exact Finset.sum_congr rfl (fun j _ => Fin.sum_univ_four _)

/-- A sum over the tile rows and the rows inside them is a sum over the tokens. -/
private theorem sum_row (H : Fin 1024 → EReal) :
    ∑ r : Fin 2, ∑ i : Fin 512, H (rowOf r i) = ∑ t : Fin 1024, H t := by
  rw [← Fintype.sum_prod_type (f := fun p : Fin 2 × Fin 512 => H (rowOf p.1 p.2))]
  exact Fintype.sum_equiv rowEquiv (fun p => H (rowOf p.1 p.2)) H (fun _ => rfl)

/-- A sum over every tile, row and lane is a sum over (b, i, j) of the four channels. -/
private theorem regroup (F : Fin 16 → Fin 1024 → Fin 1024 → Fin 4 → EReal) :
    ∑ b : Fin 16, ∑ r : Fin 2, ∑ i : Fin 512, ∑ l : Fin 4096, F b (rowOf r i) (colOf l) (chanOf l)
      = ∑ b : Fin 16, ∑ i : Fin 1024, ∑ j : Fin 1024, (F b i j 0 + F b i j 1 + F b i j 2 + F b i j 3) := by
  refine Finset.sum_congr rfl (fun b _ => ?_)
  rw [← sum_row (fun t => ∑ j : Fin 1024, (F b t j 0 + F b t j 1 + F b t j 2 + F b t j 3))]
  refine Finset.sum_congr rfl (fun r _ => Finset.sum_congr rfl (fun i _ => ?_))
  exact sum_lane (fun j c => F b (rowOf r i) j c)

/-- A real number. -/
private def IsReal (x : EReal) : Prop := ∃ r : ℝ, x = (r : EReal)

private theorem IsReal.add {x y : EReal} (hx : IsReal x) (hy : IsReal y) : IsReal (x + y) := by
  obtain ⟨a, rfl⟩ := hx
  obtain ⟨b, rfl⟩ := hy
  exact ⟨a + b, (EReal.coe_add a b).symm⟩

private theorem IsReal.mul {x y : EReal} (hx : IsReal x) (hy : IsReal y) : IsReal (x * y) := by
  obtain ⟨a, rfl⟩ := hx
  obtain ⟨b, rfl⟩ := hy
  exact ⟨a * b, (EReal.coe_mul a b).symm⟩

private theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih =>
    rw [Finset.sum_insert ha]
    exact (h a).add ih

private theorem isReal_of_zero_or_one {x : EReal} (h : x = 0 ∨ x = 1) : IsReal x := by
  rcases h with h | h
  · exact ⟨0, by rw [h, EReal.coe_zero]⟩
  · exact ⟨1, by rw [h, EReal.coe_one]⟩

/-- The t-weighted tile sum is the sum of the t pairs. -/
theorem tileT_eq_sumT (hw0 : w 0 = 1) (hw1 : w 1 = 1) (hw2 : w 2 = 0) (hw3 : w 3 = 0) : tileT d w = sumT d := by
  unfold tileT sumT
  rw [regroup (fun b i j c => d b i j c * w c)]
  refine Finset.sum_congr rfl (fun b _ => Finset.sum_congr rfl (fun i _ => Finset.sum_congr rfl (fun j _ => ?_)))
  show d b i j 0 * w 0 + d b i j 1 * w 1 + d b i j 2 * w 2 + d b i j 3 * w 3 = d b i j 0 + d b i j 1
  rw [hw0, hw1, hw2, hw3, mul_one, mul_one, mul_zero, mul_zero, add_zero, add_zero]

/-- With `q` valued in {0, 1} the product distributes over the pair. -/
private theorem pair_mul {x y p : EReal} (hp : p = 0 ∨ p = 1) : x * p + y * p = (x + y) * p := by
  rcases hp with h | h
  · rw [h, mul_zero, mul_zero, mul_zero, add_zero]
  · rw [h, mul_one, mul_one, mul_one]

/-- The doubly weighted tile sum is the `q`-weighted sum of the t pairs. -/
theorem tileInterT_eq_interT (hw0 : w 0 = 1) (hw1 : w 1 = 1) (hw2 : w 2 = 0) (hw3 : w 3 = 0)
    (hq : ∀ i j, q i j = 0 ∨ q i j = 1) : tileInterT d q w = interT d q := by
  unfold tileInterT interT
  rw [regroup (fun b i j c => (d b i j c * q i j) * w c)]
  refine Finset.sum_congr rfl (fun b _ => Finset.sum_congr rfl (fun i _ => Finset.sum_congr rfl (fun j _ => ?_)))
  show d b i j 0 * q i j * w 0 + d b i j 1 * q i j * w 1 + d b i j 2 * q i j * w 2 + d b i j 3 * q i j * w 3
    = (d b i j 0 + d b i j 1) * q i j
  rw [hw0, hw1, hw2, hw3, mul_one, mul_one, mul_zero, mul_zero, add_zero, add_zero]
  exact pair_mul (hq i j)

/-- The whole tile sum is the t pairs' sum plus the s pairs' sum. -/
theorem tileAll_eq : tileAll d = sumT d + sumS d := by
  unfold tileAll sumT sumS
  rw [regroup d]
  simp only [← Finset.sum_add_distrib]
  refine Finset.sum_congr rfl (fun b _ => Finset.sum_congr rfl (fun i _ => Finset.sum_congr rfl (fun j _ => ?_)))
  rw [add_assoc (d b i j 0 + d b i j 1)]

/-- The `q`-weighted tile sum is the `q`-weighted t pairs' sum plus the `q`-weighted s pairs' sum. -/
theorem tileInterAll_eq (hq : ∀ i j, q i j = 0 ∨ q i j = 1) : tileInterAll d q = interT d q + interS d q := by
  unfold tileInterAll interT interS
  rw [regroup (fun b i j c => d b i j c * q i j)]
  simp only [← Finset.sum_add_distrib]
  refine Finset.sum_congr rfl (fun b _ => Finset.sum_congr rfl (fun i _ => Finset.sum_congr rfl (fun j _ => ?_)))
  show d b i j 0 * q i j + d b i j 1 * q i j + d b i j 2 * q i j + d b i j 3 * q i j
    = (d b i j 0 + d b i j 1) * q i j + (d b i j 2 + d b i j 3) * q i j
  rw [← pair_mul (hq i j), ← pair_mul (hq i j), add_assoc (d b i j 0 * q i j + d b i j 1 * q i j)]

/-- The t pairs' sum of real entries is real. -/
private theorem sumT_real (hd : ∀ b i j c, ∃ x : ℝ, d b i j c = (x : EReal)) : IsReal (sumT d) := by
  unfold sumT
  exact IsReal.sum _ _ (fun b => IsReal.sum _ _ (fun i => IsReal.sum _ _ (fun j => IsReal.add (hd b i j 0) (hd b i j 1))))

/-- The `q`-weighted t pairs' sum of real entries is real. -/
private theorem interT_real (hq : ∀ i j, q i j = 0 ∨ q i j = 1) (hd : ∀ b i j c, ∃ x : ℝ, d b i j c = (x : EReal)) :
    IsReal (interT d q) := by
  unfold interT
  exact IsReal.sum _ _ (fun b => IsReal.sum _ _ (fun i => IsReal.sum _ _ (fun j =>
    IsReal.mul (IsReal.add (hd b i j 0) (hd b i j 1)) (isReal_of_zero_or_one (hq i j)))))

/-- The `q`-weighted tile sum less its t part is the `q`-weighted sum of the s pairs. -/
theorem tileInterAll_sub_tileInterT (hw0 : w 0 = 1) (hw1 : w 1 = 1) (hw2 : w 2 = 0) (hw3 : w 3 = 0)
    (hq : ∀ i j, q i j = 0 ∨ q i j = 1) (hd : ∀ b i j c, ∃ x : ℝ, d b i j c = (x : EReal)) :
    tileInterAll d q - tileInterT d q w = interS d q := by
  rw [tileInterAll_eq d q hq, tileInterT_eq_interT d q w hw0 hw1 hw2 hw3 hq]
  obtain ⟨x, hx⟩ := interT_real d q hq hd
  rw [hx]
  exact EReal.add_sub_cancel_left

/-- The whole tile sum less its t part, less the `q`-weighted s part, is the s pairs' sum less their `q`-weighted sum. -/
theorem tileAll_sub_sub (hw0 : w 0 = 1) (hw1 : w 1 = 1) (hw2 : w 2 = 0) (hw3 : w 3 = 0)
    (hq : ∀ i j, q i j = 0 ∨ q i j = 1) (hd : ∀ b i j c, ∃ x : ℝ, d b i j c = (x : EReal)) :
    (tileAll d - tileT d w) - (tileInterAll d q - tileInterT d q w) = sumS d - interS d q := by
  rw [tileInterAll_sub_tileInterT d q w hw0 hw1 hw2 hw3 hq hd, tileAll_eq d, tileT_eq_sumT d w hw0 hw1 hw2 hw3]
  obtain ⟨x, hx⟩ := sumT_real d hd
  rw [hx, EReal.add_sub_cancel_left]

end Cert.Spec

end
-- ==== Proof.Finite.lean ====
/-
  From the finiteness precondition to real entries.

  The precondition computes, for each of the two float inputs, the conjunction over every index of the test
  `|x| < +∞`, and then the conjunction of the two results.  If the result is 1, every test came out 1.  At an extended
  real, `|x| = max x (-x)`; it equals +∞ at both infinities, so the strict inequality leaves only the real numbers.
-/
import proofs.«402724_j74560632258756_3_alg».proof.Pre_finite_inputs
import Idealize.ShloMosaic.PureOps.Ideal.Laws
import Idealize.ShloMosaic.Lib.ReduceAll
import Idealize.ShloMosaic.Lib.ValueIdx

noncomputable section

namespace Cert.Spec

open Idealize.ShloMosaic

/-- The pattern 0x7F800000 denotes +∞. -/
private theorem inf_word : Ideal.ofBits .f32 0x7F800000#32 = (⊤ : EReal) := by
  simp [Ideal.ofBits, Ideal.ieee]

/-- An extended real whose absolute value is below +∞ is a real number. -/
private theorem real_of_abs_lt_top (x : EReal) (h : max x (-x) < ⊤) : ∃ r : ℝ, x = (r : EReal) := by
  induction x using EReal.rec with
  | bot => simp at h
  | coe r => exact ⟨r, rfl⟩
  | top => simp at h

/-- One entry that passes the test `|x| < +∞` is a real number. -/
private theorem real_of_test (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_word] at h'
  unfold Ideal.cmp at h'
  by_cases hlt : max (x : EReal) (-(x : EReal)) < ⊤
  · exact real_of_abs_lt_top x hlt
  · simp [hlt] at h'

/-- The result of the precondition has one index. -/
private instance : Subsingleton Cert.Pre_finite_inputs.S_.Idx := ⟨fun a b => funext fun d => d.elim0⟩

/-- If the finiteness precondition holds, every entry of both float inputs is a real number. -/
theorem finite_of_pre [Cert.Pre_finite_inputs.Facts] (a0 a1 : FVec Ideal Cert.Pre_finite_inputs.S16x1024x1024x4 .f32) (ms : IVec Cert.Pre_finite_inputs.S4 32)
    (h : Cert.Pre_finite_inputs.fn (F := Ideal) a0 a1 ms = fun _ => 1#1) :
    (∀ i, ∃ x : ℝ, a0 i = (x : EReal)) ∧ (∀ i, ∃ x : ℝ, a1 i = (x : EReal)) := by
  have h0 := congrFun h ValueIdx.ix0
  dsimp only [Cert.Pre_finite_inputs.fn] at h0
  obtain ⟨e0, e1⟩ := IntOp.andi_eq_one.1 h0
  refine ⟨fun i => ?_, fun i => ?_⟩
  · exact real_of_test (a0 i) (Host.reduce_andi_all _ _ _ _ _ e0 i)
  · exact real_of_test (a1 i) (Host.reduce_andi_all _ _ _ _ _ e1 i)

end Cert.Spec

end
-- ==== Proof.lean ====
/-
  The certificate of the pose-loss kernel against its reference.

  Both programs turn the view sizes Ms into a view id per token by the same host operations, and finish with the same
  scalar arithmetic on four sums.  The reference sums, over (batch, row token, column token), the t pair and the s pair
  of the squared difference, alone and weighted by "the two tokens lie in different views".  The kernel walks the same
  data as 16 × 2 tiles of 512 rows by 4096 lanes (lane = 4 · column + channel) and keeps four running sums per batch:
  everything, the t channels, the different-view entries, and the different-view t channels; the s sums are obtained
  afterwards by subtraction.  Regrouping the finite sums identifies the kernel's t sums with the reference's; the
  subtractions cancel because, the float inputs being finite, every entry is a real number.

  The three frames: the kernel programs run to the end with their arguments unchanged by the pipeline's launch theorem
  over the two control cases of the body (reset at row tile 0, flush at row tile 1); the reference is a straight line
  of host operations.
-/
import proofs.«402724_j74560632258756_3_alg».proof.Defs
import proofs.«402724_j74560632258756_3_alg».proof.Proof.Gen.Kernel
import proofs.«402724_j74560632258756_3_alg».proof.Proof.Gen.KernelIdeal
import proofs.«402724_j74560632258756_3_alg».proof.Proof.Gen.ReferenceIdeal
import proofs.«402724_j74560632258756_3_alg».proof.Proof.Gen.Pre_finite_inputs
import proofs.«402724_j74560632258756_3_alg».proof.Proof.KFrame
import proofs.«402724_j74560632258756_3_alg».proof.Proof.KIValue
import proofs.«402724_j74560632258756_3_alg».proof.Proof.RefRun
import proofs.«402724_j74560632258756_3_alg».proof.Proof.RefRead
import proofs.«402724_j74560632258756_3_alg».proof.Proof.SumLaws
import proofs.«402724_j74560632258756_3_alg».proof.Proof.Finite

set_option maxRecDepth 16384

noncomputable section

namespace Cert.Proof

open Idealize.ShloMosaic Idealize.ShloMosaic.TcCoe Idealize.ShloMosaic.ValueIdx Idealize.SL.Sem Cert.Spec

attribute [local irreducible] Host.reduce Host.gather Host.scatter Host.reduceWindow in
/-- Both programs compute the view ids from the view sizes by the same operations. -/
theorem vids_eq (ms : IVec Cert.KernelIdeal.S4 32) : Cert.ReferenceIdeal.HRun.vids ms = Cert.KernelIdeal.HHost.vids ms := rfl

/-- Both programs compute the seven losses from the four sums and the view sizes by the same operations. -/
theorem lossOf_eq (a b c d : FVec Ideal Cert.KernelIdeal.S_ .f32) (ms : IVec Cert.KernelIdeal.S4 32) :
    Cert.ReferenceIdeal.HRun.lossOf (F := Ideal) a b c d ms = Cert.KernelIdeal.HHost.lossOf (F := Ideal) a b c d ms := rfl

/-- A difference of two rank-0 vectors is the difference of their entries. -/
theorem subf_const (x y : EReal) : subf (F := Ideal) (s := Cert.KernelIdeal.S_) (φ := .f32) (fun _ => x) (fun _ => y) = fun _ => x - y := rfl

/-- With real entries, the seven losses computed from the tile sums are those computed from the pair sums. -/
theorem bridge (a0 a1 : FVec Ideal Cert.KernelIdeal.S16x1024x1024x4 .f32) (ms : IVec Cert.KernelIdeal.S4 32)
    (h0 : ∀ i, ∃ x : ℝ, a0 i = (x : EReal)) (h1 : ∀ i, ∃ x : ℝ, a1 i = (x : EReal)) :
    Cert.ReferenceIdeal.HRun.refOut (F := Ideal) a0 a1 ms
      = Cert.KernelIdeal.HHost.lossOf (F := Ideal)
          (subf (fun _ => tileT (sq a0 a1) chanT) (fun _ => tileInterT (sq a0 a1) (diffView (Cert.KernelIdeal.HHost.vids ms)) chanT))
          (subf (subf (fun _ => tileAll (sq a0 a1)) (fun _ => tileT (sq a0 a1) chanT)) (subf (fun _ => tileInterAll (sq a0 a1) (diffView (Cert.KernelIdeal.HHost.vids ms))) (fun _ => tileInterT (sq a0 a1) (diffView (Cert.KernelIdeal.HHost.vids ms)) chanT)))
          (fun _ => tileInterT (sq a0 a1) (diffView (Cert.KernelIdeal.HHost.vids ms)) chanT)
          (subf (fun _ => tileInterAll (sq a0 a1) (diffView (Cert.KernelIdeal.HHost.vids ms))) (fun _ => tileInterT (sq a0 a1) (diffView (Cert.KernelIdeal.HHost.vids ms)) chanT))
          ms := by
  have hq : ∀ i j, diffView (Cert.KernelIdeal.HHost.vids ms) i j = 0 ∨ diffView (Cert.KernelIdeal.HHost.vids ms) i j = 1 :=
    diffView_zero_or_one _
  have hd : ∀ b i j c, ∃ x : ℝ, sq a0 a1 b i j c = (x : EReal) := sq_real a0 a1 h0 h1
  unfold Cert.ReferenceIdeal.HRun.refOut
  rw [Cert.ReferenceIdeal.HRun.totT_ideal, Cert.ReferenceIdeal.HRun.totS_ideal, Cert.ReferenceIdeal.HRun.interT_ideal,
    Cert.ReferenceIdeal.HRun.interS_ideal, vids_eq, lossOf_eq]
  simp only [subf_const]
  have e1 := tileT_eq_sumT (sq a0 a1) chanT chanT_0 chanT_1 chanT_2 chanT_3
  have e2 := tileInterT_eq_interT (sq a0 a1) (diffView (Cert.KernelIdeal.HHost.vids ms)) chanT chanT_0 chanT_1 chanT_2 chanT_3 hq
  have e3 := tileInterAll_sub_tileInterT (sq a0 a1) (diffView (Cert.KernelIdeal.HHost.vids ms)) chanT chanT_0 chanT_1 chanT_2 chanT_3 hq hd
  have e4 := tileAll_sub_sub (sq a0 a1) (diffView (Cert.KernelIdeal.HHost.vids ms)) chanT chanT_0 chanT_1 chanT_2 chanT_3 hq hd
  rw [e4, e3, e1, e2]

end Cert.Proof

namespace Cert.Proof

open Idealize.ShloMosaic Idealize.ShloMosaic.TcCoe Idealize.SL.Sem

theorem frame_p : Cert.frame_Kernel (hKernel := Cert.Kernel.Gen.facts) (hPre_finite_inputs := Cert.Pre_finite_inputs.Gen.facts) :=
  fun m ρ _ => Cert.Kernel.Hand.frame m ρ

theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HRun.run (F := Ideal) m ρ)

/-- Run from memories agreeing on the arguments, with finite float inputs, the two idealized programs end with the same
    seven losses: the kernel's from its tile sums, the reference's from its pair sums, equal by the regrouping laws. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.kerOut m c, Cert.KernelIdeal.Hand.value_run m ρ, ?_⟩
  refine (θ_run Cert.ReferenceIdeal.defs _ _).mono (fun _ h c => ⟨(h c).1.trans ?_, (h c).2⟩)
    (Cert.ReferenceIdeal.HRun.run (F := Ideal) m' ρ')
  rw [(hagree c).1, (hagree c).2.1, (hagree c).2.2]
  have hfin := Cert.Spec.finite_of_pre _ _ _ (hpre c)
  exact bridge _ _ _ hfin.1 hfin.2

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
